-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v63)) (v3 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_v64) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S131072 : Shape := ⟨1, ![131072]⟩
abbrev S1x131072x128 : Shape := ⟨3, ![1, 131072, 128]⟩
abbrev S9x16 : Shape := ⟨2, ![9, 16]⟩
abbrev S128x80 : Shape := ⟨2, ![128, 80]⟩
abbrev S128 : Shape := ⟨1, ![128]⟩
abbrev S384x128 : Shape := ⟨2, ![384, 128]⟩
abbrev S384 : Shape := ⟨1, ![384]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S1x131072x128 : S_.BroadcastsInDim S1x131072x128 (![] : Fin 0 → Fin S1x131072x128.rank)
  reducesTo_S1x131072x128_S_d0_1_2 : S1x131072x128.ReducesTo [0, 1, 2] S_
  bcast_S_S9x16 : S_.BroadcastsInDim S9x16 (![] : Fin 0 → Fin S9x16.rank)
  reducesTo_S9x16_S_d0_1 : S9x16.ReducesTo [0, 1] S_
  bcast_S_S128x80 : S_.BroadcastsInDim S128x80 (![] : Fin 0 → Fin S128x80.rank)
  reducesTo_S128x80_S_d0_1 : S128x80.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S131072 : S_.BroadcastsInDim S131072 (![] : Fin 0 → Fin S131072.rank)
  reducesTo_S131072_S_d0 : S131072.ReducesTo [0] S_

variable [Facts]

def fn_part6 {F : FTy → Type} [FloatOps F] (main_arg1 : IVec S131072 32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_c_40 : IVec S_ 32 := constantI S_ 32 0#32
  let main_v104 : IVec S131072 32 := broadcastInDim S131072 ![] bcast_S_S131072 main_c_40
  let main_v105 : IVec S131072 1 := cmpi .sge main_arg1 main_v104
  let main_c_41 : IVec S_ 1 := constantI S_ 1 1#1
  let main_v106 : IVec S_ 1 := (fun x v => Host.reduce IntOp.andi x v reducesTo_S131072_S_d0 h_S_) main_v105 main_c_41
  let main_v107 : IVec S_ 1 := andi main_v103 main_v106
  main_v107

def fn_part5 {F : FTy → Type} [FloatOps F] (main_arg1 : IVec S131072 32) (main_arg19 : FVec F S64 .f32) (main_arg20 : FVec F S1x64 .f32) (main_arg21 : FVec F S1 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1x64 .f32 := Host.absf main_arg20
  let main_cst_36 : FVec F S_ .f32 := constant S_ .f32 0x7F800000#32
  let main_v95 : FVec F S1x64 .f32 := broadcastInDim S1x64 ![] bcast_S_S1x64 main_cst_36
  let main_v96 : IVec S1x64 1 := cmpf .olt main_v94 main_v95
  let main_c_37 : IVec S_ 1 := constantI S_ 1 1#1
  let main_v97 : IVec S_ 1 := (fun x v => Host.reduce IntOp.andi x v reducesTo_S1x64_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg1 main_v98 main_v101 main_c_39

def fn_part4 {F : FTy → Type} [FloatOps F] (main_arg1 : IVec S131072 32) (main_arg15 : FVec F S64 .f32) (main_arg16 : FVec F S1x64 .f32) (main_arg17 : FVec F S1 .f32) (main_arg18 : FVec F S64x128 .f32) (main_arg19 : FVec F S64 .f32) (main_arg20 : FVec F S1x64 .f32) (main_arg21 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg16
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S64x128 .f32 := Host.absf main_arg18
  let main_cst_32 : FVec F S_ .f32 := constant S_ .f32 0x7F800000#32
  fn_part5 (F := F) main_arg1 main_arg19 main_arg20 main_arg21 main_v83 main_v84 main_cst_32

def fn_part3 {F : FTy → Type} [FloatOps F] (main_arg1 : IVec S131072 32) (main_arg12 : FVec F S64x128 .f32) (main_arg13 : FVec F S64 .f32) (main_arg14 : FVec F S64x128 .f32) (main_arg15 : FVec F S64 .f32) (main_arg16 : FVec F S1x64 .f32) (main_arg17 : FVec F S1 .f32) (main_arg18 : FVec F S64x128 .f32) (main_arg19 : FVec F S64 .f32) (main_arg20 : FVec F S1x64 .f32) (main_arg21 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg1 main_arg15 main_arg16 main_arg17 main_arg18 main_arg19 main_arg20 main_arg21 main_v63 main_v67

def fn_part2 {F : FTy → Type} [FloatOps F] (main_arg1 : IVec S131072 32) (main_arg8 : FVec F S384 .f32) (main_arg9 : FVec F S384 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) (main_arg16 : FVec F S1x64 .f32) (main_arg17 : FVec F S1 .f32) (main_arg18 : FVec F S64x128 .f32) (main_arg19 : FVec F S64 .f32) (main_arg20 : FVec F S1x64 .f32) (main_arg21 : FVec F S1 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_arg18 main_arg19 main_arg20 main_arg21 main_v48 main_v49 main_v50

def fn_part1 {F : FTy → Type} [FloatOps F] (main_arg1 : IVec S131072 32) (main_arg5 : FVec F S128 .f32) (main_arg6 : FVec F S384x128 .f32) (main_arg7 : FVec F S384x128 .f32) (main_arg8 : FVec F S384 .f32) (main_arg9 : FVec F S384 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) (main_arg16 : FVec F S1x64 .f32) (main_arg17 : FVec F S1 .f32) (main_arg18 : FVec F S64x128 .f32) (main_arg19 : FVec F S64 .f32) (main_arg20 : FVec F S1x64 .f32) (main_arg21 : FVec F S1 .f32) (main_v13 : IVec S_ 1) (main_v16 : IVec S128x80 1) : IVec S_ 1 :=
  let main_c_5 : IVec S_ 1 := constantI S_ 1 1#1
  let main_v17 : IVec S_ 1 := (fun x v => Host.reduce IntOp.andi x v reducesTo_S128x80_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_v33

def fn {F : FTy → Type} [FloatOps F] (main_arg0 : FVec F S131072x64 .f32) (main_arg1 : IVec S131072 32) (main_arg2 : FVec F S1x131072x128 .f32) (main_arg3 : FVec F S9x16 .f32) (main_arg4 : FVec F S128x80 .f32) (main_arg5 : FVec F S128 .f32) (main_arg6 : FVec F S384x128 .f32) (main_arg7 : FVec F S384x128 .f32) (main_arg8 : FVec F S384 .f32) (main_arg9 : FVec F S384 .f32) (main_arg10 : FVec F S128x128 .f32) (main_arg11 : FVec F S128 .f32) (main_arg12 : FVec F S64x128 .f32) (main_arg13 : FVec F S64 .f32) (main_arg14 : FVec F S64x128 .f32) (main_arg15 : FVec F S64 .f32) (main_arg16 : FVec F S1x64 .f32) (main_arg17 : FVec F S1 .f32) (main_arg18 : FVec F S64x128 .f32) (main_arg19 : FVec F S64 .f32) (main_arg20 : FVec F S1x64 .f32) (main_arg21 : FVec F S1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S1x131072x128 .f32 := Host.absf main_arg2
  let main_cst_0 : FVec F S_ .f32 := constant S_ .f32 0x7F800000#32
  let main_v5 : FVec F S1x131072x128 .f32 := broadcastInDim S1x131072x128 ![] bcast_S_S1x131072x128 main_cst_0
  let main_v6 : IVec S1x131072x128 1 := cmpf .olt main_v4 main_v5
  let main_c_1 : IVec S_ 1 := constantI S_ 1 1#1
  let main_v7 : IVec S_ 1 := (fun x v => Host.reduce IntOp.andi x v reducesTo_S1x131072x128_S_d0_1_2 h_S_) main_v6 main_c_1
  let main_v8 : IVec S_ 1 := andi main_v3 main_v7
  let main_v9 : FVec F S9x16 .f32 := Host.absf main_arg3
  let main_cst_2 : FVec F S_ .f32 := constant S_ .f32 0x7F800000#32
  let main_v10 : FVec F S9x16 .f32 := broadcastInDim S9x16 ![] bcast_S_S9x16 main_cst_2
  let main_v11 : IVec S9x16 1 := cmpf .olt main_v9 main_v10
  let main_c_3 : IVec S_ 1 := constantI S_ 1 1#1
  let main_v12 : IVec S_ 1 := (fun x v => Host.reduce IntOp.andi x v reducesTo_S9x16_S_d0_1 h_S_) main_v11 main_c_3
  let main_v13 : IVec S_ 1 := andi main_v8 main_v12
  let main_v14 : FVec F S128x80 .f32 := Host.absf main_arg4
  let main_cst_4 : FVec F S_ .f32 := constant S_ .f32 0x7F800000#32
  let main_v15 : FVec F S128x80 .f32 := broadcastInDim S128x80 ![] bcast_S_S128x80 main_cst_4
  let main_v16 : IVec S128x80 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S131072x64 : Shape := ⟨2, ![131072, 64]⟩
abbrev S131072 : Shape := ⟨1, ![131072]⟩
abbrev S1x131072x128 : Shape := ⟨3, ![1, 131072, 128]⟩
abbrev S9x16 : Shape := ⟨2, ![9, 16]⟩
abbrev S128x80 : Shape := ⟨2, ![128, 80]⟩
abbrev S128 : Shape := ⟨1, ![128]⟩
abbrev S384x128 : Shape := ⟨2, ![384, 128]⟩
abbrev S384 : Shape := ⟨1, ![384]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S64x1x2048 : Shape := ⟨3, ![64, 1, 2048]⟩
abbrev S131072x128 : Shape := ⟨2, ![131072, 128]⟩
abbrev S128x64 : Shape := ⟨2, ![128, 64]⟩
abbrev S128x16 : Shape := ⟨2, ![128, 16]⟩
abbrev S16x128 : Shape := ⟨2, ![16, 128]⟩
abbrev S9x128 : Shape := ⟨2, ![9, 128]⟩
abbrev S1x128 : Shape := ⟨2, ![1, 128]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S128x256 : Shape := ⟨2, ![128, 256]⟩
abbrev S256 : Shape := ⟨1, ![256]⟩
abbrev S1x256 : Shape := ⟨2, ![1, 256]⟩
abbrev S2x128 : Shape := ⟨2, ![2, 128]⟩
abbrev S128x2 : Shape := ⟨2, ![128, 2]⟩
abbrev S2 : Shape := ⟨1, ![2]⟩
abbrev S128x66 : Shape := ⟨2, ![128, 66]⟩
abbrev S256x66 : Shape := ⟨2, ![256, 66]⟩
abbrev S66 : Shape := ⟨1, ![66]⟩
abbrev S1x66 : Shape := ⟨2, ![1, 66]⟩
abbrev S131072x2 : Shape := ⟨2, ![131072, 2]⟩
abbrev S2048x64 : Shape := ⟨2, ![2048, 64]⟩
abbrev S1x1x2048 : Shape := ⟨3, ![1, 1, 2048]⟩
abbrev S2048x128 : Shape := ⟨2, ![2048, 128]⟩
abbrev S2048x2 : Shape := ⟨2, ![2048, 2]⟩
abbrev S1x2048 : Shape := ⟨2, ![1, 2048]⟩
abbrev S2048x1 : Shape := ⟨2, ![2048, 1]⟩
abbrev S2048x9 : Shape := ⟨2, ![2048, 9]⟩
abbrev S2048x256 : Shape := ⟨2, ![2048, 256]⟩
abbrev S2048x512 : Shape := ⟨2, ![2048, 512]⟩
abbrev S2048x66 : Shape := ⟨2, ![2048, 66]⟩
abbrev S131072x1 : Shape := ⟨2, ![131072, 1]⟩

abbrev nBuf : Space → Nat
  | .hbm => 100
  | .vmem => 21
  | .smem => 0
  | _ => 0

abbrev bufTy : (tb : Table) → Fin (tcTables nBuf tb) → BufTy
  | .hbm, ⟨0, _⟩ => ⟨S131072x64, .f32⟩
  | .hbm, ⟨1, _⟩ => ⟨S131072, .i32⟩
  | .hbm, ⟨2, _⟩ => ⟨S1x131072x128, .f32⟩
  | .hbm, ⟨3, _⟩ => ⟨S9x16, .f32⟩
  | .hbm, ⟨4, _⟩ => ⟨S128x80, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64x128, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S64x128, .f32⟩
  | .hbm, ⟨19, _⟩ => ⟨S64, .f32⟩
  | .hbm, ⟨20, _⟩ => ⟨S1x64, .f32⟩
  | .hbm, ⟨21, _⟩ => ⟨S1, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S131072, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S64x1x2048, .i32⟩
  | .hbm, ⟨31, _⟩ => ⟨S131072x128, .f32⟩
  | .hbm, ⟨32, _⟩ => ⟨S128x64, .f32⟩
  | .hbm, ⟨33, _⟩ => ⟨S64x128, .f32⟩
  | .hbm, ⟨34, _⟩ => ⟨S64x128, .bf16⟩
  | .hbm, ⟨35, _⟩ => ⟨S128x16, .f32⟩
  | .hbm, ⟨36, _⟩ => ⟨S16x128, .f32⟩
  | .hbm, ⟨37, _⟩ => ⟨S9x128, .f32⟩
  | .hbm, ⟨38, _⟩ => ⟨S9x128, .bf16⟩
  | .hbm, ⟨39, _⟩ => ⟨S1x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S128x512, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x512, .f32⟩
  | .hbm, ⟨62, _⟩ => ⟨S256x512, .f32⟩
  | .hbm, ⟨63, _⟩ => ⟨S256x512, .bf16⟩
  | .hbm, ⟨64, _⟩ => ⟨S128, .f32⟩
  | .hbm, ⟨65, _⟩ => ⟨S128, .f32⟩
  | .hbm, ⟨66, _⟩ => ⟨S512, .f32⟩
  | .hbm, ⟨67, _⟩ => ⟨S1x512, .f32⟩
  | .hbm, ⟨68, _⟩ => ⟨S128x128, .f32⟩
  | .hbm, ⟨69, _⟩ => ⟨S128, .f32⟩
  | .hbm, ⟨70, _⟩ => ⟨S128x128, .f32⟩
  | .hbm, ⟨71, _⟩ => ⟨S128x128, .f32⟩
  | .hbm, ⟨72, _⟩ => ⟨S128x256, .f32⟩
  | .hbm, ⟨73, _⟩ => ⟨S128x256, .bf16⟩
  | .hbm, ⟨74, _⟩ => ⟨S256, .f32⟩
  | .hbm, ⟨75, _⟩ => ⟨S1x256, .f32⟩
  | .hbm, ⟨76, _⟩ => ⟨S_, .f32⟩
  | .hbm, ⟨77, _⟩ => ⟨S1x64, .f32⟩
  | .hbm, ⟨78, _⟩ => ⟨S1x128, .f32⟩
  | .hbm, ⟨79, _⟩ => ⟨S1x128, .f32⟩
  | .hbm, ⟨80, _⟩ => ⟨S2x128, .f32⟩
  | .hbm, ⟨81, _⟩ => ⟨S128x2, .f32⟩
  | .hbm, ⟨82, _⟩ => ⟨S2, .f32⟩
  | .hbm, ⟨83, _⟩ => ⟨S128x64, .f32⟩
  | .hbm, ⟨84, _⟩ => ⟨S_, .f32⟩
  | .hbm, ⟨85, _⟩ => ⟨S128x2, .f32⟩
  | .hbm, ⟨86, _⟩ => ⟨S128x66, .f32⟩
  | .hbm, ⟨87, _⟩ => ⟨S_, .f32⟩
  | .hbm, ⟨88, _⟩ => ⟨S128x64, .f32⟩
  | .hbm, ⟨89, _⟩ => ⟨S128x66, .f32⟩
  | .hbm, ⟨90, _⟩ => ⟨S256x66, .f32⟩
  | .hbm, ⟨91, _⟩ => ⟨S256x66, .bf16⟩
  | .hbm, ⟨92, _⟩ => ⟨S66, .f32⟩
  | .hbm, ⟨93, _⟩ => ⟨S1x66, .f32⟩
  | .hbm, ⟨94, _⟩ => ⟨S131072x64, .f32⟩
  | .hbm, ⟨95, _⟩ => ⟨S131072x2, .f32⟩
  | .hbm, ⟨96, _⟩ => ⟨S131072x128, .f32⟩
  | .hbm, ⟨97, _⟩ => ⟨S131072x1, .f32⟩
  | .hbm, ⟨98, _⟩ => ⟨S131072x1, .f32⟩
  | .hbm, ⟨99, _⟩ => ⟨S1x131072x128, .f32⟩
  | .local _ .vmem, ⟨0, _⟩ => ⟨S2048x64, .f32⟩
  | .local _ .vmem, ⟨1, _⟩ => ⟨S2048x64, .f32⟩
  | .local _ .vmem, ⟨2, _⟩ => ⟨S1x1x2048, .i32⟩
  | .local _ .vmem, ⟨3, _⟩ => ⟨S1x1x2048, .i32⟩
  | .local _ .vmem, ⟨4, _⟩ => ⟨S2048x128, .f32⟩
  | .local _ .vmem, ⟨5, _⟩ => ⟨S2048x128, .f32⟩
  | .local _ .vmem, ⟨6, _⟩ => ⟨S64x128, .bf16⟩
  | .local _ .vmem, ⟨7, _⟩ => ⟨S9x128, .bf16⟩
  | .local _ .vmem, ⟨8, _⟩ => ⟨S1x128, .f32⟩
  | .local _ .vmem, ⟨9, _⟩ => ⟨S256x512, .bf16⟩
  | .local _ .vmem, ⟨10, _⟩ => ⟨S1x512, .f32⟩
  | .local _ .vmem, ⟨11, _⟩ => ⟨S128x256, .bf16⟩
  | .local _ .vmem, ⟨12, _⟩ => ⟨S1x256, .f32⟩
  | .local _ .vmem, ⟨13, _⟩ => ⟨S256x66, .bf16⟩
  | .local _ .vmem, ⟨14, _⟩ => ⟨S1x66, .f32⟩
  | .local _ .vmem, ⟨15, _⟩ => ⟨S2048x64, .f32⟩
  | .local _ .vmem, ⟨16, _⟩ => ⟨S2048x64, .f32⟩
  | .local _ .vmem, ⟨17, _⟩ => ⟨S2048x2, .f32⟩
  | .local _ .vmem, ⟨18, _⟩ => ⟨S2048x2, .f32⟩
  | .local _ .vmem, ⟨19, _⟩ => ⟨S2048x128, .f32⟩
  | .local _ .vmem, ⟨20, _⟩ => ⟨S2048x128, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_1 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_2 : Ref sig .tc := ⟨.hbm, 84, rfl⟩
abbrev main_v53 : Ref sig .tc := ⟨.hbm, 85, rfl⟩
abbrev main_v54 : Ref sig .tc := ⟨.hbm, 86, rfl⟩
abbrev main_cst_3 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61_0 : Ref sig .tc := ⟨.hbm, 94, rfl⟩
abbrev main_v61_1 : Ref sig .tc := ⟨.hbm, 95, rfl⟩
abbrev main_v61_2 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x66 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x66 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S131072 : S_.BroadcastsInDim S131072 (![] : Fin 0 → Fin S131072.rank)
  shapeCasts_S131072_S64x1x2048 : S131072.ShapeCasts S64x1x2048
  shapeCasts_S1x131072x128_S131072x128 : S1x131072x128.ShapeCasts S131072x128
  slices_S128x80_S128x64_0_0 : S128x80.Slices ![0, 0] S128x64
  transposes_S128x64_S64x128_1_0 : S128x64.Transposes [1, 0] S64x128
  bitsLt_bf16_f32 : FTy.bits .bf16 < FTy.bits .f32
  slices_S128x80_S128x16_0_64 : S128x80.Slices ![0, 64] S128x16
  transposes_S128x16_S16x128_1_0 : S128x16.Transposes [1, 0] S16x128
  shapeCasts_S128_S1x128 : S128.ShapeCasts S1x128
  slices_S384x128_S128x128_0_0 : S384x128.Slices ![0, 0] S128x128
  slices_S384x128_S128x128_128_0 : S384x128.Slices ![128, 0] S128x128
  slices_S384x128_S128x128_256_0 : S384x128.Slices ![256, 0] S128x128
  slices_S384_S128_0 : S384.Slices ![0] S128
  slices_S384_S128_128 : S384.Slices ![128] S128
  slices_S384_S128_256 : S384.Slices ![256] S128
  bcast_S_S128x128 : S_.BroadcastsInDim S128x128 (![] : Fin 0 → Fin S128x128.rank)
  transposes_S128x128_S128x128_1_0 : S128x128.Transposes [1, 0] S128x128
  concatenates_S128x128_S128x128_S128x128_S128x128_S128x512_d1 : Shape.Concatenates [S128x128, S128x128, S128x128, S128x128] S128x512 1
  concatenates_S128x512_S128x512_S256x512_d0 : Shape.Concatenates [S128x512, S128x512] S256x512 0
  concatenates_S128_S128_S128_S128_S512_d0 : Shape.Concatenates [S128, S128, S128, S128] S512 0
  shapeCasts_S512_S1x512 : S512.ShapeCasts S1x512
  concatenates_S64x128_S64x128_S128x128_d0 : Shape.Concatenates [S64x128, S64x128] S128x128 0
  concatenates_S64_S64_S128_d0 : Shape.Concatenates [S64, S64] S128 0
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  bcast_S_S1x64 : S_.BroadcastsInDim S1x64 (![] : Fin 0 → Fin S1x64.rank)
  concatenates_S1x64_S1x64_S1x128_d1 : Shape.Concatenates [S1x64, S1x64] S1x128 1
  concatenates_S1x128_S1x128_S2x128_d0 : Shape.Concatenates [S1x128, S1x128] S2x128 0
  transposes_S2x128_S128x2_1_0 : S2x128.Transposes [1, 0] S128x2
  concatenates_S1_S1_S2_d0 : Shape.Concatenates [S1, S1] S2 0
  transposes_S64x128_S128x64_1_0 : S64x128.Transposes [1, 0] S128x64
  bcast_S_S128x2 : S_.BroadcastsInDim S128x2 (![] : Fin 0 → Fin S128x2.rank)
  concatenates_S128x64_S128x2_S128x66_d1 : Shape.Concatenates [S128x64, S128x2] S128x66 1
  bcast_S_S128x64 : S_.BroadcastsInDim S128x64 (![] : Fin 0 → Fin S128x64.rank)
  concatenates_S128x66_S128x66_S256x66_d0 : Shape.Concatenates [S128x66, S128x66] S256x66 0
  concatenates_S64_S2_S66_d0 : Shape.Concatenates [S64, S2] S66 0
  shapeCasts_S66_S1x66 : S66.ShapeCasts S1x66
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  transposes_S1x2048_p1_0_S2048x1 : S1x2048.Transposes [1, 0] S2048x1
  iota_S2048x9_d1_w32 : S2048x9.Iotas .tc 32 [1]
  broadcasts_S2048x1_S2048x9 : S2048x1.Broadcasts S2048x9
  natLt_1_32 : 1 < 32
  inb_S9x128_S9x128_0_0 : ∀ a, (![0, 0] : Fin 2 → Nat) a + S9x128.size a ≤ S9x128.size a
  h_S9x128 : 0 < S9x128.numel
  shapeCasts_S9x128_S9x128 : S9x128.ShapeCasts S9x128
  inb_S2048x64_S2048x64_0_0 : ∀ a, (![0, 0] : Fin 2 → Nat) a + S2048x64.size a ≤ S2048x64.size a
  h_S2048x64 : 0 < S2048x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x128_S2048x128_S2048x256_d1 : Shape.Concatenates [S2048x128, S2048x128] S2048x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x66_S256x66_0_0 : ∀ a, (![0, 0] : Fin 2 → Nat) a + S256x66.size a ≤ S256x66.size a
  h_S256x66 : 0 < S256x66.numel
  shapeCasts_S256x66_S256x66 : S256x66.ShapeCasts S256x66
  inb_S1x66_S1x66_0_0 : ∀ a, (![0, 0] : Fin 2 → Nat) a + S1x66.size a ≤ S1x66.size a
  h_S1x66 : 0 < S1x66.numel
  shapeCasts_S1x66_S1x66 : S1x66.ShapeCasts S1x66
  broadcasts_S1x66_S2048x66 : S1x66.Broadcasts S2048x66
  slices_S2048x66_o0_0_S2048x64 : S2048x66.Slices ![0, 0] S2048x64
  slices_S2048x66_o0_64_S2048x2 : S2048x66.Slices ![0, 64] S2048x2
  inb_S2048x2_S2048x2_0_0 : ∀ a, (![0, 0] : Fin 2 → Nat) a + S2048x2.size a ≤ S2048x2.size a
  h_S2048x2 : 0 < S2048x2.numel
  slices_S131072x2_S131072x1_0_0 : S131072x2.Slices ![0, 0] S131072x1
  slices_S131072x2_S131072x1_0_1 : S131072x2.Slices ![0, 1] S131072x1
  bcast_S131072x128_S1x131072x128_1_2 : S131072x128.BroadcastsInDim S1x131072x128 (![1, 2] : Fin 2 → Fin S1x131072x128.rank)
  dot_S9x16_S16x128_S9x128_1_0_0_1_n_n_wf : DotDims.WF S9x16 S16x128 S9x128 [1] [0] [0] [1] [] []
  dot_S2048x9_S9x128_S2048x128_1_0_0_1_n_n_wf : DotDims.WF S2048x9 S9x128 S2048x128 [1] [0] [0] [1] [] []
  dot_S2048x64_S64x128_S2048x128_1_0_0_1_n_n_wf : DotDims.WF S2048x64 S64x128 S2048x128 [1] [0] [0] [1] [] []
  dot_S2048x256_S256x512_S2048x512_1_0_0_1_n_n_wf : DotDims.WF S2048x256 S256x512 S2048x512 [1] [0] [0] [1] [] []
  dot_S2048x128_S128x256_S2048x256_1_0_0_1_n_n_wf : DotDims.WF S2048x128 S128x256 S2048x256 [1] [0] [0] [1] [] []
  dot_S2048x256_S256x66_S2048x66_1_0_0_1_n_n_wf : DotDims.WF S2048x256 S256x66 S2048x66 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S64x1x2048.size a
  hwx0_1 : ∀ i : grid0.Coords, EltTy.bits .i32 = 32 ∨ (Rect.block (s := S64x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x128.size a ≤ S9x128.size a
  hwx0_4 : ∀ i : grid0.Coords, EltTy.bits .bf16 = 32 ∨ (Rect.block (s := S9x128) S9x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S128x256.size a
  hwx0_8 : ∀ i : grid0.Coords, EltTy.bits .bf16 = 32 ∨ (Rect.block (s := S128x256) S128x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x66.size a ≤ S256x66.size a
  hwx0_10 : ∀ i : grid0.Coords, EltTy.bits .bf16 = 32 ∨ (Rect.block (s := S256x66) S256x66.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x66.size a ≤ S1x66.size a
  hwx0_11 : ∀ i : grid0.Coords, EltTy.bits .f32 = 32 ∨ (Rect.block (s := S1x66) S1x66.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x64.size a ≤ S131072x64.size a
  hwx0_12 : ∀ i : grid0.Coords, EltTy.bits .f32 = 32 ∨ (Rect.block (s := S131072x64) S2048x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x2.size a ≤ S131072x2.size a
  hwx0_13 : ∀ i : grid0.Coords, EltTy.bits .f32 = 32 ∨ (Rect.block (s := S131072x2) S2048x2.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S131072x128.size a
  hwx0_14 : ∀ i : grid0.Coords, EltTy.bits .f32 = 32 ∨ (Rect.block (s := S131072x128) S2048x128.size (cc0_transform_14 i) (hinb0_14 i)).WholeWords (EltTy.packing .f32)

variable [Facts₀]

def dot_S9x16_S16x128_S9x128_1_0_0_1_n_n : DotDims S9x16 S16x128 S9x128 where
  lhsContracting := [1]
  rhsContracting := [0]
  lhsNonContracting := [0]
  rhsNonContracting := [1]
  lhsBatch := []
  rhsBatch := []
  wf := dot_S9x16_S16x128_S9x128_1_0_0_1_n_n_wf
def dot_S2048x9_S9x128_S2048x128_1_0_0_1_n_n : DotDims S2048x9 S9x128 S2048x128 where
  lhsContracting := [1]
  rhsContracting := [0]
  lhsNonContracting := [0]
  rhsNonContracting := [1]
  lhsBatch := []
  rhsBatch := []
  wf := dot_S2048x9_S9x128_S2048x128_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x66_S2048x66_1_0_0_1_n_n : DotDims S2048x256 S256x66 S2048x66 where
  lhsContracting := [1]
  rhsContracting := [0]
  lhsNonContracting := [0]
  rhsNonContracting := [1]
  lhsBatch := []
  rhsBatch := []
  wf := dot_S2048x256_S256x66_S2048x66_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S9x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S128x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v58) S256x66.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v60) S1x66.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v61_0) S2048x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v61_1) S2048x2.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v61_2) S2048x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072x64 : Shape := ⟨2, ![131072, 64]⟩
abbrev S131072 : Shape := ⟨1, ![131072]⟩
abbrev S1x131072x128 : Shape := ⟨3, ![1, 131072, 128]⟩
abbrev S9x16 : Shape := ⟨2, ![9, 16]⟩
abbrev S128x80 : Shape := ⟨2, ![128, 80]⟩
abbrev S128 : Shape := ⟨1, ![128]⟩
abbrev S384x128 : Shape := ⟨2, ![384, 128]⟩
abbrev S384 : Shape := ⟨1, ![384]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S131072x1 : Shape := ⟨2, ![131072, 1]⟩
abbrev S131072x16 : Shape := ⟨2, ![131072, 16]⟩
abbrev S131072x80 : Shape := ⟨2, ![131072, 80]⟩
abbrev S80x128 : Shape := ⟨2, ![80, 128]⟩
abbrev S131072x128 : Shape := ⟨2, ![131072, 128]⟩
abbrev S1x128 : Shape := ⟨2, ![1, 128]⟩
abbrev S128x384 : Shape := ⟨2, ![128, 384]⟩
abbrev S131072x384 : Shape := ⟨2, ![131072, 384]⟩
abbrev S1x384 : Shape := ⟨2, ![1, 384]⟩
abbrev S128x64 : Shape := ⟨2, ![128, 64]⟩
abbrev S64x1 : Shape := ⟨2, ![64, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072, .i32⟩
  | .hbm, ⟨2, _⟩ => ⟨S1x131072x128, .f32⟩
  | .hbm, ⟨3, _⟩ => ⟨S9x16, .f32⟩
  | .hbm, ⟨4, _⟩ => ⟨S128x80, .f32⟩
  | .hbm, ⟨5, _⟩ => ⟨S128, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x128, .f32⟩
  | .hbm, ⟨11, _⟩ => ⟨S128, .f32⟩
  | .hbm, ⟨12, _⟩ => ⟨S64x128, .f32⟩
  | .hbm, ⟨13, _⟩ => ⟨S64, .f32⟩
  | .hbm, ⟨14, _⟩ => ⟨S64x128, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S64x128, .f32⟩
  | .hbm, ⟨19, _⟩ => ⟨S64, .f32⟩
  | .hbm, ⟨20, _⟩ => ⟨S1x64, .f32⟩
  | .hbm, ⟨21, _⟩ => ⟨S1, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x16, .f32⟩
  | .hbm, ⟨31, _⟩ => ⟨S131072x80, .f32⟩
  | .hbm, ⟨32, _⟩ => ⟨S80x128, .f32⟩
  | .hbm, ⟨33, _⟩ => ⟨S131072x128, .f32⟩
  | .hbm, ⟨34, _⟩ => ⟨S1x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S128x384, .f32⟩
  | .hbm, ⟨42, _⟩ => ⟨S131072x384, .f32⟩
  | .hbm, ⟨43, _⟩ => ⟨S1x384, .f32⟩
  | .hbm, ⟨44, _⟩ => ⟨S131072x384, .f32⟩
  | .hbm, ⟨45, _⟩ => ⟨S131072x384, .f32⟩
  | .hbm, ⟨46, _⟩ => ⟨S128x384, .f32⟩
  | .hbm, ⟨47, _⟩ => ⟨S131072x384, .f32⟩
  | .hbm, ⟨48, _⟩ => ⟨S1x384, .f32⟩
  | .hbm, ⟨49, _⟩ => ⟨S131072x384, .f32⟩
  | .hbm, ⟨50, _⟩ => ⟨S131072x384, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S_, .f32⟩
  | .hbm, ⟨57, _⟩ => ⟨S131072x128, .f32⟩
  | .hbm, ⟨58, _⟩ => ⟨S131072x128, .f32⟩
  | .hbm, ⟨59, _⟩ => ⟨S_, .f32⟩
  | .hbm, ⟨60, _⟩ => ⟨S131072x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S_, .f32⟩
  | .hbm, ⟨68, _⟩ => ⟨S131072x128, .f32⟩
  | .hbm, ⟨69, _⟩ => ⟨S131072x128, .f32⟩
  | .hbm, ⟨70, _⟩ => ⟨S_, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S131072x128, .f32⟩
  | .hbm, ⟨80, _⟩ => ⟨S131072x128, .f32⟩
  | .hbm, ⟨81, _⟩ => ⟨S131072x128, .f32⟩
  | .hbm, ⟨82, _⟩ => ⟨S131072x128, .f32⟩
  | .hbm, ⟨83, _⟩ => ⟨S131072x128, .f32⟩
  | .hbm, ⟨84, _⟩ => ⟨S128x128, .f32⟩
  | .hbm, ⟨85, _⟩ => ⟨S131072x128, .f32⟩
  | .hbm, ⟨86, _⟩ => ⟨S1x128, .f32⟩
  | .hbm, ⟨87, _⟩ => ⟨S131072x128, .f32⟩
  | .hbm, ⟨88, _⟩ => ⟨S131072x128, .f32⟩
  | .hbm, ⟨89, _⟩ => ⟨S_, .f32⟩
  | .hbm, ⟨90, _⟩ => ⟨S131072x128, .f32⟩
  | .hbm, ⟨91, _⟩ => ⟨S131072x128, .f32⟩
  | .hbm, ⟨92, _⟩ => ⟨S128x64, .f32⟩
  | .hbm, ⟨93, _⟩ => ⟨S131072x64, .f32⟩
  | .hbm, ⟨94, _⟩ => ⟨S1x64, .f32⟩
  | .hbm, ⟨95, _⟩ => ⟨S131072x64, .f32⟩
  | .hbm, ⟨96, _⟩ => ⟨S131072x64, .f32⟩
  | .hbm, ⟨97, _⟩ => ⟨S128x64, .f32⟩
  | .hbm, ⟨98, _⟩ => ⟨S131072x64, .f32⟩
  | .hbm, ⟨99, _⟩ => ⟨S1x64, .f32⟩
  | .hbm, ⟨100, _⟩ => ⟨S131072x64, .f32⟩
  | .hbm, ⟨101, _⟩ => ⟨S131072x64, .f32⟩
  | .hbm, ⟨102, _⟩ => ⟨S_, .f32⟩
  | .hbm, ⟨103, _⟩ => ⟨S131072x64, .f32⟩
  | .hbm, ⟨104, _⟩ => ⟨S131072x64, .f32⟩
  | .hbm, ⟨105, _⟩ => ⟨S64x1, .f32⟩
  | .hbm, ⟨106, _⟩ => ⟨S131072x1, .f32⟩
  | .hbm, ⟨107, _⟩ => ⟨S1x1, .f32⟩
  | .hbm, ⟨108, _⟩ => ⟨S131072x1, .f32⟩
  | .hbm, ⟨109, _⟩ => ⟨S131072x1, .f32⟩
  | .hbm, ⟨110, _⟩ => ⟨S128x64, .f32⟩
  | .hbm, ⟨111, _⟩ => ⟨S131072x64, .f32⟩
  | .hbm, ⟨112, _⟩ => ⟨S1x64, .f32⟩
  | .hbm, ⟨113, _⟩ => ⟨S131072x64, .f32⟩
  | .hbm, ⟨114, _⟩ => ⟨S131072x64, .f32⟩
  | .hbm, ⟨115, _⟩ => ⟨S_, .f32⟩
  | .hbm, ⟨116, _⟩ => ⟨S131072x64, .f32⟩
  | .hbm, ⟨117, _⟩ => ⟨S131072x64, .f32⟩
  | .hbm, ⟨118, _⟩ => ⟨S64x1, .f32⟩
  | .hbm, ⟨119, _⟩ => ⟨S131072x1, .f32⟩
  | .hbm, ⟨120, _⟩ => ⟨S1x1, .f32⟩
  | .hbm, ⟨121, _⟩ => ⟨S131072x1, .f32⟩
  | .hbm, ⟨122, _⟩ => ⟨S131072x1, .f32⟩
  | .hbm, ⟨123, _⟩ => ⟨S1x131072x128, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call0_cst : Ref sig .tc := ⟨.hbm, 37, rfl⟩
abbrev main_call0_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_2 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_cst : Ref sig .tc := ⟨.hbm, 89, rfl⟩
abbrev main_call1_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call2_cst : Ref sig .tc := ⟨.hbm, 102, rfl⟩
abbrev main_call2_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call3_cst : Ref sig .tc := ⟨.hbm, 115, rfl⟩
abbrev main_call3_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  concatenates_S131072x64_S131072x16_S131072x80_d1 : Shape.Concatenates [S131072x64, S131072x16] S131072x80 1
  transposes_S128x80_S80x128_1_0 : S128x80.Transposes [1, 0] S80x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  shapeCasts_S1x131072x128_S131072x128 : S1x131072x128.ShapeCasts S131072x128
  transposes_S384x128_S128x384_1_0 : S384x128.Transposes [1, 0] S128x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  transposes_S1x64_S64x1_1_0 : S1x64.Transposes [1, 0] S64x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S131072x128_S1x131072x128_1_2 : S131072x128.BroadcastsInDim S1x131072x128 (![1, 2] : Fin 2 → Fin S1x131072x128.rank)
  gather_S9x16_S131072x1_S131072x16_1_0_n_n_0_1_116_wf : GatherDims.WF S9x16 S131072x1 S131072x16 [1] [0] [] [0] [] 1 ![1, 16]
  dot_S131072x80_S80x128_S131072x128_1_0_0_1_n_n_wf : DotDims.WF S131072x80 S80x128 S131072x128 [1] [0] [0] [1] [] []
  dot_S131072x128_S128x384_S131072x384_1_0_0_1_n_n_wf : DotDims.WF S131072x128 S128x384 S131072x384 [1] [0] [0] [1] [] []
  dot_S131072x128_S128x128_S131072x128_1_0_0_1_n_n_wf : DotDims.WF S131072x128 S128x128 S131072x128 [1] [0] [0] [1] [] []
  dot_S131072x128_S128x64_S131072x64_1_0_0_1_n_n_wf : DotDims.WF S131072x128 S128x64 S131072x64 [1] [0] [0] [1] [] []
  dot_S131072x64_S64x1_S131072x1_1_0_0_1_n_n_wf : DotDims.WF S131072x64 S64x1 S131072x1 [1] [0] [0] [1] [] []

variable [Facts₀]

def gather_S9x16_S131072x1_S131072x16_1_0_n_n_0_1_116 : GatherDims S9x16 S131072x1 S131072x16 where
  offsetDims := [1]
  collapsedSliceDims := [0]
  operandBatchingDims := []
  startIndicesBatchingDims := []
  startIndexMap := [0]
  indexVectorDim := 1
  sliceSizes := ![1, 16]
  wf := gather_S9x16_S131072x1_S131072x16_1_0_n_n_0_1_116_wf
def dot_S131072x80_S80x128_S131072x128_1_0_0_1_n_n : DotDims S131072x80 S80x128 S131072x128 where
  lhsContracting := [1]
  rhsContracting := [0]
  lhsNonContracting := [0]
  rhsNonContracting := [1]
  lhsBatch := []
  rhsBatch := []
  wf := dot_S131072x80_S80x128_S131072x128_1_0_0_1_n_n_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.K.Base.lean ====
/-
  The contents of the word-level kernel program's buffers when its one pallas_call is entered, and each window's block
  at a grid point.

  @main first runs three stretches of host operations (two integer constants, the clamp of the action words, and the
  sixty-four operations that build the fused weight arrays); `V0` is the valuation after them, `V` the same read at a
  TensorCore reference, and `iblk w t` the block of window `w`'s array that grid point `t` works on.
-/
import proofs.«430544_j81647328297666_3_alg».proof.Proof.Gen.Kernel.Launch
import proofs.«430544_j81647328297666_3_alg».proof.Proof.Gen.Kernel.Skeleton
import proofs.«430544_j81647328297666_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered, as a valuation: after the three stretches of host
    operations that precede it. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Hand

end
-- ==== Proof.K.Entry.lean ====
/-
  The host side of the word-level kernel program's frame: @main is three stretches of host operations, the one
  pallas_call, and three more host operations; the argument arrays are untouched by the first stretches; the last
  three operations read only the call's results and write only their own; and the frame claim's post follows from
  the launch's post.
-/
import proofs.«430544_j81647328297666_3_alg».proof.Proof.K.Base

noncomputable section
set_option maxRecDepth 16384

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main reduces to the region continued by the three host operations after it, at the contents after the
    operations before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl | rfl
  all_goals
    intro w
    rw [StableHlo.unary_writes, Finset.mem_singleton]
    exact StableHlo.devRef_ne_of_ne (by revert w; decide)

/-! ## The argument arrays at the region's entry are as launched -/

/-- The references the operations before the region write, in order. -/
private def written : List (Ref sig .tc) :=
  [main_c, main_c_0, main_call0_v0, main_call0_v1, main_call0_v2, main_call0_v3, main_call0_v4, main_v0,
   main_v1, main_v2, main_v3, main_v4, main_v5, main_v6, main_v7, main_v8, main_v9, main_v10, main_v11, main_v12,
   main_v13, main_v14, main_v15, main_v16, main_v17, main_v18, main_v19, main_v20, main_v21, main_v22, main_cst,
   main_v23, main_v24, main_v25, main_v26, main_v27, main_v28, main_v29, main_v30, main_v31, main_v32, main_v33,
   main_v34, main_v35, main_v36, main_v37, main_v38, main_v39, main_v40, main_v41, main_v42, main_v43, main_v44,
   main_v45, main_cst_1, main_v46, main_v47, main_v48, main_v49, main_v50, main_v51, main_v52, main_cst_2, main_v53,
   main_v54, main_cst_3, main_v55, main_v56, main_v57, main_v58, main_v59, main_v60]

/-- The references the three operations after the region write. -/
private def writtenAfter : List (Ref sig .tc) := [main_v62, main_v63, main_v64]

/-- A line of operations each of which writes one reference of the list `rs` leaves every reference outside
    `rs` as it found it. -/
private theorem after_of_not_result (ops : List (HloOp τ sig (Elt F))) (rs : List (Ref sig .tc))
    (hw : ops.map (·.writes) = rs.map fun r => {Proc.devRef .tc r}) (W : Valuation τ sig (Elt F))
    (b : Ref sig .tc) (hb : b ∉ rs) : StableHlo.after ops W (Proc.devRef .tc b) = W (Proc.devRef .tc b) := by
  refine StableHlo.after_of_forall_not_mem (b := Proc.devRef .tc b) _ _ fun op hop hmem => ?_
  have h1 : op.writes ∈ ops.map (·.writes) := List.mem_map_of_mem hop
  rw [hw] at h1
  obtain ⟨r, hr, e⟩ := List.mem_map.mp h1
  rw [← e, Finset.mem_singleton] at hmem
  exact hb (Proc.devRef_injective _ hmem ▸ hr)

/-- A reference that is no earlier operation's result holds at the region's entry what it held at the launch. -/
private theorem V_of_not_written (c : Dev nD) (b : Ref sig .tc) (hb : b ∉ written) :
    V m c b = m ((c : Thread nD τ).loc b) :=
  after_of_not_result (List.flatten [hostOps0, hostOps0_1, hostOps0_2]) written rfl _ b hb

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)
theorem V_main_arg14 (c : Dev nD) : V m c main_arg14 = m ((c : Thread nD τ).loc main_arg14) :=
  V_of_not_written m c main_arg14 (by decide)
theorem V_main_arg15 (c : Dev nD) : V m c main_arg15 = m ((c : Thread nD τ).loc main_arg15) :=
  V_of_not_written m c main_arg15 (by decide)
theorem V_main_arg16 (c : Dev nD) : V m c main_arg16 = m ((c : Thread nD τ).loc main_arg16) :=
  V_of_not_written m c main_arg16 (by decide)
theorem V_main_arg17 (c : Dev nD) : V m c main_arg17 = m ((c : Thread nD τ).loc main_arg17) :=
  V_of_not_written m c main_arg17 (by decide)
theorem V_main_arg18 (c : Dev nD) : V m c main_arg18 = m ((c : Thread nD τ).loc main_arg18) :=
  V_of_not_written m c main_arg18 (by decide)
theorem V_main_arg19 (c : Dev nD) : V m c main_arg19 = m ((c : Thread nD τ).loc main_arg19) :=
  V_of_not_written m c main_arg19 (by decide)
theorem V_main_arg20 (c : Dev nD) : V m c main_arg20 = m ((c : Thread nD τ).loc main_arg20) :=
  V_of_not_written m c main_arg20 (by decide)
theorem V_main_arg21 (c : Dev nD) : V m c main_arg21 = m ((c : Thread nD τ).loc main_arg21) :=
  V_of_not_written m c main_arg21 (by decide)

/-! ## Each input window's staging buffer holds its block at every point, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's post -/

/-- An unscoped launch argument that is no window's array, no earlier operation's result and no closing
    operation's result ends as launched: the post's second clause reads it after the closing operations, which do
    not write it; the region's exit contents there are the entry contents; and no earlier operation wrote it. -/
private theorem arg_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD)
    (b : Ref sig .tc) (hs : b.isScoped = false) (ha : ∀ w, Pipeline.arrRef spec0 w ≠ b)
    (hw : b ∉ writtenAfter) (hb : b ∉ written) :
    r.2.mem ((c.tc : Thread nD τ).loc b) = m ((c.tc : Thread nD τ).loc b) := by
  refine ((h c).2 b (Pipeline.mem_restRefs_of b hs ha)).trans ?_
  refine (after_of_not_result (List.flatten [hostOps1]) writtenAfter rfl _ b hw).trans ?_
  exact (Pipeline.withArrays_of_ne _ c _ _ b ha).trans (V_of_not_written m c b hb)

/-- The same at one final state: from the launch's post there, every argument array is as launched on every
    core: the first is the latent input's window, unchanged as an input; the others by the lemma above. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21) :=
  ⟨((h c).1 0).trans (((dats 0 c).arrAt_in 0 rfl _).trans ((hA c 0).trans (V_main_arg0 m c))),
   arg_of_post m dats r h c main_arg1 rfl (by decide) (by decide) (by decide),
   arg_of_post m dats r h c main_arg2 rfl (by decide) (by decide) (by decide),
   arg_of_post m dats r h c main_arg3 rfl (by decide) (by decide) (by decide),
   arg_of_post m dats r h c main_arg4 rfl (by decide) (by decide) (by decide),
   arg_of_post m dats r h c main_arg5 rfl (by decide) (by decide) (by decide),
   arg_of_post m dats r h c main_arg6 rfl (by decide) (by decide) (by decide),
   arg_of_post m dats r h c main_arg7 rfl (by decide) (by decide) (by decide),
   arg_of_post m dats r h c main_arg8 rfl (by decide) (by decide) (by decide),
   arg_of_post m dats r h c main_arg9 rfl (by decide) (by decide) (by decide),
   arg_of_post m dats r h c main_arg10 rfl (by decide) (by decide) (by decide),
   arg_of_post m dats r h c main_arg11 rfl (by decide) (by decide) (by decide),
   arg_of_post m dats r h c main_arg12 rfl (by decide) (by decide) (by decide),
   arg_of_post m dats r h c main_arg13 rfl (by decide) (by decide) (by decide),
   arg_of_post m dats r h c main_arg14 rfl (by decide) (by decide) (by decide),
   arg_of_post m dats r h c main_arg15 rfl (by decide) (by decide) (by decide),
   arg_of_post m dats r h c main_arg16 rfl (by decide) (by decide) (by decide),
   arg_of_post m dats r h c main_arg17 rfl (by decide) (by decide) (by decide),
   arg_of_post m dats r h c main_arg18 rfl (by decide) (by decide) (by decide),
   arg_of_post m dats r h c main_arg19 rfl (by decide) (by decide) (by decide),
   arg_of_post m dats r h c main_arg20 rfl (by decide) (by decide) (by decide),
   arg_of_post m dats r h c main_arg21 rfl (by decide) (by decide) (by decide)⟩

/-- For any proof data whose arrays are the region-entry contents, a run to the launch's post — every array of the
    pipeline at what the library computes from the proof data, every other unscoped buffer at what the three closing
    host operations leave — leaves every argument array as launched: the first is the latent input's window, unchanged
    as an input; the others are staged by no window and written by no closing operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => args_of_post m dats hA r h c) h

end Cert.Kernel.Hand

end
-- ==== Proof.K.Out.lean ====
/-
  What the kernel body leaves in each of its three output buffers, as a function of the twelve input blocks.

  The body loads each input block whole, computes the gate product, the GRU cell and the fused heads, and stores three
  values, each covering its buffer: columns 0..63 of the fused head output (the next latent state), columns 64..65
  (reward and done logit), and the new hidden state.
-/
import proofs.«430544_j81647328297666_3_alg».proof.Proof.K.Base

noncomputable section

namespace Cert.Kernel.Hand

open Cert.Kernel Cert.Kernel.Gen
open Idealize.ShloMosaic Idealize.ShloMosaic.TcCoe

variable {F : FTy → Type} [FloatOps F]

/-! ## The whole-block rectangles the body loads and stores through -/

abbrev r0 : Rect S2048x64 := Rect.unit (s := S2048x64) ![0, 0] S2048x64.size inb_S2048x64_S2048x64_0_0
abbrev r1 : Rect S1x1x2048 := Rect.unit (s := S1x1x2048) ![0, 0, 0] S1x1x2048.size inb_S1x1x2048_S1x1x2048_0_0_0
abbrev r2 : Rect S2048x128 := Rect.unit (s := S2048x128) ![0, 0] S2048x128.size inb_S2048x128_S2048x128_0_0
abbrev r3 : Rect S64x128 := Rect.unit (s := S64x128) ![0, 0] S64x128.size inb_S64x128_S64x128_0_0
abbrev r4 : Rect S9x128 := Rect.unit (s := S9x128) ![0, 0] S9x128.size inb_S9x128_S9x128_0_0
abbrev r5 : Rect S1x128 := Rect.unit (s := S1x128) ![0, 0] S1x128.size inb_S1x128_S1x128_0_0
abbrev r6 : Rect S256x512 := Rect.unit (s := S256x512) ![0, 0] S256x512.size inb_S256x512_S256x512_0_0
abbrev r7 : Rect S1x512 := Rect.unit (s := S1x512) ![0, 0] S1x512.size inb_S1x512_S1x512_0_0
abbrev r8 : Rect S128x256 := Rect.unit (s := S128x256) ![0, 0] S128x256.size inb_S128x256_S128x256_0_0
abbrev r9 : Rect S1x256 := Rect.unit (s := S1x256) ![0, 0] S1x256.size inb_S1x256_S1x256_0_0
abbrev r10 : Rect S256x66 := Rect.unit (s := S256x66) ![0, 0] S256x66.size inb_S256x66_S256x66_0_0
abbrev r11 : Rect S1x66 := Rect.unit (s := S1x66) ![0, 0] S1x66.size inb_S1x66_S1x66_0_0
abbrev r13 : Rect S2048x2 := Rect.unit (s := S2048x2) ![0, 0] S2048x2.size inb_S2048x2_S2048x2_0_0

section
variable (x0 : Vec F S2048x64 .f32) (x1 : Vec F S1x1x2048 .i32) (x2 : Vec F S2048x128 .f32) (x3 : Vec F S64x128 .bf16)
  (x4 : Vec F S9x128 .bf16) (x5 : Vec F S1x128 .f32) (x6 : Vec F S256x512 .bf16) (x7 : Vec F S1x512 .f32)
  (x8 : Vec F S128x256 .bf16) (x9 : Vec F S1x256 .f32) (x10 : Vec F S256x66 .bf16) (x11 : Vec F S1x66 .f32)

/-- The hidden-state block as the first part of the body hands it on. -/
def p5 : FVec F S2048x128 .f32 := k0_pay5 (View.ld x2 r2)
/-- The gate product [x | h] · W_big + b_big of the block's rows. -/
def p6 : FVec F S2048x512 .f32 :=
  k0_pay6 (View.ld x1 r1) (View.ld x4 r4) (View.ld x0 r0) (View.ld x3 r3) (View.ld x5 r5) (View.ld x2 r2) (View.ld x6 r6) (View.ld x7 r7)
/-- Its first column block (the reset gate's pre-activation). -/
def p7 : FVec F S2048x128 .f32 :=
  k0_pay7 (View.ld x1 r1) (View.ld x4 r4) (View.ld x0 r0) (View.ld x3 r3) (View.ld x5 r5) (View.ld x2 r2) (View.ld x6 r6) (View.ld x7 r7)
/-- Its second column block (the update gate's pre-activation). -/
def p8 : FVec F S2048x128 .f32 :=
  k0_pay8 (View.ld x1 r1) (View.ld x4 r4) (View.ld x0 r0) (View.ld x3 r3) (View.ld x5 r5) (View.ld x2 r2) (View.ld x6 r6) (View.ld x7 r7)

/-- Output window 14 (the new hidden state): one store covering the buffer. -/
def out0_14 : Vec F S2048x128 .f32 :=
  View.canon [⟨r2, k0_pay1 (p5 x2) (p6 x0 x1 x2 x3 x4 x5 x6 x7) (p7 x0 x1 x2 x3 x4 x5 x6 x7) (p8 x0 x1 x2 x3 x4 x5 x6 x7)⟩]

/-- Output window 12 (the next latent state): one store covering the buffer. -/
def out0_12 : Vec F S2048x64 .f32 :=
  View.canon [⟨r0, k0_pay3 (p5 x2) (p6 x0 x1 x2 x3 x4 x5 x6 x7) (p7 x0 x1 x2 x3 x4 x5 x6 x7) (p8 x0 x1 x2 x3 x4 x5 x6 x7)
    (View.ld x8 r8) (View.ld x9 r9) (View.ld x10 r10) (View.ld x11 r11)⟩]

/-- Output window 13 (reward and done logit): one store covering the buffer. -/
def out0_13 : Vec F S2048x2 .f32 :=
  View.canon [⟨r13, k0_pay4 (p5 x2) (p6 x0 x1 x2 x3 x4 x5 x6 x7) (p7 x0 x1 x2 x3 x4 x5 x6 x7) (p8 x0 x1 x2 x3 x4 x5 x6 x7)
    (View.ld x8 r8) (View.ld x9 r9) (View.ld x10 r10) (View.ld x11 r11)⟩]

end

end Cert.Kernel.Hand

end
-- ==== Proof.K.Body.lean ====
/-
  The kernel body's triple: run on whole staging buffers holding the twelve input blocks, it leaves the inputs as they
  were and each output buffer at the value its one covering store writes.
-/
import proofs.«430544_j81647328297666_3_alg».proof.Proof.K.Out

noncomputable section
set_option maxRecDepth 16384

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output buffer's one store reaches every index of it -/

/-- The latent-state buffer: the whole-shape rectangle tiles it. -/
theorem cover0_12 (p : Vec F S2048x64 .f32) (y : S2048x64.Idx) :
    ∃ pc ∈ ([⟨r0, p⟩] : List (View.Piece (Elt F) S2048x64 .f32)), y ∈ pc.1.set :=
  View.cover_of_tiled [⟨r0, p⟩] S2048x64.size (by rfl) y

/-- The reward / done-logit buffer. -/
theorem cover0_13 (p : Vec F S2048x2 .f32) (y : S2048x2.Idx) :
    ∃ pc ∈ ([⟨r13, p⟩] : List (View.Piece (Elt F) S2048x2 .f32)), y ∈ pc.1.set :=
  View.cover_of_tiled [⟨r13, p⟩] S2048x2.size (by rfl) y

/-- The hidden-state buffer. -/
theorem cover0_14 (p : Vec F S2048x128 .f32) (y : S2048x128.Idx) :
    ∃ pc ∈ ([⟨r2, p⟩] : List (View.Piece (Elt F) S2048x128 .f32)), y ∈ pc.1.set :=
  View.cover_of_tiled [⟨r2, p⟩] S2048x128.size (by rfl) y

/-! ## The body's triple -/

set_option maxHeartbeats 4000000 in
/-- The body on whole buffers: the twelve inputs read x0 .. x11, the three outputs hold anything. Every load is of a
    whole buffer, so it returns the buffer's reading; the two loads of an output buffer that precede its store return
    the unknown prior contents and feed nothing. Each output is then written once over its whole shape, so what it
    reads afterwards is the store's payload, whatever was there before; the inputs are never written. -/
theorem sound_kernel (c : Dev nD) (E : Set ℕ) (i : grid0.Coords)
    (arg1 : Memref sig .tc .vmem S2048x64 .f32) (harg1 : arg1.IsWhole)
    (arg2 : Memref sig .tc .vmem S1x1x2048 .i32) (harg2 : arg2.IsWhole)
    (arg3 : Memref sig .tc .vmem S2048x128 .f32) (harg3 : arg3.IsWhole)
    (arg4 : Memref sig .tc .vmem S64x128 .bf16) (harg4 : arg4.IsWhole)
    (arg5 : Memref sig .tc .vmem S9x128 .bf16) (harg5 : arg5.IsWhole)
    (arg6 : Memref sig .tc .vmem S1x128 .f32) (harg6 : arg6.IsWhole)
    (arg7 : Memref sig .tc .vmem S256x512 .bf16) (harg7 : arg7.IsWhole)
    (arg8 : Memref sig .tc .vmem S1x512 .f32) (harg8 : arg8.IsWhole)
    (arg9 : Memref sig .tc .vmem S128x256 .bf16) (harg9 : arg9.IsWhole)
    (arg10 : Memref sig .tc .vmem S1x256 .f32) (harg10 : arg10.IsWhole)
    (arg11 : Memref sig .tc .vmem S256x66 .bf16) (harg11 : arg11.IsWhole)
    (arg12 : Memref sig .tc .vmem S1x66 .f32) (harg12 : arg12.IsWhole)
    (arg13 : Memref sig .tc .vmem S2048x64 .f32) (harg13 : arg13.IsWhole)
    (arg14 : Memref sig .tc .vmem S2048x2 .f32) (harg14 : arg14.IsWhole)
    (arg15 : Memref sig .tc .vmem S2048x128 .f32) (harg15 : arg15.IsWhole)
    (x0 : Vec F S2048x64 .f32) (x1 : Vec F S1x1x2048 .i32) (x2 : Vec F S2048x128 .f32) (x3 : Vec F S64x128 .bf16)
    (x4 : Vec F S9x128 .bf16) (x5 : Vec F S1x128 .f32) (x6 : Vec F S256x512 .bf16) (x7 : Vec F S1x512 .f32)
    (x8 : Vec F S128x256 .bf16) (x9 : Vec F S1x256 .f32) (x10 : Vec F S256x66 .bf16) (x11 : Vec F S1x66 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare (out0_12 x0 x1 x2 x3 x4 x5 x6 x7 x8 x9 x10 x11)
            ∗ owns (c : Thread nD τ) arg14 fullShare (out0_13 x0 x1 x2 x3 x4 x5 x6 x7 x8 x9 x10 x11)
            ∗ owns (c : Thread nD τ) arg15 fullShare (out0_14 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8
            arg9 harg9 arg10 harg10 arg11 harg11 arg12 harg12 arg13 harg13 arg14 harg14 arg15 harg15) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.Kernel.Hand

end
-- ==== Proof.K.Frame.lean ====
/-
  The frame of the word-level kernel program: the proof data of its one pipeline, the body's obligation at every grid
  point, the launch, and the claim that every weakly fair execution terminates with the argument arrays unchanged.
-/
import proofs.«430544_j81647328297666_3_alg».proof.Proof.K.Entry
import proofs.«430544_j81647328297666_3_alg».proof.Proof.K.Body

noncomputable section
set_option maxRecDepth 16384

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at what the body's stores leave, as a function of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) := by dsimp only [dats]

/-! ## Every input's staging buffer holds its block when the body is called -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point t: the invariant, what the core owes, and each window's current staging
    buffer, an input's at what it holds before the body and an output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it hands back: the same with every staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point. The inputs' buffers hold their blocks, so the body's triple applies with the blocks as the
    inputs' readings; what it leaves in the outputs is, by definition of the proof data, their after-contents. The
    invariant and what the core owes are not read and do not change from one side of the point to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8,
    before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation at every point: its conjunction over the windows, written out, is the triple above. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which needs plain
-- definitions unfolded inside a metavariable's type
set_option backward.isDefEq.respectTransparency.types false in
/-- From any memory with zero counters every weakly fair execution of @main terminates, and every final state has
    every array of the pipeline at what the library computes from the proof data and every other unscoped buffer as
    the three closing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.Kernel.Hand

end
-- ==== Proof.KI.Base.lean ====
/-
  The contents of the idealized kernel program's buffers when its one pallas_call is entered, and each window's block
  at a grid point.

  @main first runs three stretches of host operations (two integer constants, the clamp of the action words, and the
  sixty-four operations that build the fused weight arrays); `V0` is the valuation after them, `V` the same read at a
  TensorCore reference, and `iblk w t` the block of window `w`'s array that grid point `t` works on.
-/
import proofs.«430544_j81647328297666_3_alg».proof.Proof.Gen.KernelIdeal.Launch
import proofs.«430544_j81647328297666_3_alg».proof.Proof.Gen.KernelIdeal.Skeleton
import proofs.«430544_j81647328297666_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered, as a valuation: after the three stretches of host
    operations that precede it. -/
abbrev V0 (c : Dev nD) : Valuation τ sig (Elt F) :=
  StableHlo.after (List.flatten [hostOps0, hostOps0_1, hostOps0_2]) (fun b => m (c, b))

/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Entry.lean ====
/-
  The host side of the idealized kernel program's frame: @main is three stretches of host operations, the one
  pallas_call, and three more host operations; the argument arrays are untouched by the first stretches; the last
  three operations read only the call's results and write only their own; and the frame claim's post follows from
  the launch's post.
-/
import proofs.«430544_j81647328297666_3_alg».proof.Proof.KI.Base

noncomputable section
set_option maxRecDepth 16384

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main reduces to the region continued by the three host operations after it, at the contents after the
    operations before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl | rfl
  all_goals
    intro w
    rw [StableHlo.unary_writes, Finset.mem_singleton]
    exact StableHlo.devRef_ne_of_ne (by revert w; decide)

/-! ## The argument arrays at the region's entry are as launched -/

/-- The references the operations before the region write, in order. -/
private def written : List (Ref sig .tc) :=
  [main_c, main_c_0, main_call0_v0, main_call0_v1, main_call0_v2, main_call0_v3, main_call0_v4, main_v0,
   main_v1, main_v2, main_v3, main_v4, main_v5, main_v6, main_v7, main_v8, main_v9, main_v10, main_v11, main_v12,
   main_v13, main_v14, main_v15, main_v16, main_v17, main_v18, main_v19, main_v20, main_v21, main_v22, main_cst,
   main_v23, main_v24, main_v25, main_v26, main_v27, main_v28, main_v29, main_v30, main_v31, main_v32, main_v33,
   main_v34, main_v35, main_v36, main_v37, main_v38, main_v39, main_v40, main_v41, main_v42, main_v43, main_v44,
   main_v45, main_cst_1, main_v46, main_v47, main_v48, main_v49, main_v50, main_v51, main_v52, main_cst_2, main_v53,
   main_v54, main_cst_3, main_v55, main_v56, main_v57, main_v58, main_v59, main_v60]

/-- The references the three operations after the region write. -/
private def writtenAfter : List (Ref sig .tc) := [main_v62, main_v63, main_v64]

/-- A line of operations each of which writes one reference of the list `rs` leaves every reference outside
    `rs` as it found it. -/
private theorem after_of_not_result (ops : List (HloOp τ sig (Elt F))) (rs : List (Ref sig .tc))
    (hw : ops.map (·.writes) = rs.map fun r => {Proc.devRef .tc r}) (W : Valuation τ sig (Elt F))
    (b : Ref sig .tc) (hb : b ∉ rs) : StableHlo.after ops W (Proc.devRef .tc b) = W (Proc.devRef .tc b) := by
  refine StableHlo.after_of_forall_not_mem (b := Proc.devRef .tc b) _ _ fun op hop hmem => ?_
  have h1 : op.writes ∈ ops.map (·.writes) := List.mem_map_of_mem hop
  rw [hw] at h1
  obtain ⟨r, hr, e⟩ := List.mem_map.mp h1
  rw [← e, Finset.mem_singleton] at hmem
  exact hb (Proc.devRef_injective _ hmem ▸ hr)

/-- A reference that is no earlier operation's result holds at the region's entry what it held at the launch. -/
private theorem V_of_not_written (c : Dev nD) (b : Ref sig .tc) (hb : b ∉ written) :
    V m c b = m ((c : Thread nD τ).loc b) :=
  after_of_not_result (List.flatten [hostOps0, hostOps0_1, hostOps0_2]) written rfl _ b hb

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)
theorem V_main_arg14 (c : Dev nD) : V m c main_arg14 = m ((c : Thread nD τ).loc main_arg14) :=
  V_of_not_written m c main_arg14 (by decide)
theorem V_main_arg15 (c : Dev nD) : V m c main_arg15 = m ((c : Thread nD τ).loc main_arg15) :=
  V_of_not_written m c main_arg15 (by decide)
theorem V_main_arg16 (c : Dev nD) : V m c main_arg16 = m ((c : Thread nD τ).loc main_arg16) :=
  V_of_not_written m c main_arg16 (by decide)
theorem V_main_arg17 (c : Dev nD) : V m c main_arg17 = m ((c : Thread nD τ).loc main_arg17) :=
  V_of_not_written m c main_arg17 (by decide)
theorem V_main_arg18 (c : Dev nD) : V m c main_arg18 = m ((c : Thread nD τ).loc main_arg18) :=
  V_of_not_written m c main_arg18 (by decide)
theorem V_main_arg19 (c : Dev nD) : V m c main_arg19 = m ((c : Thread nD τ).loc main_arg19) :=
  V_of_not_written m c main_arg19 (by decide)
theorem V_main_arg20 (c : Dev nD) : V m c main_arg20 = m ((c : Thread nD τ).loc main_arg20) :=
  V_of_not_written m c main_arg20 (by decide)
theorem V_main_arg21 (c : Dev nD) : V m c main_arg21 = m ((c : Thread nD τ).loc main_arg21) :=
  V_of_not_written m c main_arg21 (by decide)

/-! ## Each input window's staging buffer holds its block at every point, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's post -/

/-- An unscoped launch argument that is no window's array, no earlier operation's result and no closing
    operation's result ends as launched: the post's second clause reads it after the closing operations, which do
    not write it; the region's exit contents there are the entry contents; and no earlier operation wrote it. -/
private theorem arg_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD)
    (b : Ref sig .tc) (hs : b.isScoped = false) (ha : ∀ w, Pipeline.arrRef spec0 w ≠ b)
    (hw : b ∉ writtenAfter) (hb : b ∉ written) :
    r.2.mem ((c.tc : Thread nD τ).loc b) = m ((c.tc : Thread nD τ).loc b) := by
  refine ((h c).2 b (Pipeline.mem_restRefs_of b hs ha)).trans ?_
  refine (after_of_not_result (List.flatten [hostOps1]) writtenAfter rfl _ b hw).trans ?_
  exact (Pipeline.withArrays_of_ne _ c _ _ b ha).trans (V_of_not_written m c b hb)

/-- The same at one final state: from the launch's post there, every argument array is as launched on every
    core: the first is the latent input's window, unchanged as an input; the others by the lemma above. -/
theorem args_of_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21) :=
  ⟨((h c).1 0).trans (((dats 0 c).arrAt_in 0 rfl _).trans ((hA c 0).trans (V_main_arg0 m c))),
   arg_of_post m dats r h c main_arg1 rfl (by decide) (by decide) (by decide),
   arg_of_post m dats r h c main_arg2 rfl (by decide) (by decide) (by decide),
   arg_of_post m dats r h c main_arg3 rfl (by decide) (by decide) (by decide),
   arg_of_post m dats r h c main_arg4 rfl (by decide) (by decide) (by decide),
   arg_of_post m dats r h c main_arg5 rfl (by decide) (by decide) (by decide),
   arg_of_post m dats r h c main_arg6 rfl (by decide) (by decide) (by decide),
   arg_of_post m dats r h c main_arg7 rfl (by decide) (by decide) (by decide),
   arg_of_post m dats r h c main_arg8 rfl (by decide) (by decide) (by decide),
   arg_of_post m dats r h c main_arg9 rfl (by decide) (by decide) (by decide),
   arg_of_post m dats r h c main_arg10 rfl (by decide) (by decide) (by decide),
   arg_of_post m dats r h c main_arg11 rfl (by decide) (by decide) (by decide),
   arg_of_post m dats r h c main_arg12 rfl (by decide) (by decide) (by decide),
   arg_of_post m dats r h c main_arg13 rfl (by decide) (by decide) (by decide),
   arg_of_post m dats r h c main_arg14 rfl (by decide) (by decide) (by decide),
   arg_of_post m dats r h c main_arg15 rfl (by decide) (by decide) (by decide),
   arg_of_post m dats r h c main_arg16 rfl (by decide) (by decide) (by decide),
   arg_of_post m dats r h c main_arg17 rfl (by decide) (by decide) (by decide),
   arg_of_post m dats r h c main_arg18 rfl (by decide) (by decide) (by decide),
   arg_of_post m dats r h c main_arg19 rfl (by decide) (by decide) (by decide),
   arg_of_post m dats r h c main_arg20 rfl (by decide) (by decide) (by decide),
   arg_of_post m dats r h c main_arg21 rfl (by decide) (by decide) (by decide)⟩

/-- For any proof data whose arrays are the region-entry contents, a run to the launch's post — every array of the
    pipeline at what the library computes from the proof data, every other unscoped buffer at what the three closing
    host operations leave — leaves every argument array as launched: the first is the latent input's window, unchanged
    as an input; the others are staged by no window and written by no closing operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => args_of_post m dats hA r h c) h

end Cert.KernelIdeal.Hand

end
-- ==== Proof.KI.Out.lean ====
/-
  What the kernel body leaves in each of its three output buffers, as a function of the twelve input blocks.

  The body loads each input block whole, computes the gate product, the GRU cell and the fused heads, and stores three
  values, each covering its buffer: columns 0..63 of the fused head output (the next latent state), columns 64..65
  (reward and done logit), and the new hidden state.
-/
import proofs.«430544_j81647328297666_3_alg».proof.Proof.KI.Base

noncomputable section

namespace Cert.KernelIdeal.Hand

open Cert.KernelIdeal Cert.KernelIdeal.Gen
open Idealize.ShloMosaic Idealize.ShloMosaic.TcCoe

variable {F : FTy → Type} [FloatOps F]

/-! ## The whole-block rectangles the body loads and stores through -/

abbrev r0 : Rect S2048x64 := Rect.unit (s := S2048x64) ![0, 0] S2048x64.size inb_S2048x64_S2048x64_0_0
abbrev r1 : Rect S1x1x2048 := Rect.unit (s := S1x1x2048) ![0, 0, 0] S1x1x2048.size inb_S1x1x2048_S1x1x2048_0_0_0
abbrev r2 : Rect S2048x128 := Rect.unit (s := S2048x128) ![0, 0] S2048x128.size inb_S2048x128_S2048x128_0_0
abbrev r3 : Rect S64x128 := Rect.unit (s := S64x128) ![0, 0] S64x128.size inb_S64x128_S64x128_0_0
abbrev r4 : Rect S9x128 := Rect.unit (s := S9x128) ![0, 0] S9x128.size inb_S9x128_S9x128_0_0
abbrev r5 : Rect S1x128 := Rect.unit (s := S1x128) ![0, 0] S1x128.size inb_S1x128_S1x128_0_0
abbrev r6 : Rect S256x512 := Rect.unit (s := S256x512) ![0, 0] S256x512.size inb_S256x512_S256x512_0_0
abbrev r7 : Rect S1x512 := Rect.unit (s := S1x512) ![0, 0] S1x512.size inb_S1x512_S1x512_0_0
abbrev r8 : Rect S128x256 := Rect.unit (s := S128x256) ![0, 0] S128x256.size inb_S128x256_S128x256_0_0
abbrev r9 : Rect S1x256 := Rect.unit (s := S1x256) ![0, 0] S1x256.size inb_S1x256_S1x256_0_0
abbrev r10 : Rect S256x66 := Rect.unit (s := S256x66) ![0, 0] S256x66.size inb_S256x66_S256x66_0_0
abbrev r11 : Rect S1x66 := Rect.unit (s := S1x66) ![0, 0] S1x66.size inb_S1x66_S1x66_0_0
abbrev r13 : Rect S2048x2 := Rect.unit (s := S2048x2) ![0, 0] S2048x2.size inb_S2048x2_S2048x2_0_0

section
variable (x0 : Vec F S2048x64 .f32) (x1 : Vec F S1x1x2048 .i32) (x2 : Vec F S2048x128 .f32) (x3 : Vec F S64x128 .bf16)
  (x4 : Vec F S9x128 .bf16) (x5 : Vec F S1x128 .f32) (x6 : Vec F S256x512 .bf16) (x7 : Vec F S1x512 .f32)
  (x8 : Vec F S128x256 .bf16) (x9 : Vec F S1x256 .f32) (x10 : Vec F S256x66 .bf16) (x11 : Vec F S1x66 .f32)

/-- The hidden-state block as the first part of the body hands it on. -/
def p5 : FVec F S2048x128 .f32 := k0_pay5 (View.ld x2 r2)
/-- The gate product [x | h] · W_big + b_big of the block's rows. -/
def p6 : FVec F S2048x512 .f32 :=
  k0_pay6 (View.ld x1 r1) (View.ld x4 r4) (View.ld x0 r0) (View.ld x3 r3) (View.ld x5 r5) (View.ld x2 r2) (View.ld x6 r6) (View.ld x7 r7)
/-- Its first column block (the reset gate's pre-activation). -/
def p7 : FVec F S2048x128 .f32 :=
  k0_pay7 (View.ld x1 r1) (View.ld x4 r4) (View.ld x0 r0) (View.ld x3 r3) (View.ld x5 r5) (View.ld x2 r2) (View.ld x6 r6) (View.ld x7 r7)
/-- Its second column block (the update gate's pre-activation). -/
def p8 : FVec F S2048x128 .f32 :=
  k0_pay8 (View.ld x1 r1) (View.ld x4 r4) (View.ld x0 r0) (View.ld x3 r3) (View.ld x5 r5) (View.ld x2 r2) (View.ld x6 r6) (View.ld x7 r7)

/-- Output window 14 (the new hidden state): one store covering the buffer. -/
def out0_14 : Vec F S2048x128 .f32 :=
  View.canon [⟨r2, k0_pay1 (p5 x2) (p6 x0 x1 x2 x3 x4 x5 x6 x7) (p7 x0 x1 x2 x3 x4 x5 x6 x7) (p8 x0 x1 x2 x3 x4 x5 x6 x7)⟩]

/-- Output window 12 (the next latent state): one store covering the buffer. -/
def out0_12 : Vec F S2048x64 .f32 :=
  View.canon [⟨r0, k0_pay3 (p5 x2) (p6 x0 x1 x2 x3 x4 x5 x6 x7) (p7 x0 x1 x2 x3 x4 x5 x6 x7) (p8 x0 x1 x2 x3 x4 x5 x6 x7)
    (View.ld x8 r8) (View.ld x9 r9) (View.ld x10 r10) (View.ld x11 r11)⟩]

/-- Output window 13 (reward and done logit): one store covering the buffer. -/
def out0_13 : Vec F S2048x2 .f32 :=
  View.canon [⟨r13, k0_pay4 (p5 x2) (p6 x0 x1 x2 x3 x4 x5 x6 x7) (p7 x0 x1 x2 x3 x4 x5 x6 x7) (p8 x0 x1 x2 x3 x4 x5 x6 x7)
    (View.ld x8 r8) (View.ld x9 r9) (View.ld x10 r10) (View.ld x11 r11)⟩]

end

end Cert.KernelIdeal.Hand

end
-- ==== Proof.KI.Body.lean ====
/-
  The kernel body's triple: run on whole staging buffers holding the twelve input blocks, it leaves the inputs as they
  were and each output buffer at the value its one covering store writes.
-/
import proofs.«430544_j81647328297666_3_alg».proof.Proof.KI.Out

noncomputable section
set_option maxRecDepth 16384

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output buffer's one store reaches every index of it -/

/-- The latent-state buffer: the whole-shape rectangle tiles it. -/
theorem cover0_12 (p : Vec F S2048x64 .f32) (y : S2048x64.Idx) :
    ∃ pc ∈ ([⟨r0, p⟩] : List (View.Piece (Elt F) S2048x64 .f32)), y ∈ pc.1.set :=
  View.cover_of_tiled [⟨r0, p⟩] S2048x64.size (by rfl) y

/-- The reward / done-logit buffer. -/
theorem cover0_13 (p : Vec F S2048x2 .f32) (y : S2048x2.Idx) :
    ∃ pc ∈ ([⟨r13, p⟩] : List (View.Piece (Elt F) S2048x2 .f32)), y ∈ pc.1.set :=
  View.cover_of_tiled [⟨r13, p⟩] S2048x2.size (by rfl) y

/-- The hidden-state buffer. -/
theorem cover0_14 (p : Vec F S2048x128 .f32) (y : S2048x128.Idx) :
    ∃ pc ∈ ([⟨r2, p⟩] : List (View.Piece (Elt F) S2048x128 .f32)), y ∈ pc.1.set :=
  View.cover_of_tiled [⟨r2, p⟩] S2048x128.size (by rfl) y

/-! ## The body's triple -/

set_option maxHeartbeats 4000000 in
/-- The body on whole buffers: the twelve inputs read x0 .. x11, the three outputs hold anything. Every load is of a
    whole buffer, so it returns the buffer's reading; the two loads of an output buffer that precede its store return
    the unknown prior contents and feed nothing. Each output is then written once over its whole shape, so what it
    reads afterwards is the store's payload, whatever was there before; the inputs are never written. -/
theorem sound_kernel (c : Dev nD) (E : Set ℕ) (i : grid0.Coords)
    (arg1 : Memref sig .tc .vmem S2048x64 .f32) (harg1 : arg1.IsWhole)
    (arg2 : Memref sig .tc .vmem S1x1x2048 .i32) (harg2 : arg2.IsWhole)
    (arg3 : Memref sig .tc .vmem S2048x128 .f32) (harg3 : arg3.IsWhole)
    (arg4 : Memref sig .tc .vmem S64x128 .bf16) (harg4 : arg4.IsWhole)
    (arg5 : Memref sig .tc .vmem S9x128 .bf16) (harg5 : arg5.IsWhole)
    (arg6 : Memref sig .tc .vmem S1x128 .f32) (harg6 : arg6.IsWhole)
    (arg7 : Memref sig .tc .vmem S256x512 .bf16) (harg7 : arg7.IsWhole)
    (arg8 : Memref sig .tc .vmem S1x512 .f32) (harg8 : arg8.IsWhole)
    (arg9 : Memref sig .tc .vmem S128x256 .bf16) (harg9 : arg9.IsWhole)
    (arg10 : Memref sig .tc .vmem S1x256 .f32) (harg10 : arg10.IsWhole)
    (arg11 : Memref sig .tc .vmem S256x66 .bf16) (harg11 : arg11.IsWhole)
    (arg12 : Memref sig .tc .vmem S1x66 .f32) (harg12 : arg12.IsWhole)
    (arg13 : Memref sig .tc .vmem S2048x64 .f32) (harg13 : arg13.IsWhole)
    (arg14 : Memref sig .tc .vmem S2048x2 .f32) (harg14 : arg14.IsWhole)
    (arg15 : Memref sig .tc .vmem S2048x128 .f32) (harg15 : arg15.IsWhole)
    (x0 : Vec F S2048x64 .f32) (x1 : Vec F S1x1x2048 .i32) (x2 : Vec F S2048x128 .f32) (x3 : Vec F S64x128 .bf16)
    (x4 : Vec F S9x128 .bf16) (x5 : Vec F S1x128 .f32) (x6 : Vec F S256x512 .bf16) (x7 : Vec F S1x512 .f32)
    (x8 : Vec F S128x256 .bf16) (x9 : Vec F S1x256 .f32) (x10 : Vec F S256x66 .bf16) (x11 : Vec F S1x66 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ owns (c : Thread nD τ) arg12 fullShare x11
        ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10 ∗ owns (c : Thread nD τ) arg12 fullShare x11
            ∗ owns (c : Thread nD τ) arg13 fullShare (out0_12 x0 x1 x2 x3 x4 x5 x6 x7 x8 x9 x10 x11)
            ∗ owns (c : Thread nD τ) arg14 fullShare (out0_13 x0 x1 x2 x3 x4 x5 x6 x7 x8 x9 x10 x11)
            ∗ owns (c : Thread nD τ) arg15 fullShare (out0_14 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8
            arg9 harg9 arg10 harg10 arg11 harg11 arg12 harg12 arg13 harg13 arg14 harg14 arg15 harg15) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.KernelIdeal.Hand

end
-- ==== Proof.KI.Frame.lean ====
/-
  The frame of the idealized kernel program: the proof data of its one pipeline, the body's obligation at every grid
  point, the launch, and the claim that every weakly fair execution terminates with the argument arrays unchanged.
-/
import proofs.«430544_j81647328297666_3_alg».proof.Proof.KI.Entry
import proofs.«430544_j81647328297666_3_alg».proof.Proof.KI.Body

noncomputable section
set_option maxRecDepth 16384

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at what the body's stores leave, as a function of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) := by dsimp only [dats]

/-! ## Every input's staging buffer holds its block when the body is called -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point t: the invariant, what the core owes, and each window's current staging
    buffer, an input's at what it holds before the body and an output's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it hands back: the same with every staging buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point. The inputs' buffers hold their blocks, so the body's triple applies with the blocks as the
    inputs' readings; what it leaves in the outputs is, by definition of the proof data, their after-contents. The
    invariant and what the core owes are not read and do not change from one side of the point to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8,
    before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
    after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
    ⟨%d9, H9⟩, ⟨%d10, H10⟩, ⟨%d11, H11⟩, ⟨%d12, H12⟩, ⟨%d13, H13⟩, ⟨%d14, H14⟩⟩
  iapply (sound_kernel c Set.univ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation at every point: its conjunction over the windows, written out, is the triple above. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this statement, which needs plain
-- definitions unfolded inside a metavariable's type
set_option backward.isDefEq.respectTransparency.types false in
/-- From any memory with zero counters every weakly fair execution of @main terminates, and every final state has
    every array of the pipeline at what the library computes from the proof data and every other unscoped buffer as
    the three closing host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

end Cert.KernelIdeal.Hand

end
-- ==== Proof.Spec.lean ====
/-
  One step of a GRU world model, row by row, written twice over the extended reals.

  Every output row depends on one row of the latent input, one action word, one row of the hidden state and the
  weights. The KERNEL-SHAPED formulas take the fused arrays the kernel's host code builds (a transposed slice of
  the fuse weights, the action table `embed · fuse_Wa^T`, the 256 × 512 gate matrix with two zero blocks, the fused
  head layers with their zero blocks); the REFERENCE-SHAPED formulas take the model's own parameters. The module
  that joins them imports this one; nothing here mentions a program.
-/
import Idealize.ShloMosaic.PureOps.Ideal
import Idealize.ShloMosaic.PureOps.Ideal.Laws

noncomputable section

open scoped BigOperators
open Idealize.ShloMosaic

namespace Cert.Spec

/-- The f32 word of 1.0, read exactly. -/
abbrev one1 : EReal := Ideal.ofBits .f32 0x3F800000#32

/-- That word denotes the real number one. -/
theorem one1_eq : one1 = 1 := by
  simp [one1, Ideal.ofBits, Ideal.ieee, -EReal.coe_mul]; norm_num

/-- max(x, 0). -/
abbrev relu (x : EReal) : EReal := max x 0

/-! ## Which row of the embedding table an action word selects -/

/-- The kernel's host code clamps the action word, read signed, into [0, 8]. -/
def clampWord (a : BitVec 32) : BitVec 32 := IntOp.minsi 8#32 (IntOp.maxsi 0#32 a)

/-- The kernel's one-hot row: entry `k` is one when the clamped word is `k`, else zero. -/
def ohWord (w : BitVec 32) (k : Fin 9) : EReal := if BitVec.ofNat 32 k.val = w then 1 else 0

/-- The reference's index arithmetic before its gather: a negative index is wrapped by the table's 9 rows. -/
def wrapWord (a : BitVec 32) : BitVec 32 := if a.toInt < 0 then a + 9#32 else a

/-- The row the reference's gather reads: the wrapped word, read signed, clamped into [0, 8]. -/
def refRow (a : BitVec 32) : Fin 9 := ⟨min (wrapWord a).toInt.toNat 8, by omega⟩

/-! ## The reference-shaped formulas -/

/-- The reference's fused input row: the 64 latent entries, then the 16 entries of the selected embedding row. -/
def fusedRow (z : Fin 64 → EReal) (e : Fin 16 → EReal) (l : Fin 80) : EReal :=
  if h : l.val < 64 then z ⟨l.val, h⟩ else e ⟨l.val - 64, by omega⟩

/-- x = relu(fused · fuse_W^T + fuse_b). -/
def xRef (z : Fin 64 → EReal) (e : Fin 16 → EReal) (FW : Fin 128 → Fin 80 → EReal) (fb : Fin 128 → EReal)
    (j : Fin 128) : EReal :=
  relu ((∑ l : Fin 80, fusedRow z e l * FW j l) + fb j)

/-- One of the two GRU pre-activations, v · W^T + b, over all 384 gate columns. -/
def gateRef (v : Fin 128 → EReal) (W : Fin 384 → Fin 128 → EReal) (b : Fin 384 → EReal) (q : Fin 384) : EReal :=
  (∑ k : Fin 128, v k * W q k) + b q

/-- The GRU cell: r = σ(gi_r + gh_r), z = σ(gi_z + gh_z), n = tanh(gi_n + r · gh_n), h' = (1 − z) · n + z · h. -/
def hnewRef (x h : Fin 128 → EReal) (Wih Whh : Fin 384 → Fin 128 → EReal) (bih bhh : Fin 384 → EReal)
    (j : Fin 128) : EReal :=
  let gi := gateRef x Wih bih
  let gh := gateRef h Whh bhh
  let r := Ideal.logistic (gi ⟨j.val, by omega⟩ + gh ⟨j.val, by omega⟩)
  let zg := Ideal.logistic (gi ⟨128 + j.val, by omega⟩ + gh ⟨128 + j.val, by omega⟩)
  let n := Ideal.tanh (gi ⟨256 + j.val, by omega⟩ + r * gh ⟨256 + j.val, by omega⟩)
  (one1 - zg) * n + zg * h j

/-- A two-layer head: relu(v · W1^T + b1) · W2^T + b2, with `H` hidden units and `O` outputs. -/
def mlpRef {H O : ℕ} (v : Fin 128 → EReal) (W1 : Fin H → Fin 128 → EReal) (b1 : Fin H → EReal)
    (W2 : Fin O → Fin H → EReal) (b2 : Fin O → EReal) (i : Fin O) : EReal :=
  (∑ k : Fin H, relu ((∑ k' : Fin 128, v k' * W1 k k') + b1 k) * W2 i k) + b2 i

/-! ## The kernel-shaped formulas -/

/-- x = relu((z · Wz + onehot · T) + b): the latent part and the action part as two products. -/
def xKer (z : Fin 64 → EReal) (oh : Fin 9 → EReal) (Wz : Fin 64 → Fin 128 → EReal) (T : Fin 9 → Fin 128 → EReal)
    (fb : Fin 128 → EReal) (j : Fin 128) : EReal :=
  relu (((∑ l : Fin 64, z l * Wz l j) + (∑ k : Fin 9, oh k * T k j)) + fb j)

/-- The row [x | h] of 256 entries. -/
def xhRow (x h : Fin 128 → EReal) (k : Fin 256) : EReal :=
  if hk : k.val < 128 then x ⟨k.val, hk⟩ else h ⟨k.val - 128, by omega⟩

/-- All four gate blocks in one product: [x | h] · W_big + b_big, 512 columns. -/
def gatesKer (x h : Fin 128 → EReal) (Wbig : Fin 256 → Fin 512 → EReal) (bbig : Fin 512 → EReal) (q : Fin 512) : EReal :=
  (∑ k : Fin 256, xhRow x h k * Wbig k q) + bbig q

/-- The GRU cell over the four column blocks [s_r | s_z | gi_n | gh_n] of the fused product. -/
def hnewKer (g : Fin 512 → EReal) (h : Fin 128 → EReal) (j : Fin 128) : EReal :=
  let r := Ideal.logistic (g ⟨j.val, by omega⟩)
  let zg := Ideal.logistic (g ⟨128 + j.val, by omega⟩)
  let n := Ideal.tanh (g ⟨256 + j.val, by omega⟩ + r * g ⟨384 + j.val, by omega⟩)
  (one1 - zg) * n + zg * h j

/-- The three heads fused: relu(h' · W1f + b1f) · W2f + b2f, 256 hidden units, 64 + 2 outputs. -/
def headKer (v : Fin 128 → EReal) (W1f : Fin 128 → Fin 256 → EReal) (b1f : Fin 256 → EReal)
    (W2f : Fin 256 → Fin 66 → EReal) (b2f : Fin 66 → EReal) (i : Fin 66) : EReal :=
  (∑ k : Fin 256, relu ((∑ k' : Fin 128, v k' * W1f k' k) + b1f k) * W2f k i) + b2f i

end Cert.Spec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.KI.Payload.lean ====
/-
  The kernel body's stored values, read at an entry, at the exact instance.

  Row `r` of the block: the action word of the row gives the one-hot row; the latent row times the transposed fuse
  weights plus the one-hot row times the action table, plus the bias, rectified, is `x`; [x | h] times the gate matrix
  plus its bias is the gate row; the GRU cell over its four column blocks is the new hidden row; the fused heads of that
  row give the 66 head outputs. Each matrix product on a zero accumulator is the plain sum over the contracted index, and
  a change of float format is the identity.
-/
import proofs.«430544_j81647328297666_3_alg».proof.Proof.Gen.KernelIdeal.Skeleton
import proofs.«430544_j81647328297666_3_alg».proof.Proof.Spec
import proofs.«430544_j81647328297666_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

variable (x0 : Vec Ideal S2048x64 .f32) (x1 : Vec Ideal S1x1x2048 .i32) (x2 : Vec Ideal S2048x128 .f32) (x3 : Vec Ideal S64x128 .bf16)
  (x4 : Vec Ideal S9x128 .bf16) (x5 : Vec Ideal S1x128 .f32) (x6 : Vec Ideal S256x512 .bf16) (x7 : Vec Ideal S1x512 .f32)
  (x8 : Vec Ideal S128x256 .bf16) (x9 : Vec Ideal S1x256 .f32) (x10 : Vec Ideal S256x66 .bf16) (x11 : Vec Ideal S1x66 .f32)

/-- The gate row of block row `r`, from the blocks' entries. -/
def gRow (r : Fin 2048) : Fin 512 → EReal :=
  Spec.gatesKer
    (Spec.xKer (fun l => x0 (ix2 r l)) (Spec.ohWord (x1 (ix3 (0 : Fin 1) (0 : Fin 1) r))) (fun l j => x3 (ix2 l j))
      (fun k j => x4 (ix2 k j)) (fun j => x5 (ix2 (0 : Fin 1) j)))
    (fun k => x2 (ix2 r k)) (fun k q => x6 (ix2 k q)) (fun q => x7 (ix2 (0 : Fin 1) q))

/-- The new hidden row of block row `r`. -/
def hRow (r : Fin 2048) : Fin 128 → EReal :=
  Spec.hnewKer (gRow x0 x1 x2 x3 x4 x5 x6 x7 r) (fun k => x2 (ix2 r k))

/-- The 66 fused head outputs of block row `r`. -/
def oRow (r : Fin 2048) : Fin 66 → EReal :=
  Spec.headKer (hRow x0 x1 x2 x3 x4 x5 x6 x7 r) (fun k' k => x8 (ix2 k' k)) (fun k => x9 (ix2 (0 : Fin 1) k))
    (fun k i => x10 (ix2 k i)) (fun i => x11 (ix2 (0 : Fin 1) i))

/-! ## Reads of the layout operations at an entry -/

/-- A column `[a, 1]` broadcast along its unit axis to `[a, b]` reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison of two words for equality, widened and read as a signed integer, is one when they agree and zero
    otherwise: the one-hot entry. -/
private theorem oh_scalar (k : Fin 9) (w : BitVec 32) :
    (FloatOps.sitofp (F := Ideal) .f32 ((IntOp.cmpi .eq (BitVec.ofNat 32 k.val) w).setWidth 32) : EReal)
      = Spec.ohWord w k := by
  show (((BitVec.setWidth 32 (BitVec.ofBool (BitVec.ofNat 32 k.val == w))).toInt : ℝ) : EReal) = _
  unfold Spec.ohWord
  by_cases h : BitVec.ofNat 32 k.val = w
  · have hb : (BitVec.ofNat 32 k.val == w) = true := by simpa using h
    rw [if_pos h, hb]
    have : (BitVec.setWidth 32 (BitVec.ofBool true)).toInt = 1 := by decide
    rw [this]; simp
  · have hb : (BitVec.ofNat 32 k.val == w) = false := by simpa using h
    rw [if_neg h, hb]
    have : (BitVec.setWidth 32 (BitVec.ofBool false)).toInt = 0 := by decide
    rw [this]; simp

/-- The one-hot matrix at row `r`, column `k`: the action word of row `r` compared with `k`. -/
private theorem oh_apply (hc : S1x1x2048.ShapeCasts S1x2048) (ht : S1x2048.Transposes [1, 0] S2048x1)
    (hi : S2048x9.Iotas .tc 32 [1]) (hb : S2048x1.Broadcasts S2048x9) (h1 : 1 < 32)
    (r : Fin 2048) (k : Fin 9) :
    (sitofp (F := Ideal) .f32 (extui 32 (cmpi .eq (iota .tc S2048x9 32 [1] hi)
        (broadcastTo S2048x9 (transpose S2048x1 [1, 0] (shapeCast S1x2048 x1 hc) ht) hb)) h1)) (ix2 r k)
      = Spec.ohWord (x1 (ix3 (0 : Fin 1) (0 : Fin 1) r)) k := by
  have e1 : iota .tc S2048x9 32 [1] hi (ix2 r k) = BitVec.ofNat 32 k.val :=
    iota_single_apply .tc S2048x9 32 1 hi (ix2 r k)
  have e2 : broadcastTo S2048x9 (transpose S2048x1 [1, 0] (shapeCast S1x2048 x1 hc) ht) hb (ix2 r k)
      = x1 (ix3 (0 : Fin 1) (0 : Fin 1) r) :=
    (broadcastTo_a1_ab_apply _ hb r k).trans
      ((transpose_ix2_apply _ ht r (0 : Fin 1)).trans (shapeCast_1ab_ab_apply x1 hc (0 : Fin 1) r))
  show FloatOps.sitofp (F := Ideal) .f32 ((IntOp.cmpi .eq (iota .tc S2048x9 32 [1] hi (ix2 r k))
      (broadcastTo S2048x9 (transpose S2048x1 [1, 0] (shapeCast S1x2048 x1 hc) ht) hb (ix2 r k))).setWidth 32) = _
  rw [e1, e2]
  exact oh_scalar k _

/-- A row vector `[1, b]`, read through an identity cast and broadcast down `a` rows, reads its own entry. -/
private theorem bias_apply {α : Type} (a b : ℕ) (v : (⟨2, ![1, b]⟩ : Shape).Idx → α)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- A plain product into a zero accumulator whose right operand is read through an identity cast, at one entry:
    the sum over the contracted coordinate. -/
private theorem mm_apply {φ₁ φ₂ : FTy} (M K N : ℕ) (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂)
    (h : (⟨2, ![K, N]⟩ : Shape).ShapeCasts ⟨2, ![K, N]⟩) (r : Fin M) (q : Fin N) :
    matmul D none A (shapeCast ⟨2, ![K, N]⟩ B h) (constant ⟨2, ![M, N]⟩ .f32 0x00000000#32) (ix2 r q)
      = ∑ j : Fin K, A (ix2 r j) * B (ix2 j q) := by
  subst hD
  rw [shapeCast_self]
  exact LibPlainDot.matmul_plain_apply M K N none A B r q

/-- Two 128-column blocks side by side, read at `(r, k)`: the left block for `k < 128`, else the right block at
    `k − 128`. -/
private theorem concat_apply {α : Type} (u v : S2048x128.Idx → α)
    (h : Shape.Concatenates [S2048x128, S2048x128] S2048x256 1) (r : Fin 2048) (k : Fin 256) :
    concatenate S2048x256 1 [⟨S2048x128, u⟩, ⟨S2048x128, v⟩] h (ix2 r k)
      = if hk : k.val < 128 then u (ix2 r ⟨k.val, hk⟩) else v (ix2 r ⟨k.val - 128, by omega⟩) := by
  split
  · next hk =>
    refine concatenate_pair_apply_left (1 : Fin 2) u v h (ix2 r k) rfl (ix2 r ⟨k.val, hk⟩) fun b => ?_
    match b with
    | ⟨0, _⟩ => rfl
    | ⟨1, _⟩ => rfl
  · next hk =>
    refine concatenate_pair_apply_right (1 : Fin 2) u v h (ix2 r k) rfl rfl (ix2 r ⟨k.val - 128, by omega⟩)
      (fun b hb => ?_) ?_
    · match b with
      | ⟨0, _⟩ => rfl
      | ⟨1, _⟩ => exact absurd rfl hb
    · show (k.val - 128) + 128 = k.val
      omega

/-! ## The rectified input layer and the gate product -/

/-- Row `r` of the rectified fused input layer, from the blocks' entries. -/
private def xRow (r : Fin 2048) : Fin 128 → EReal :=
  Spec.xKer (fun l => x0 (ix2 r l)) (Spec.ohWord (x1 (ix3 (0 : Fin 1) (0 : Fin 1) r))) (fun l j => x3 (ix2 l j))
    (fun k j => x4 (ix2 k j)) (fun j => x5 (ix2 (0 : Fin 1) j))

/-- The rectified sum of the latent product, the one-hot product and the bias, at `(r, j)`. -/
private theorem x_apply (D1 : DotDims S2048x64 S64x128 S2048x128) (hD1 : D1 = DotDims.plain 2048 64 128)
    (D2 : DotDims S2048x9 S9x128 S2048x128) (hD2 : D2 = DotDims.plain 2048 9 128)
    (ht : FTy.bits .bf16 < FTy.bits .f32) (h3 : S64x128.ShapeCasts S64x128) (h4 : S9x128.ShapeCasts S9x128)
    (h5 : S1x128.ShapeCasts S1x128) (hb5 : S1x128.Broadcasts S2048x128)
    (hc : S1x1x2048.ShapeCasts S1x2048) (htr : S1x2048.Transposes [1, 0] S2048x1)
    (hi : S2048x9.Iotas .tc 32 [1]) (hb : S2048x1.Broadcasts S2048x9) (h1 : 1 < 32)
    (r : Fin 2048) (j : Fin 128) :
    maximumf
      (addf
        (addf (matmul (φ₂ := .bf16) D1 none (truncf .bf16 x0 ht) (shapeCast S64x128 x3 h3) (constant S2048x128 .f32 0x00000000#32))
          (matmul (φ₂ := .bf16) D2 none (truncf .bf16 (sitofp (F := Ideal) .f32 (extui 32 (cmpi .eq (iota .tc S2048x9 32 [1] hi)
              (broadcastTo S2048x9 (transpose S2048x1 [1, 0] (shapeCast S1x2048 x1 hc) htr) hb)) h1)) ht)
            (shapeCast S9x128 x4 h4) (constant S2048x128 .f32 0x00000000#32)))
        (broadcastTo S2048x128 (shapeCast S1x128 x5 h5) hb5))
      (broadcast S2048x128 (FloatOps.ofBits (F := Ideal) .f32 0x00000000#32)) (ix2 r j)
    = xRow x0 x1 x3 x4 x5 r j := by
  rw [maximumf_apply, addf_apply, addf_apply, broadcast_apply, mm_apply 2048 64 128 D1 hD1, mm_apply 2048 9 128 D2 hD2,
    bias_apply]
  have hz : (FloatOps.ofBits (F := Ideal) .f32 0x00000000#32 : EReal) = 0 := Ideal.ofBits_zero_f32
  unfold xRow Spec.xKer
  refine congrArg₂ max (congrArg₂ (· + ·) (congrArg₂ (· + ·) (Finset.sum_congr rfl fun l _ => rfl)
    (Finset.sum_congr rfl fun k _ => ?_)) rfl) hz
  exact congrArg (· * x4 (ix2 k j)) (oh_apply x1 hc htr hi hb h1 r k)

/-- The gate product at (r, q). -/
theorem pay6_apply (r : Fin 2048) (q : Fin 512) :
    k0_pay6 (F := Ideal) x1 x4 x0 x3 x5 x2 x6 x7 (ix2 r q) = gRow x0 x1 x2 x3 x4 x5 x6 x7 r q := by
  unfold k0_pay6
  rw [addf_apply, mm_apply 2048 256 512 dot_S2048x256_S256x512_S2048x512_1_0_0_1_n_n rfl, bias_apply]
  unfold gRow Spec.gatesKer
  refine congrArg₂ (· + ·) (Finset.sum_congr rfl fun k _ => congrArg (· * x6 (ix2 k q)) ?_) rfl
  rw [concat_apply]
  unfold Spec.xhRow
  split
  · next hk =>
    exact x_apply x0 x1 x3 x4 x5 _ rfl _ rfl _ _ _ _ _ _ _ _ _ _ r ⟨k.val, hk⟩
  · next hk =>
    show k0_pay5 x2 (ix2 r ⟨k.val - 128, _⟩) = _
    unfold k0_pay5
    rw [shapeCast_self]

/-! ## The GRU cell -/

/-- The cell's pointwise arithmetic over the four column blocks of a gate matrix `G` and a hidden block `H`,
    at `(r, j)`. -/
private theorem cell_apply (G : FVec Ideal S2048x512 .f32) (H : FVec Ideal S2048x128 .f32)
    (h0 : S2048x512.Slices ![0, 0] S2048x128) (h128 : S2048x512.Slices ![0, 128] S2048x128)
    (r : Fin 2048) (j : Fin 128) :
    k0_pay1 (F := Ideal) H G (extractStridedSlice S2048x128 ![0, 0] G h0)
        (extractStridedSlice S2048x128 ![0, 128] G h128) (ix2 r j)
      = Spec.hnewKer (fun q => G (ix2 r q)) (fun k => H (ix2 r k)) j := by
  unfold k0_pay1 Spec.hnewKer
  simp only [addf_apply, mulf_apply, subf_apply, broadcast_apply, Idealize.ShloMosaic.logistic,
    Idealize.ShloMosaic.tanh]
  rw [slice2_axis1_apply 0 G h0 r j ⟨j.val, by omega⟩ (Nat.zero_add _).symm,
    slice2_axis1_apply 128 G h128 r j ⟨128 + j.val, by omega⟩ rfl,
    slice2_axis1_apply 256 G _ r j ⟨256 + j.val, by omega⟩ rfl,
    slice2_axis1_apply 384 G _ r j ⟨384 + j.val, by omega⟩ rfl]
  rfl

/-- The stored new hidden state at (r, j). -/
theorem pay1_apply (r : Fin 2048) (j : Fin 128) :
    k0_pay1 (F := Ideal) (k0_pay5 x2) (k0_pay6 x1 x4 x0 x3 x5 x2 x6 x7) (k0_pay7 x1 x4 x0 x3 x5 x2 x6 x7)
      (k0_pay8 x1 x4 x0 x3 x5 x2 x6 x7) (ix2 r j) = hRow x0 x1 x2 x3 x4 x5 x6 x7 r j := by
  unfold k0_pay7 k0_pay8
  rw [cell_apply]
  unfold hRow
  have hg : (fun q => k0_pay6 (F := Ideal) x1 x4 x0 x3 x5 x2 x6 x7 (ix2 r q)) = gRow x0 x1 x2 x3 x4 x5 x6 x7 r :=
    funext fun q => pay6_apply x0 x1 x2 x3 x4 x5 x6 x7 r q
  have hh : (fun k => k0_pay5 (F := Ideal) x2 (ix2 r k)) = fun k => x2 (ix2 r k) := by
    unfold k0_pay5
    rw [shapeCast_self]
  rw [hg, hh]

/-! ## The fused heads -/

/-- The fused head outputs at (r, i), all 66 columns. -/
private theorem pay2_apply (r : Fin 2048) (i : Fin 66) :
    k0_pay2 (F := Ideal) (k0_pay5 x2) (k0_pay6 x1 x4 x0 x3 x5 x2 x6 x7) (k0_pay7 x1 x4 x0 x3 x5 x2 x6 x7)
      (k0_pay8 x1 x4 x0 x3 x5 x2 x6 x7) x8 x9 x10 x11 (ix2 r i)
      = oRow x0 x1 x2 x3 x4 x5 x6 x7 x8 x9 x10 x11 r i := by
  unfold k0_pay2
  rw [addf_apply, mm_apply 2048 256 66 dot_S2048x256_S256x66_S2048x66_1_0_0_1_n_n rfl, bias_apply]
  unfold oRow Spec.headKer
  refine congrArg₂ (· + ·) (Finset.sum_congr rfl fun k _ => congrArg (· * x10 (ix2 k i)) ?_) rfl
  rw [truncf_apply, maximumf_apply, addf_apply, broadcast_apply,
    mm_apply 2048 128 256 dot_S2048x128_S128x256_S2048x256_1_0_0_1_n_n rfl, bias_apply]
  refine congrArg₂ max (congrArg₂ (· + ·) (Finset.sum_congr rfl fun k' _ => congrArg (· * x8 (ix2 k' k)) ?_) rfl)
    Ideal.ofBits_zero_f32
  exact pay1_apply x0 x1 x2 x3 x4 x5 x6 x7 r k'

/-- The stored next latent state at (r, i): head column i. -/
theorem pay3_apply (r : Fin 2048) (i : Fin 64) :
    k0_pay3 (F := Ideal) (k0_pay5 x2) (k0_pay6 x1 x4 x0 x3 x5 x2 x6 x7) (k0_pay7 x1 x4 x0 x3 x5 x2 x6 x7)
      (k0_pay8 x1 x4 x0 x3 x5 x2 x6 x7) x8 x9 x10 x11 (ix2 r i)
      = oRow x0 x1 x2 x3 x4 x5 x6 x7 x8 x9 x10 x11 r ⟨i.val, by omega⟩ := by
  unfold k0_pay3
  refine (slice2_axis1_apply (n1 := 66) 0 _ _ r i ⟨i.val, by omega⟩ (Nat.zero_add _).symm).trans ?_
  exact pay2_apply x0 x1 x2 x3 x4 x5 x6 x7 x8 x9 x10 x11 r ⟨i.val, by omega⟩

/-- The stored reward / done pair at (r, i): head column 64 + i. -/
theorem pay4_apply (r : Fin 2048) (i : Fin 2) :
    k0_pay4 (F := Ideal) (k0_pay5 x2) (k0_pay6 x1 x4 x0 x3 x5 x2 x6 x7) (k0_pay7 x1 x4 x0 x3 x5 x2 x6 x7)
      (k0_pay8 x1 x4 x0 x3 x5 x2 x6 x7) x8 x9 x10 x11 (ix2 r i)
      = oRow x0 x1 x2 x3 x4 x5 x6 x7 x8 x9 x10 x11 r ⟨64 + i.val, by omega⟩ := by
  unfold k0_pay4
  refine (slice2_axis1_apply (n1 := 66) 64 _ _ r i ⟨64 + i.val, by omega⟩ rfl).trans ?_
  exact pay2_apply x0 x1 x2 x3 x4 x5 x6 x7 x8 x9 x10 x11 r ⟨64 + i.val, by omega⟩

end Cert.KernelIdeal.Pay

end
-- ==== Proof.Model.lean ====
/-
  The four results of the world-model step as whole-array functions of the twenty-two argument arrays.

  Row `R` of every result depends on row `R` of the latent input `z`, on the action word `act R` (which selects a
  row of the embedding table), on row `R` of the hidden state and on the weights: the reference-shaped formulas of
  the specification applied to those rows. Both programs' results are stated as these functions, so that the two
  runs meet at one term.
-/
import proofs.«430544_j81647328297666_3_alg».proof.Proof.Spec
import Idealize.ShloMosaic.Lib.ValueIdx

noncomputable section

open Idealize.ShloMosaic Idealize.ShloMosaic.ValueIdx

namespace Cert.Model

/-- The argument arrays, each a function of its index. -/
structure Args where
  z   : (⟨2, ![131072, 64]⟩ : Shape).Idx → EReal
  act : (⟨1, ![131072]⟩ : Shape).Idx → BitVec 32
  hid : (⟨3, ![1, 131072, 128]⟩ : Shape).Idx → EReal
  emb : (⟨2, ![9, 16]⟩ : Shape).Idx → EReal
  fW  : (⟨2, ![128, 80]⟩ : Shape).Idx → EReal
  fb  : (⟨1, ![128]⟩ : Shape).Idx → EReal
  Wih : (⟨2, ![384, 128]⟩ : Shape).Idx → EReal
  Whh : (⟨2, ![384, 128]⟩ : Shape).Idx → EReal
  bih : (⟨1, ![384]⟩ : Shape).Idx → EReal
  bhh : (⟨1, ![384]⟩ : Shape).Idx → EReal
  nW1 : (⟨2, ![128, 128]⟩ : Shape).Idx → EReal
  nb1 : (⟨1, ![128]⟩ : Shape).Idx → EReal
  nW2 : (⟨2, ![64, 128]⟩ : Shape).Idx → EReal
  nb2 : (⟨1, ![64]⟩ : Shape).Idx → EReal
  rW1 : (⟨2, ![64, 128]⟩ : Shape).Idx → EReal
  rb1 : (⟨1, ![64]⟩ : Shape).Idx → EReal
  rW2 : (⟨2, ![1, 64]⟩ : Shape).Idx → EReal
  rb2 : (⟨1, ![1]⟩ : Shape).Idx → EReal
  dW1 : (⟨2, ![64, 128]⟩ : Shape).Idx → EReal
  db1 : (⟨1, ![64]⟩ : Shape).Idx → EReal
  dW2 : (⟨2, ![1, 64]⟩ : Shape).Idx → EReal
  db2 : (⟨1, ![1]⟩ : Shape).Idx → EReal

namespace Args

variable (A : Args)

/-- Row `R` of the latent input. -/
def zRow (R : Fin 131072) : Fin 64 → EReal := fun l => A.z (ix2 R l)
/-- The embedding row the action word of row `R` selects. -/
def eRow (R : Fin 131072) : Fin 16 → EReal := fun l => A.emb (ix2 (Spec.refRow (A.act (ix1 R))) l)
/-- Row `R` of the hidden state. -/
def hRow (R : Fin 131072) : Fin 128 → EReal := fun k => A.hid (ix3 (0 : Fin 1) R k)
/-- The fused, rectified input of the GRU cell at row `R`. -/
def xRow (R : Fin 131072) : Fin 128 → EReal :=
  Spec.xRef (A.zRow R) (A.eRow R) (fun j l => A.fW (ix2 j l)) (fun j => A.fb (ix1 j))
/-- The new hidden state at row `R`. -/
def hnRow (R : Fin 131072) : Fin 128 → EReal :=
  Spec.hnewRef (A.xRow R) (A.hRow R) (fun q k => A.Wih (ix2 q k)) (fun q k => A.Whh (ix2 q k))
    (fun q => A.bih (ix1 q)) (fun q => A.bhh (ix1 q))
/-- The next-latent head at row `R`. -/
def znRow (R : Fin 131072) : Fin 64 → EReal :=
  Spec.mlpRef (A.hnRow R) (fun k k' => A.nW1 (ix2 k k')) (fun k => A.nb1 (ix1 k)) (fun i k => A.nW2 (ix2 i k))
    (fun i => A.nb2 (ix1 i))
/-- The reward head at row `R`. -/
def rwRow (R : Fin 131072) : Fin 1 → EReal :=
  Spec.mlpRef (A.hnRow R) (fun k k' => A.rW1 (ix2 k k')) (fun k => A.rb1 (ix1 k)) (fun i k => A.rW2 (ix2 i k))
    (fun i => A.rb2 (ix1 i))
/-- The done-logit head at row `R`. -/
def dnRow (R : Fin 131072) : Fin 1 → EReal :=
  Spec.mlpRef (A.hnRow R) (fun k k' => A.dW1 (ix2 k k')) (fun k => A.db1 (ix1 k)) (fun i k => A.dW2 (ix2 i k))
    (fun i => A.db2 (ix1 i))

/-- The next latent state, [131072, 64]. -/
def out0 : (⟨2, ![131072, 64]⟩ : Shape).Idx → EReal := fun i => A.znRow ⟨(i 0).val, (i 0).isLt⟩ ⟨(i 1).val, (i 1).isLt⟩
/-- The reward, [131072, 1]. -/
def out1 : (⟨2, ![131072, 1]⟩ : Shape).Idx → EReal := fun i => A.rwRow ⟨(i 0).val, (i 0).isLt⟩ 0
/-- The done logit, [131072, 1]. -/
def out2 : (⟨2, ![131072, 1]⟩ : Shape).Idx → EReal := fun i => A.dnRow ⟨(i 0).val, (i 0).isLt⟩ 0
/-- The new hidden state with its leading unit axis, [1, 131072, 128]. -/
def out3 : (⟨3, ![1, 131072, 128]⟩ : Shape).Idx → EReal := fun i => A.hnRow ⟨(i 1).val, (i 1).isLt⟩ ⟨(i 2).val, (i 2).isLt⟩

theorem out0_apply (R : Fin 131072) (i : Fin 64) : A.out0 (ix2 R i) = A.znRow R i := rfl
theorem out1_apply (R : Fin 131072) (u : Fin 1) : A.out1 (ix2 R u) = A.rwRow R 0 := rfl
theorem out2_apply (R : Fin 131072) (u : Fin 1) : A.out2 (ix2 R u) = A.dnRow R 0 := rfl
theorem out3_apply (u : Fin 1) (R : Fin 131072) (j : Fin 128) : A.out3 (ix3 u R j) = A.hnRow R j := rfl

end Args

end Cert.Model

end
-- ==== Proof.KI.Args.lean ====
/-
  The idealized kernel program's twenty-two argument arrays on a core, gathered as the model's arguments.
-/
import proofs.«430544_j81647328297666_3_alg».proof.Proof.KI.Base
import proofs.«430544_j81647328297666_3_alg».proof.Proof.Model

noncomputable section

namespace Cert.KernelIdeal.Hand

open Cert.KernelIdeal Cert.KernelIdeal.Gen
open Idealize.ShloMosaic Idealize.ShloMosaic.TcCoe Idealize.SL.Sem

/-- The argument arrays of core `c` in memory `m`. -/
def argsK (m : (ℓ : Loc nD τ sig) → Buf (Elt Ideal) ℓ) (c : Dev nD) : Cert.Model.Args where
  z := m ((c.tc : Thread nD τ).loc main_arg0)
  act := m ((c.tc : Thread nD τ).loc main_arg1)
  hid := m ((c.tc : Thread nD τ).loc main_arg2)
  emb := m ((c.tc : Thread nD τ).loc main_arg3)
  fW := m ((c.tc : Thread nD τ).loc main_arg4)
  fb := m ((c.tc : Thread nD τ).loc main_arg5)
  Wih := m ((c.tc : Thread nD τ).loc main_arg6)
  Whh := m ((c.tc : Thread nD τ).loc main_arg7)
  bih := m ((c.tc : Thread nD τ).loc main_arg8)
  bhh := m ((c.tc : Thread nD τ).loc main_arg9)
  nW1 := m ((c.tc : Thread nD τ).loc main_arg10)
  nb1 := m ((c.tc : Thread nD τ).loc main_arg11)
  nW2 := m ((c.tc : Thread nD τ).loc main_arg12)
  nb2 := m ((c.tc : Thread nD τ).loc main_arg13)
  rW1 := m ((c.tc : Thread nD τ).loc main_arg14)
  rb1 := m ((c.tc : Thread nD τ).loc main_arg15)
  rW2 := m ((c.tc : Thread nD τ).loc main_arg16)
  rb2 := m ((c.tc : Thread nD τ).loc main_arg17)
  dW1 := m ((c.tc : Thread nD τ).loc main_arg18)
  db1 := m ((c.tc : Thread nD τ).loc main_arg19)
  dW2 := m ((c.tc : Thread nD τ).loc main_arg20)
  db2 := m ((c.tc : Thread nD τ).loc main_arg21)

end Cert.KernelIdeal.Hand

end
-- ==== Proof.KI.Prologue.lean ====
/-
  The arrays the kernel's host code builds before the pallas_call, read at an entry in terms of the argument arrays.

  The action words are clamped and laid out as [64, 1, 2048]; the hidden state loses its leading unit axis; the latent
  part of the fuse weights is transposed; the action table is the embedding times the transposed action part of the
  fuse weights; the gate matrix stacks [W_ih_r^T, W_ih_z^T, W_ih_n^T, 0] over [W_hh_r^T, W_hh_z^T, 0, W_hh_n^T]; the gate
  bias is [b_ih_r + b_hh_r, b_ih_z + b_hh_z, b_ih_n, b_hh_n]; the first head layer is [ns_W1^T | rw_W1^T | dn_W1^T] with
  bias [ns_b1, rw_b1, dn_b1]; the second stacks [ns_W2^T | 0] over [0 | rw_W2^T, 0 ; 0, dn_W2^T] with bias [ns_b2, rw_b2, dn_b2].
  A change of float format is the identity at the exact instance, and the zero word denotes zero.
-/
import proofs.«430544_j81647328297666_3_alg».proof.Proof.KI.Args
import proofs.«430544_j81647328297666_3_alg».proof.Proof.LibPlainDot
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section
set_option maxRecDepth 16384

open scoped BigOperators

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## Vectors laid end to end, and a vector cut, read at an entry -/

/-- Two vectors laid end to end, read inside the first. -/
private theorem cat1_left {α : Type} {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin n) (hk : k.val < a) :
    concatenate ⟨1, ![n]⟩ 0 [⟨⟨1, ![a]⟩, x₁⟩, ⟨⟨1, ![b]⟩, x₂⟩] h (ix1 k) = x₁ (ix1 ⟨k.val, hk⟩) :=
  concatenate_pair_apply_left 0 x₁ x₂ h (ix1 k) rfl (ix1 ⟨k.val, hk⟩) (fun b => match b with | ⟨0, _⟩ => rfl)

/-- Two vectors laid end to end, read inside the second. -/
private theorem cat1_right {α : Type} {a b n : ℕ} (x₁ : (⟨1, ![a]⟩ : Shape).Idx → α) (x₂ : (⟨1, ![b]⟩ : Shape).Idx → α)
    (h : Shape.Concatenates [⟨1, ![a]⟩, ⟨1, ![b]⟩] ⟨1, ![n]⟩ 0) (k : Fin n) (hk : a ≤ k.val) (hkb : k.val - a < b) :
    concatenate ⟨1, ![n]⟩ 0 [⟨⟨1, ![a]⟩, x₁⟩, ⟨⟨1, ![b]⟩, x₂⟩] h (ix1 k) = x₂ (ix1 ⟨k.val - a, hkb⟩) :=
  concatenate_pair_apply_right 0 x₁ x₂ h (ix1 k) rfl rfl (ix1 ⟨k.val - a, hkb⟩)
    (fun b hb => match b, hb with | ⟨0, _⟩, hb => absurd rfl hb)
    (by show k.val - a + a = k.val; omega)

/-- A vector cut from `o` on reads the source at `o + j`. -/
private theorem slice1_apply {α : Type} {n k : ℕ} (o : ℕ) (X : (⟨1, ![n]⟩ : Shape).Idx → α)
    (h : (⟨1, ![n]⟩ : Shape).Slices ![o] ⟨1, ![k]⟩) (j : Fin k) (i : Fin n) (hi : i.val = o + j.val) :
    extractStridedSlice ⟨1, ![k]⟩ ![o] X h (ix1 j) = X (ix1 i) :=
  extractStridedSlice_apply _ _ _ _ _ (fun ax => match ax with | ⟨0, _⟩ => hi)

/-- Four vectors of 128 entries laid end to end: the entry at `q` is piece `p`'s entry `i` when `q = 128 p + i`. -/
private theorem cat4_at {α : Type} (x₀ x₁ x₂ x₃ : S128.Idx → α)
    (h : Shape.Concatenates [S128, S128, S128, S128] S512 0) (q : Fin 512) (i : Fin 128) :
    (q.val = i.val → concatenate S512 0 [⟨S128, x₀⟩, ⟨S128, x₁⟩, ⟨S128, x₂⟩, ⟨S128, x₃⟩] h (ix1 q) = x₀ (ix1 i))
    ∧ (q.val = 128 + i.val → concatenate S512 0 [⟨S128, x₀⟩, ⟨S128, x₁⟩, ⟨S128, x₂⟩, ⟨S128, x₃⟩] h (ix1 q) = x₁ (ix1 i))
    ∧ (q.val = 256 + i.val → concatenate S512 0 [⟨S128, x₀⟩, ⟨S128, x₁⟩, ⟨S128, x₂⟩, ⟨S128, x₃⟩] h (ix1 q) = x₂ (ix1 i))
    ∧ (q.val = 384 + i.val → concatenate S512 0 [⟨S128, x₀⟩, ⟨S128, x₁⟩, ⟨S128, x₂⟩, ⟨S128, x₃⟩] h (ix1 q) = x₃ (ix1 i)) := by
  have hv : ∀ b : Fin S128.rank, b.cast (rfl : S128.rank = S512.rank) ≠ (0 : Fin S512.rank) →
      ((ix1 i : S128.Idx) b).val = ((ix1 q : S512.Idx) (b.cast rfl)).val :=
    fun b hb => match b, hb with | ⟨0, _⟩, hb => absurd rfl hb
  refine ⟨fun hq => ?_, fun hq => ?_, fun hq => ?_, fun hq => ?_⟩
  · exact concatenate_apply_piece (t := S512) 0 [⟨S128, x₀⟩, ⟨S128, x₁⟩, ⟨S128, x₂⟩, ⟨S128, x₃⟩] h (ix1 q) 0
      (by show 0 < 4; omega) S128 x₀ rfl rfl 0 rfl (ix1 i) hv (by show 0 + i.val = q.val; omega)
  · exact concatenate_apply_piece (t := S512) 0 [⟨S128, x₀⟩, ⟨S128, x₁⟩, ⟨S128, x₂⟩, ⟨S128, x₃⟩] h (ix1 q) 1
      (by show 1 < 4; omega) S128 x₁ rfl rfl 128 rfl (ix1 i) hv (by show 128 + i.val = q.val; omega)
  · exact concatenate_apply_piece (t := S512) 0 [⟨S128, x₀⟩, ⟨S128, x₁⟩, ⟨S128, x₂⟩, ⟨S128, x₃⟩] h (ix1 q) 2
      (by show 2 < 4; omega) S128 x₂ rfl rfl 256 rfl (ix1 i) hv (by show 256 + i.val = q.val; omega)
  · exact concatenate_apply_piece (t := S512) 0 [⟨S128, x₀⟩, ⟨S128, x₁⟩, ⟨S128, x₂⟩, ⟨S128, x₃⟩] h (ix1 q) 3
      (by show 3 < 4; omega) S128 x₃ rfl rfl 384 rfl (ix1 i) hv (by show 384 + i.val = q.val; omega)

/-- A two-piece concatenation of equal pieces is equal. -/
private theorem cat2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

/-- A four-piece concatenation of equal pieces is equal. -/
private theorem cat4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁; subst e₂; subst e₃; subst e₄; rfl

/-! ## The eight arrays

Each array is first written as the term its operations compute from the argument arrays (every operation's result read at
its own buffer, every other buffer left as it was), and that term is then read at an entry. -/

/-- Window 1: the clamped action word of global row t · 2048 + r. -/
theorem V_v1 (t : Fin 64) (r : Fin 2048) :
    (V m c main_v1 : S64x1x2048.Idx → BitVec 32) (ix3 t (0 : Fin 1) r)
      = Spec.clampWord ((argsK m c).act (ix1 (⟨t.val * 2048 + r.val, by omega⟩ : Fin 131072))) := by
  -- the array as a term: the words, bounded below by 0 and above by 8, laid out as [64, 1, 2048]
  have e : (V m c main_v1 : S64x1x2048.Idx → BitVec 32) = shapeCast S64x1x2048
      (minsi (broadcastInDim S131072 ![] bcast_S_S131072 (constantI S_ 32 8#32))
        (maxsi (broadcastInDim S131072 ![] bcast_S_S131072 (constantI S_ 32 0#32))
          ((m ((c.tc : Thread nD τ).loc main_arg1)) : S131072.Idx → BitVec 32)))
      shapeCasts_S131072_S64x1x2048 := by
    dsimp only [V, V0]
    simp only [hostOps0, hostOps0_1, hostOps0_2, List.flatten_cons, List.flatten_nil, List.append_nil, List.cons_append, List.nil_append]
    after_results_simp <;> rfl
  rw [e]
  -- entry (t, 0, r) has row-major position t · 2048 + r; the two bounds at an entry are the scalar ones
  refine (shapeCast_apply _ _ _ (ix1 (⟨t.val * 2048 + r.val, by omega⟩ : Fin 131072)) ?_).trans ?_
  · rw [Shape.rowMajor_val_three, Shape.rowMajor_val_one]
    show t.val * 2048 + r.val = (t.val * 1 + 0) * 2048 + r.val
    omega
  · rfl

/-- Window 2: the hidden state without its leading unit axis. -/
theorem V_v2 (R : Fin 131072) (k : Fin 128) :
    (V m c main_v2 : S131072x128.Idx → EReal) (ix2 R k) = (argsK m c).hid (ix3 (0 : Fin 1) R k) := by
  have e : (V m c main_v2 : S131072x128.Idx → EReal)
      = shapeCast S131072x128 ((m ((c.tc : Thread nD τ).loc main_arg2)) : S1x131072x128.Idx → EReal) shapeCasts_S1x131072x128_S131072x128 := by
    dsimp only [V, V0]
    simp only [hostOps0, hostOps0_1, hostOps0_2, List.flatten_cons, List.flatten_nil, List.append_nil, List.cons_append, List.nil_append]
    after_results_simp <;> rfl
  rw [e]
  exact shapeCast_1ab_ab_apply _ _ R k

/-- Window 3: the latent columns of the fuse weights, transposed. -/
theorem V_v5 (l : Fin 64) (j : Fin 128) :
    (V m c main_v5 : S64x128.Idx → EReal) (ix2 l j) = (argsK m c).fW (ix2 j (⟨l.val, by omega⟩ : Fin 80)) := by
  have e : (V m c main_v5 : S64x128.Idx → EReal) =
      truncf (F := Ideal) .bf16 (transpose S64x128 [1, 0] (extractStridedSlice S128x64 ![0, 0]
        ((m ((c.tc : Thread nD τ).loc main_arg4)) : S128x80.Idx → EReal) slices_S128x80_S128x64_0_0)
        transposes_S128x64_S64x128_1_0) bitsLt_bf16_f32 := by
    dsimp only [V, V0]
    simp only [hostOps0, hostOps0_1, hostOps0_2, List.flatten_cons, List.flatten_nil, List.append_nil, List.cons_append, List.nil_append]
    after_results_simp <;> rfl
  -- the change of format is the identity; entry (l, j) of the transpose is entry (j, l) of the first 64 columns
  rw [e, truncf_apply]
  refine (transpose_ix2_apply _ _ l j).trans ?_
  exact slice2_axis1_apply 0 _ _ j l _ (Nat.zero_add _).symm

set_option maxHeartbeats 1000000 in
/-- Window 4: the action table, embedding row k against the action columns of fuse-weight row j. -/
theorem V_v9 (k : Fin 9) (j : Fin 128) :
    (V m c main_v9 : S9x128.Idx → EReal) (ix2 k j)
      = ∑ l : Fin 16, (argsK m c).emb (ix2 k l) * (argsK m c).fW (ix2 j (⟨64 + l.val, by omega⟩ : Fin 80)) := by
  have e : (V m c main_v9 : S9x128.Idx → EReal) =
      truncf (F := Ideal) .bf16 (Host.dotGeneral (F := Ideal) (φ₁ := .f32) (φ₂ := .f32) dot_S9x16_S16x128_S9x128_1_0_0_1_n_n none
        ((m ((c.tc : Thread nD τ).loc main_arg3)) : S9x16.Idx → EReal)
        (transpose S16x128 [1, 0] (extractStridedSlice S128x16 ![0, 64]
          ((m ((c.tc : Thread nD τ).loc main_arg4)) : S128x80.Idx → EReal) slices_S128x80_S128x16_0_64) transposes_S128x16_S16x128_1_0))
        bitsLt_bf16_f32 := by
    dsimp only [V, V0]
    simp only [hostOps0, hostOps0_1, hostOps0_2, List.flatten_cons, List.flatten_nil, List.append_nil, List.cons_append, List.nil_append]
    after_results_simp <;> rfl
  -- the change of format is the identity; the product at (k, j) sums over the 16 contracted entries, and entry
  -- (l, j) of the transposed slice is entry (j, 64 + l) of the fuse weights
  rw [e, truncf_apply]
  refine (Cert.LibPlainDot.dotGeneral_plain_apply 9 16 128 none .single _ _ k j).trans ?_
  refine Finset.sum_congr rfl fun l _ => ?_
  refine congrArg (fun z => (argsK m c).emb (ix2 k l) * z) ?_
  refine (transpose_ix2_apply _ _ l j).trans ?_
  exact slice2_axis1_apply 64 _ _ j l _ rfl

/-- Window 5: the fuse bias as a row. -/
theorem V_v10 (j : Fin 128) :
    (V m c main_v10 : S1x128.Idx → EReal) (ix2 (0 : Fin 1) j) = (argsK m c).fb (ix1 j) := by
  have e : (V m c main_v10 : S1x128.Idx → EReal)
      = shapeCast S1x128 ((m ((c.tc : Thread nD τ).loc main_arg5)) : S128.Idx → EReal) shapeCasts_S128_S1x128 := by
    dsimp only [V, V0]
    simp only [hostOps0, hostOps0_1, hostOps0_2, List.flatten_cons, List.flatten_nil, List.append_nil, List.cons_append, List.nil_append]
    after_results_simp <;> rfl
  rw [e]
  exact shapeCast_a_1a_apply _ _ 0 j

set_option maxHeartbeats 1000000 in
/-- Window 7: the gate bias [b_ih_r + b_hh_r, b_ih_z + b_hh_z, b_ih_n, b_hh_n]. -/
theorem V_v37 (q : Fin 512) :
    (V m c main_v37 : S1x512.Idx → EReal) (ix2 (0 : Fin 1) q)
      = if hq : q.val < 256 then (argsK m c).bih (ix1 (⟨q.val, by omega⟩ : Fin 384)) + (argsK m c).bhh (ix1 (⟨q.val, by omega⟩ : Fin 384))
        else if hq' : q.val < 384 then (argsK m c).bih (ix1 (⟨q.val, hq'⟩ : Fin 384))
        else (argsK m c).bhh (ix1 (⟨q.val - 128, by omega⟩ : Fin 384)) := by
  have e : (V m c main_v37 : S1x512.Idx → EReal) = shapeCast S1x512
      (concatenate S512 0 [⟨S128, addf (F := Ideal) (φ := .f32) (extractStridedSlice S128 ![0] ((m ((c.tc : Thread nD τ).loc main_arg8)) : S384.Idx → EReal) slices_S384_S128_0) (extractStridedSlice S128 ![0] ((m ((c.tc : Thread nD τ).loc main_arg9)) : S384.Idx → EReal) slices_S384_S128_0)⟩,
        ⟨S128, addf (F := Ideal) (φ := .f32) (extractStridedSlice S128 ![128] ((m ((c.tc : Thread nD τ).loc main_arg8)) : S384.Idx → EReal) slices_S384_S128_128) (extractStridedSlice S128 ![128] ((m ((c.tc : Thread nD τ).loc main_arg9)) : S384.Idx → EReal) slices_S384_S128_128)⟩,
        ⟨S128, (extractStridedSlice S128 ![256] ((m ((c.tc : Thread nD τ).loc main_arg8)) : S384.Idx → EReal) slices_S384_S128_256)⟩, ⟨S128, (extractStridedSlice S128 ![256] ((m ((c.tc : Thread nD τ).loc main_arg9)) : S384.Idx → EReal) slices_S384_S128_256)⟩] concatenates_S128_S128_S128_S128_S512_d0)
      shapeCasts_S512_S1x512 := by
    dsimp only [V, V0]
    simp only [hostOps0, hostOps0_1, hostOps0_2, List.flatten_cons, List.flatten_nil, List.append_nil, List.cons_append, List.nil_append]
    after_results_simp
    refine congrArg (fun z => shapeCast S1x512 z shapeCasts_S512_S1x512) ?_
    refine cat4_congr 0 _ ?_ ?_ ?_ ?_
    · after_results_simp <;> rfl
    · simp only [Matrix.cons_val]; after_results_simp <;> rfl
    · simp only [Matrix.cons_val]; after_results_simp <;> rfl
    · simp only [Matrix.cons_val]; after_results_simp <;> rfl
  rw [e]
  -- the four pieces of 128 entries in turn: two sums of slices, then one slice of each bias
  refine (shapeCast_a_1a_apply _ _ 0 q).trans ?_
  by_cases h1 : q.val < 128
  · rw [dif_pos (show q.val < 256 by omega)]
    refine ((cat4_at _ _ _ _ _ q ⟨q.val, h1⟩).1 rfl).trans ?_
    rw [addf_apply]
    exact congrArg₂ (· + ·) (slice1_apply 0 _ _ _ ⟨q.val, by omega⟩ (Nat.zero_add _).symm)
      (slice1_apply 0 _ _ _ ⟨q.val, by omega⟩ (Nat.zero_add _).symm)
  · by_cases h2 : q.val < 256
    · rw [dif_pos h2]
      refine ((cat4_at _ _ _ _ _ q ⟨q.val - 128, by omega⟩).2.1 (by show q.val = 128 + (q.val - 128); omega)).trans ?_
      rw [addf_apply]
      exact congrArg₂ (· + ·) (slice1_apply 128 _ _ _ ⟨q.val, by omega⟩ (by show q.val = 128 + (q.val - 128); omega))
        (slice1_apply 128 _ _ _ ⟨q.val, by omega⟩ (by show q.val = 128 + (q.val - 128); omega))
    · rw [dif_neg h2]
      by_cases h3 : q.val < 384
      · rw [dif_pos h3]
        refine ((cat4_at _ _ _ _ _ q ⟨q.val - 256, by omega⟩).2.2.1 (by show q.val = 256 + (q.val - 256); omega)).trans ?_
        exact slice1_apply 256 _ _ _ ⟨q.val, h3⟩ (by show q.val = 256 + (q.val - 256); omega)
      · rw [dif_neg h3]
        have hq := q.isLt
        refine ((cat4_at _ _ _ _ _ q ⟨q.val - 384, by omega⟩).2.2.2 (by show q.val = 384 + (q.val - 384); omega)).trans ?_
        exact slice1_apply 256 _ _ _ ⟨q.val - 128, by omega⟩ (by show q.val - 128 = 256 + (q.val - 384); omega)

set_option maxHeartbeats 1000000 in
/-- Window 9: its bias [ns_b1, rw_b1, dn_b1]. -/
theorem V_v45 (k : Fin 256) :
    (V m c main_v45 : S1x256.Idx → EReal) (ix2 (0 : Fin 1) k)
      = if hk : k.val < 128 then (argsK m c).nb1 (ix1 (⟨k.val, hk⟩ : Fin 128))
        else if hk2 : k.val < 192 then (argsK m c).rb1 (ix1 (⟨k.val - 128, by omega⟩ : Fin 64))
        else (argsK m c).db1 (ix1 (⟨k.val - 192, by omega⟩ : Fin 64)) := by
  have e : (V m c main_v45 : S1x256.Idx → EReal) = shapeCast S1x256
      (concatenate S256 0 [⟨S128, ((m ((c.tc : Thread nD τ).loc main_arg11)) : S128.Idx → EReal)⟩,
        ⟨S128, concatenate S128 0 [⟨S64, ((m ((c.tc : Thread nD τ).loc main_arg15)) : S64.Idx → EReal)⟩, ⟨S64, ((m ((c.tc : Thread nD τ).loc main_arg19)) : S64.Idx → EReal)⟩]
          concatenates_S64_S64_S128_d0⟩] concatenates_S128_S128_S256_d0)
      shapeCasts_S256_S1x256 := by
    dsimp only [V, V0]
    simp only [hostOps0, hostOps0_1, hostOps0_2, List.flatten_cons, List.flatten_nil, List.append_nil, List.cons_append, List.nil_append]
    after_results_simp
    refine congrArg (fun z => shapeCast S1x256 z shapeCasts_S256_S1x256) ?_
    refine cat2_congr 0 _ ?_ ?_
    · after_results_simp <;> rfl
    · after_results_simp
      refine cat2_congr 0 _ ?_ ?_
      · after_results_simp <;> rfl
      · after_results_simp <;> rfl
  rw [e]
  -- entries below 128 lie in the first piece; the rest in the inner pair, split at 64
  refine (shapeCast_a_1a_apply _ _ 0 k).trans ?_
  have hk256 := k.isLt
  by_cases hk : k.val < 128
  · rw [dif_pos hk]
    exact cat1_left _ _ _ k hk
  · rw [dif_neg hk]
    refine (cat1_right _ _ _ k (by omega) (by omega)).trans ?_
    by_cases hk2 : k.val < 192
    · rw [dif_pos hk2]
      exact cat1_left _ _ _ ⟨k.val - 128, by omega⟩ (by show k.val - 128 < 64; omega)
    · rw [dif_neg hk2]
      refine (cat1_right _ _ _ ⟨k.val - 128, by omega⟩ (by show 64 ≤ k.val - 128; omega)
        (by show k.val - 128 - 64 < 64; omega)).trans ?_
      exact congrArg (fun z : Fin 64 => (m ((c.tc : Thread nD τ).loc main_arg19)) (ix1 z)) (Fin.ext (by show k.val - 128 - 64 = k.val - 192; omega))

set_option maxHeartbeats 1000000 in
/-- Window 11: its bias [ns_b2, rw_b2, dn_b2]. -/
theorem V_v60 (i : Fin 66) :
    (V m c main_v60 : S1x66.Idx → EReal) (ix2 (0 : Fin 1) i)
      = if hi : i.val < 64 then (argsK m c).nb2 (ix1 (⟨i.val, hi⟩ : Fin 64))
        else if i.val = 64 then (argsK m c).rb2 (ix1 (0 : Fin 1)) else (argsK m c).db2 (ix1 (0 : Fin 1)) := by
  have e : (V m c main_v60 : S1x66.Idx → EReal) = shapeCast S1x66
      (concatenate S66 0 [⟨S64, ((m ((c.tc : Thread nD τ).loc main_arg13)) : S64.Idx → EReal)⟩,
        ⟨S2, concatenate S2 0 [⟨S1, ((m ((c.tc : Thread nD τ).loc main_arg17)) : S1.Idx → EReal)⟩, ⟨S1, ((m ((c.tc : Thread nD τ).loc main_arg21)) : S1.Idx → EReal)⟩]
          concatenates_S1_S1_S2_d0⟩] concatenates_S64_S2_S66_d0)
      shapeCasts_S66_S1x66 := by
    dsimp only [V, V0]
    simp only [hostOps0, hostOps0_1, hostOps0_2, List.flatten_cons, List.flatten_nil, List.append_nil, List.cons_append, List.nil_append]
    after_results_simp
    refine congrArg (fun z => shapeCast S1x66 z shapeCasts_S66_S1x66) ?_
    refine cat2_congr 0 _ ?_ ?_
    · after_results_simp <;> rfl
    · after_results_simp
      refine cat2_congr 0 _ ?_ ?_
      · after_results_simp <;> rfl
      · after_results_simp <;> rfl
  rw [e]
  -- entries below 64 lie in the first piece; entries 64 and 65 are the two one-entry biases
  refine (shapeCast_a_1a_apply _ _ 0 i).trans ?_
  have hi66 := i.isLt
  by_cases hi : i.val < 64
  · rw [dif_pos hi]
    exact cat1_left _ _ _ i hi
  · rw [dif_neg hi]
    refine (cat1_right _ _ _ i (by omega) (by omega)).trans ?_
    by_cases h64 : i.val = 64
    · rw [if_pos h64]
      refine (cat1_left _ _ _ ⟨i.val - 64, by omega⟩ (by show i.val - 64 < 1; omega)).trans ?_
      exact congrArg (fun z : Fin 1 => (m ((c.tc : Thread nD τ).loc main_arg17)) (ix1 z)) (Subsingleton.elim _ _)
    · rw [if_neg h64]
      refine (cat1_right _ _ _ ⟨i.val - 64, by omega⟩ (by show 1 ≤ i.val - 64; omega) (by show i.val - 64 - 1 < 1; omega)).trans ?_
      exact congrArg (fun z : Fin 1 => (m ((c.tc : Thread nD τ).loc main_arg21)) (ix1 z)) (Subsingleton.elim _ _)

end Cert.KernelIdeal.Hand

end
-- ==== Proof.KI.PrologueW.lean ====
/-
  The three weight matrices the kernel's host code builds before the pallas_call, read at an entry in terms of the
  argument arrays: the gate matrix stacks [W_ih_r^T, W_ih_z^T, W_ih_n^T, 0] over [W_hh_r^T, W_hh_z^T, 0, W_hh_n^T]; the
  first head layer is [ns_W1^T | rw_W1^T | dn_W1^T]; the second stacks [ns_W2^T | 0] over [0 | rw_W2^T, 0 ; 0, dn_W2^T].
  A change of float format is the identity at the exact instance, and the zero word denotes zero.

  Each matrix is first written once as the composed term of the host operations over the argument arrays (slices,
  transposes, blocks laid side by side or one over the other, a broadcast zero), and that term is then read at an entry
  by following the entry's row and column through the seams of the blocks.
-/
import proofs.«430544_j81647328297666_3_alg».proof.Proof.KI.Args
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section
set_option maxRecDepth 16384

open scoped BigOperators

namespace Cert.KernelIdeal.Hand

open Cert.KernelIdeal Cert.KernelIdeal.Gen
open Idealize.ShloMosaic Idealize.ShloMosaic.TcCoe Idealize.ShloMosaic.ValueIdx Idealize.SL.Sem

/-! Matrices laid side by side or one over the other, read at an entry given by its two coordinates. -/

section Blocks
variable {α : Type}

/-- Two matrices side by side, read left of the seam: the left matrix at the same entry. -/
private theorem cat2_cols_left {a n1 n2 t : Nat} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, t]⟩ 1) (i : Fin a) (j : Fin t) (hj : j.val < n1) :
    concatenate ⟨2, ![a, t]⟩ 1 [⟨⟨2, ![a, n1]⟩, x₁⟩, ⟨⟨2, ![a, n2]⟩, x₂⟩] h (ix2 i j) = x₁ (ix2 i (⟨j.val, hj⟩ : Fin n1)) :=
  concatenate_pair_apply_left (1 : Fin 2) x₁ x₂ h (ix2 i j) rfl (ix2 i (⟨j.val, hj⟩ : Fin n1))
    (fun b => match b with | ⟨0, _⟩ => rfl | ⟨1, _⟩ => rfl)

/-- Two matrices side by side, read at or right of the seam: the right matrix, the column shifted back by the left width. -/
private theorem cat2_cols_right {a n1 n2 t : Nat} (x₁ : (⟨2, ![a, n1]⟩ : Shape).Idx → α) (x₂ : (⟨2, ![a, n2]⟩ : Shape).Idx → α)
    (h : Shape.Concatenates [⟨2, ![a, n1]⟩, ⟨2, ![a, n2]⟩] ⟨2, ![a, t]⟩ 1) (i : Fin a) (j : Fin t) (r : Fin n2)
    (hj : r.val + n1 = j.val) :
    concatenate ⟨2, ![a, t]⟩ 1 [⟨⟨2, ![a, n1]⟩, x₁⟩, ⟨⟨2, ![a, n2]⟩, x₂⟩] h (ix2 i j) = x₂ (ix2 i r) :=
  concatenate_pair_apply_right (1 : Fin 2) x₁ x₂ h (ix2 i j) rfl rfl (ix2 i r)
    (fun b hb => match b, hb with | ⟨0, _⟩, _ => rfl | ⟨1, _⟩, hb => absurd rfl hb) hj

/-- Two matrices one over the other, read above the seam: the upper matrix at the same entry. -/
private theorem cat2_rows_top {a1 a2 n t : Nat} (x₁ : (⟨2, ![a1, n]⟩ : Shape).Idx → α) (x₂ : (⟨2, ![a2, n]⟩ : Shape).Idx → α)
    (h : Shape.Concatenates [⟨2, ![a1, n]⟩, ⟨2, ![a2, n]⟩] ⟨2, ![t, n]⟩ 0) (i : Fin t) (j : Fin n) (hi : i.val < a1) :
    concatenate ⟨2, ![t, n]⟩ 0 [⟨⟨2, ![a1, n]⟩, x₁⟩, ⟨⟨2, ![a2, n]⟩, x₂⟩] h (ix2 i j) = x₁ (ix2 (⟨i.val, hi⟩ : Fin a1) j) :=
  concatenate_pair_apply_left (0 : Fin 2) x₁ x₂ h (ix2 i j) rfl (ix2 (⟨i.val, hi⟩ : Fin a1) j)
    (fun b => match b with | ⟨0, _⟩ => rfl | ⟨1, _⟩ => rfl)

/-- Two matrices one over the other, read at or below the seam: the lower matrix, the row shifted back by the upper height. -/
private theorem cat2_rows_bot {a1 a2 n t : Nat} (x₁ : (⟨2, ![a1, n]⟩ : Shape).Idx → α) (x₂ : (⟨2, ![a2, n]⟩ : Shape).Idx → α)
    (h : Shape.Concatenates [⟨2, ![a1, n]⟩, ⟨2, ![a2, n]⟩] ⟨2, ![t, n]⟩ 0) (i : Fin t) (j : Fin n) (r : Fin a2)
    (hi : r.val + a1 = i.val) :
    concatenate ⟨2, ![t, n]⟩ 0 [⟨⟨2, ![a1, n]⟩, x₁⟩, ⟨⟨2, ![a2, n]⟩, x₂⟩] h (ix2 i j) = x₂ (ix2 r j) :=
  concatenate_pair_apply_right (0 : Fin 2) x₁ x₂ h (ix2 i j) rfl rfl (ix2 r j)
    (fun b hb => match b, hb with | ⟨0, _⟩, hb => absurd rfl hb | ⟨1, _⟩, _ => rfl) hi

/-- Four matrices of one shape side by side, read in the first: that matrix at the same entry. -/
private theorem cat4_cols_0 {a n t : Nat} (x0 x1 x2 x3 : (⟨2, ![a, n]⟩ : Shape).Idx → α)
    (h : Shape.Concatenates [⟨2, ![a, n]⟩, ⟨2, ![a, n]⟩, ⟨2, ![a, n]⟩, ⟨2, ![a, n]⟩] ⟨2, ![a, t]⟩ 1)
    (i : Fin a) (j : Fin t) (r : Fin n) (hj : r.val = j.val) :
    concatenate ⟨2, ![a, t]⟩ 1 [⟨⟨2, ![a, n]⟩, x0⟩, ⟨⟨2, ![a, n]⟩, x1⟩, ⟨⟨2, ![a, n]⟩, x2⟩, ⟨⟨2, ![a, n]⟩, x3⟩] h (ix2 i j)
      = x0 (ix2 i r) :=
  concatenate_apply_piece (t := ⟨2, ![a, t]⟩) (1 : Fin 2) [⟨⟨2, ![a, n]⟩, x0⟩, ⟨⟨2, ![a, n]⟩, x1⟩, ⟨⟨2, ![a, n]⟩, x2⟩, ⟨⟨2, ![a, n]⟩, x3⟩] h (ix2 i j) 0 (by show 0 < 4; omega) ⟨2, ![a, n]⟩ x0 rfl rfl 0 rfl (ix2 i r)
    (fun b hb => match b, hb with | ⟨0, _⟩, _ => rfl | ⟨1, _⟩, hb => absurd rfl hb)
    (by show 0 + r.val = j.val; omega)

/-- … read in the second: that matrix, the column shifted back by one width. -/
private theorem cat4_cols_1 {a n t : Nat} (x0 x1 x2 x3 : (⟨2, ![a, n]⟩ : Shape).Idx → α)
    (h : Shape.Concatenates [⟨2, ![a, n]⟩, ⟨2, ![a, n]⟩, ⟨2, ![a, n]⟩, ⟨2, ![a, n]⟩] ⟨2, ![a, t]⟩ 1)
    (i : Fin a) (j : Fin t) (r : Fin n) (hj : n + r.val = j.val) :
    concatenate ⟨2, ![a, t]⟩ 1 [⟨⟨2, ![a, n]⟩, x0⟩, ⟨⟨2, ![a, n]⟩, x1⟩, ⟨⟨2, ![a, n]⟩, x2⟩, ⟨⟨2, ![a, n]⟩, x3⟩] h (ix2 i j)
      = x1 (ix2 i r) :=
  concatenate_apply_piece (t := ⟨2, ![a, t]⟩) (1 : Fin 2) [⟨⟨2, ![a, n]⟩, x0⟩, ⟨⟨2, ![a, n]⟩, x1⟩, ⟨⟨2, ![a, n]⟩, x2⟩, ⟨⟨2, ![a, n]⟩, x3⟩] h (ix2 i j) 1 (by show 1 < 4; omega) ⟨2, ![a, n]⟩ x1 rfl rfl (n + 0) rfl (ix2 i r)
    (fun b hb => match b, hb with | ⟨0, _⟩, _ => rfl | ⟨1, _⟩, hb => absurd rfl hb)
    (by show n + 0 + r.val = j.val; omega)

/-- … read in the third: that matrix, the column shifted back by two widths. -/
private theorem cat4_cols_2 {a n t : Nat} (x0 x1 x2 x3 : (⟨2, ![a, n]⟩ : Shape).Idx → α)
    (h : Shape.Concatenates [⟨2, ![a, n]⟩, ⟨2, ![a, n]⟩, ⟨2, ![a, n]⟩, ⟨2, ![a, n]⟩] ⟨2, ![a, t]⟩ 1)
    (i : Fin a) (j : Fin t) (r : Fin n) (hj : n + n + r.val = j.val) :
    concatenate ⟨2, ![a, t]⟩ 1 [⟨⟨2, ![a, n]⟩, x0⟩, ⟨⟨2, ![a, n]⟩, x1⟩, ⟨⟨2, ![a, n]⟩, x2⟩, ⟨⟨2, ![a, n]⟩, x3⟩] h (ix2 i j)
      = x2 (ix2 i r) :=
  concatenate_apply_piece (t := ⟨2, ![a, t]⟩) (1 : Fin 2) [⟨⟨2, ![a, n]⟩, x0⟩, ⟨⟨2, ![a, n]⟩, x1⟩, ⟨⟨2, ![a, n]⟩, x2⟩, ⟨⟨2, ![a, n]⟩, x3⟩] h (ix2 i j) 2 (by show 2 < 4; omega) ⟨2, ![a, n]⟩ x2 rfl rfl (n + (n + 0)) rfl (ix2 i r)
    (fun b hb => match b, hb with | ⟨0, _⟩, _ => rfl | ⟨1, _⟩, hb => absurd rfl hb)
    (by show n + (n + 0) + r.val = j.val; omega)

/-- … read in the fourth: that matrix, the column shifted back by three widths. -/
private theorem cat4_cols_3 {a n t : Nat} (x0 x1 x2 x3 : (⟨2, ![a, n]⟩ : Shape).Idx → α)
    (h : Shape.Concatenates [⟨2, ![a, n]⟩, ⟨2, ![a, n]⟩, ⟨2, ![a, n]⟩, ⟨2, ![a, n]⟩] ⟨2, ![a, t]⟩ 1)
    (i : Fin a) (j : Fin t) (r : Fin n) (hj : n + n + n + r.val = j.val) :
    concatenate ⟨2, ![a, t]⟩ 1 [⟨⟨2, ![a, n]⟩, x0⟩, ⟨⟨2, ![a, n]⟩, x1⟩, ⟨⟨2, ![a, n]⟩, x2⟩, ⟨⟨2, ![a, n]⟩, x3⟩] h (ix2 i j)
      = x3 (ix2 i r) :=
  concatenate_apply_piece (t := ⟨2, ![a, t]⟩) (1 : Fin 2) [⟨⟨2, ![a, n]⟩, x0⟩, ⟨⟨2, ![a, n]⟩, x1⟩, ⟨⟨2, ![a, n]⟩, x2⟩, ⟨⟨2, ![a, n]⟩, x3⟩] h (ix2 i j) 3 (by show 3 < 4; omega) ⟨2, ![a, n]⟩ x3 rfl rfl (n + (n + (n + 0))) rfl (ix2 i r)
    (fun b hb => match b, hb with | ⟨0, _⟩, _ => rfl | ⟨1, _⟩, hb => absurd rfl hb)
    (by show n + (n + (n + 0)) + r.val = j.val; omega)

end Blocks

section Congr
variable {α : Type}

/-- Equal pieces give equal two-piece concatenations. -/
private theorem cat2_congr {t s₁ s₂ : Shape} (a : Fin t.rank) (h : Shape.Concatenates [s₁, s₂] t a)
    {x₁ x₁' : s₁.Idx → α} {x₂ x₂' : s₂.Idx → α} (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Equal pieces give equal four-piece concatenations. -/
private theorem cat4_congr {t s₁ s₂ s₃ s₄ : Shape} (a : Fin t.rank) (h : Shape.Concatenates [s₁, s₂, s₃, s₄] t a)
    {x₁ x₁' : s₁.Idx → α} {x₂ x₂' : s₂.Idx → α} {x₃ x₃' : s₃.Idx → α} {x₄ x₄' : s₄.Idx → α}
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Congr

/-- The zero word broadcast to any shape reads zero at every entry of the exact instance. -/
private theorem bcast_zero_apply {T : Shape} (h : S_.BroadcastsInDim T (![] : Fin 0 → Fin T.rank)) (j : T.Idx) :
    broadcastInDim T ![] h (constant (F := Ideal) S_ .f32 0x00000000#32) j = 0 :=
  Ideal.ofBits_zero_f32

variable (m : (ℓ : Loc nD τ sig) → Buf (Elt Ideal) ℓ) (c : Dev nD)

/-! ## Window 6: the gate matrix -/

/-- One 128-row band of a 384 × 128 weight array, transposed: entry (k, q') is the array's entry (o + q', k). -/
private abbrev bandT (W : S384x128.Idx → EReal) (o : Nat) (h : S384x128.Slices ![o, 0] S128x128) : S128x128.Idx → EReal :=
  transpose S128x128 [1, 0] (extractStridedSlice S128x128 ![o, 0] W h) transposes_S128x128_S128x128_1_0

private theorem bandT_apply (W : S384x128.Idx → EReal) (o : Nat) (h : S384x128.Slices ![o, 0] S128x128)
    (k q' : Fin 128) (r : Fin 384) (hr : r.val = o + q'.val) : bandT W o h (ix2 k q') = W (ix2 r k) :=
  (transpose_ix2_apply _ _ k q').trans (slice2_axis0_apply o W h q' k r hr)

/-- The 128 × 128 block of zeros. -/
private abbrev zero128 : S128x128.Idx → EReal :=
  broadcastInDim S128x128 ![] bcast_S_S128x128 (constant (F := Ideal) S_ .f32 0x00000000#32)

/-- The gate matrix as the host operations build it: [W_ih_r^T, W_ih_z^T, W_ih_n^T, 0] over
    [W_hh_r^T, W_hh_z^T, 0, W_hh_n^T], rounded to bf16. -/
private abbrev T33 : S256x512.Idx → EReal :=
  truncf (F := Ideal) .bf16
    (concatenate S256x512 0
      [⟨S128x512, concatenate S128x512 1
          [⟨S128x128, bandT (argsK m c).Wih 0 slices_S384x128_S128x128_0_0⟩,
           ⟨S128x128, bandT (argsK m c).Wih 128 slices_S384x128_S128x128_128_0⟩,
           ⟨S128x128, bandT (argsK m c).Wih 256 slices_S384x128_S128x128_256_0⟩,
           ⟨S128x128, zero128⟩]
          concatenates_S128x128_S128x128_S128x128_S128x128_S128x512_d1⟩,
       ⟨S128x512, concatenate S128x512 1
          [⟨S128x128, bandT (argsK m c).Whh 0 slices_S384x128_S128x128_0_0⟩,
           ⟨S128x128, bandT (argsK m c).Whh 128 slices_S384x128_S128x128_128_0⟩,
           ⟨S128x128, zero128⟩,
           ⟨S128x128, bandT (argsK m c).Whh 256 slices_S384x128_S128x128_256_0⟩]
          concatenates_S128x128_S128x128_S128x128_S128x128_S128x512_d1⟩]
      concatenates_S128x512_S128x512_S256x512_d0)
    bitsLt_bf16_f32

set_option maxHeartbeats 1000000 in
/-- The array the host operations leave in window 6's buffer is that composed term. -/
private theorem e33 : (V m c main_v33 : S256x512.Idx → EReal) = T33 m c := by
  dsimp only [V, V0]
  simp only [hostOps0, hostOps0_1, hostOps0_2, List.flatten_cons, List.flatten_nil, List.append_nil, List.cons_append,
    List.nil_append]
  after_results_simp
  refine congrArg (fun z => truncf (F := Ideal) .bf16 z bitsLt_bf16_f32) ?_
  refine cat2_congr 0 _ ?_ ?_
  · after_results_simp
    refine cat4_congr 1 _ ?_ ?_ ?_ ?_
    · simp only [Matrix.cons_val]; after_results_simp <;> rfl
    · simp only [Matrix.cons_val]; after_results_simp <;> rfl
    · simp only [Matrix.cons_val]; after_results_simp <;> rfl
    · simp only [Matrix.cons_val]; after_results_simp <;> rfl
  · after_results_simp
    refine cat4_congr 1 _ ?_ ?_ ?_ ?_
    · simp only [Matrix.cons_val]; after_results_simp <;> rfl
    · simp only [Matrix.cons_val]; after_results_simp <;> rfl
    · simp only [Matrix.cons_val]; after_results_simp <;> rfl
    · simp only [Matrix.cons_val]; after_results_simp <;> rfl

/-- Window 6, rows 0..127: [W_ih_r^T, W_ih_z^T, W_ih_n^T, 0]. -/
theorem V_v33_top (k : Fin 256) (q : Fin 512) (hk : k.val < 128) :
    (V m c main_v33 : S256x512.Idx → EReal) (ix2 k q)
      = if hq : q.val < 384 then (argsK m c).Wih (ix2 (⟨q.val, hq⟩ : Fin 384) (⟨k.val, hk⟩ : Fin 128)) else 0 := by
  refine (congrFun (e33 m c) (ix2 k q)).trans ?_
  refine (truncf_apply (φ := .f32) (ψ := .bf16) _ bitsLt_bf16_f32 _).trans ?_
  refine (cat2_rows_top _ _ _ k q hk).trans ?_
  have hql := q.isLt
  by_cases hq : q.val < 384
  · rw [dif_pos hq]
    by_cases h1 : q.val < 128
    · refine (cat4_cols_0 _ _ _ _ _ (⟨k.val, hk⟩ : Fin 128) q (⟨q.val, h1⟩ : Fin 128) rfl).trans ?_
      exact bandT_apply _ 0 _ (⟨k.val, hk⟩ : Fin 128) (⟨q.val, h1⟩ : Fin 128) (⟨q.val, hq⟩ : Fin 384)
        (by show q.val = 0 + q.val; omega)
    · by_cases h2 : q.val < 256
      · refine (cat4_cols_1 _ _ _ _ _ (⟨k.val, hk⟩ : Fin 128) q (⟨q.val - 128, by omega⟩ : Fin 128)
          (by show 128 + (q.val - 128) = q.val; omega)).trans ?_
        exact bandT_apply _ 128 _ (⟨k.val, hk⟩ : Fin 128) (⟨q.val - 128, by omega⟩ : Fin 128) (⟨q.val, hq⟩ : Fin 384)
          (by show q.val = 128 + (q.val - 128); omega)
      · refine (cat4_cols_2 _ _ _ _ _ (⟨k.val, hk⟩ : Fin 128) q (⟨q.val - 256, by omega⟩ : Fin 128)
          (by show 128 + 128 + (q.val - 256) = q.val; omega)).trans ?_
        exact bandT_apply _ 256 _ (⟨k.val, hk⟩ : Fin 128) (⟨q.val - 256, by omega⟩ : Fin 128) (⟨q.val, hq⟩ : Fin 384)
          (by show q.val = 256 + (q.val - 256); omega)
  · rw [dif_neg hq]
    refine (cat4_cols_3 _ _ _ _ _ (⟨k.val, hk⟩ : Fin 128) q (⟨q.val - 384, by omega⟩ : Fin 128)
      (by show 128 + 128 + 128 + (q.val - 384) = q.val; omega)).trans ?_
    exact bcast_zero_apply _ _

/-- Window 6, rows 128..255: [W_hh_r^T, W_hh_z^T, 0, W_hh_n^T]. -/
theorem V_v33_bot (k : Fin 256) (q : Fin 512) (hk : 128 ≤ k.val) :
    (V m c main_v33 : S256x512.Idx → EReal) (ix2 k q)
      = if hq : q.val < 256 then (argsK m c).Whh (ix2 (⟨q.val, by omega⟩ : Fin 384) (⟨k.val - 128, by omega⟩ : Fin 128))
        else if hq' : q.val < 384 then 0
        else (argsK m c).Whh (ix2 (⟨q.val - 128, by omega⟩ : Fin 384) (⟨k.val - 128, by omega⟩ : Fin 128)) := by
  refine (congrFun (e33 m c) (ix2 k q)).trans ?_
  refine (truncf_apply (φ := .f32) (ψ := .bf16) _ bitsLt_bf16_f32 _).trans ?_
  have hkl := k.isLt
  have hql := q.isLt
  have hk1 : k.val - 128 < 128 := by omega
  refine (cat2_rows_bot _ _ _ k q (⟨k.val - 128, hk1⟩ : Fin 128) (by show k.val - 128 + 128 = k.val; omega)).trans ?_
  by_cases hq : q.val < 256
  · rw [dif_pos hq]
    by_cases h1 : q.val < 128
    · refine (cat4_cols_0 _ _ _ _ _ (⟨k.val - 128, hk1⟩ : Fin 128) q (⟨q.val, h1⟩ : Fin 128) rfl).trans ?_
      exact bandT_apply _ 0 _ (⟨k.val - 128, hk1⟩ : Fin 128) (⟨q.val, h1⟩ : Fin 128) (⟨q.val, by omega⟩ : Fin 384)
        (by show q.val = 0 + q.val; omega)
    · refine (cat4_cols_1 _ _ _ _ _ (⟨k.val - 128, hk1⟩ : Fin 128) q (⟨q.val - 128, by omega⟩ : Fin 128)
        (by show 128 + (q.val - 128) = q.val; omega)).trans ?_
      exact bandT_apply _ 128 _ (⟨k.val - 128, hk1⟩ : Fin 128) (⟨q.val - 128, by omega⟩ : Fin 128) (⟨q.val, by omega⟩ : Fin 384)
        (by show q.val = 128 + (q.val - 128); omega)
  · rw [dif_neg hq]
    by_cases hq' : q.val < 384
    · rw [dif_pos hq']
      refine (cat4_cols_2 _ _ _ _ _ (⟨k.val - 128, hk1⟩ : Fin 128) q (⟨q.val - 256, by omega⟩ : Fin 128)
        (by show 128 + 128 + (q.val - 256) = q.val; omega)).trans ?_
      exact bcast_zero_apply _ _
    · rw [dif_neg hq']
      refine (cat4_cols_3 _ _ _ _ _ (⟨k.val - 128, hk1⟩ : Fin 128) q (⟨q.val - 384, by omega⟩ : Fin 128)
        (by show 128 + 128 + 128 + (q.val - 384) = q.val; omega)).trans ?_
      exact bandT_apply _ 256 _ (⟨k.val - 128, hk1⟩ : Fin 128) (⟨q.val - 384, by omega⟩ : Fin 128)
        (⟨q.val - 128, by omega⟩ : Fin 384) (by show q.val - 128 = 256 + (q.val - 384); omega)

/-! ## Window 8: the first head layer -/

/-- The first head layer as the host operations build it: [ns_W1^T | (rw_W1 over dn_W1)^T], rounded to bf16. -/
private abbrev T43 : S128x256.Idx → EReal :=
  truncf (F := Ideal) .bf16
    (concatenate S128x256 1
      [⟨S128x128, transpose S128x128 [1, 0] (argsK m c).nW1 transposes_S128x128_S128x128_1_0⟩,
       ⟨S128x128, transpose S128x128 [1, 0]
          (concatenate S128x128 0 [⟨S64x128, (argsK m c).rW1⟩, ⟨S64x128, (argsK m c).dW1⟩]
            concatenates_S64x128_S64x128_S128x128_d0)
          transposes_S128x128_S128x128_1_0⟩]
      concatenates_S128x128_S128x128_S128x256_d1)
    bitsLt_bf16_f32

set_option maxHeartbeats 1000000 in
/-- The array the host operations leave in window 8's buffer is that composed term. -/
private theorem e43 : (V m c main_v43 : S128x256.Idx → EReal) = T43 m c := by
  dsimp only [V, V0]
  simp only [hostOps0, hostOps0_1, hostOps0_2, List.flatten_cons, List.flatten_nil, List.append_nil, List.cons_append,
    List.nil_append]
  after_results_simp
  refine congrArg (fun z => truncf (F := Ideal) .bf16 z bitsLt_bf16_f32) ?_
  refine cat2_congr 1 _ ?_ ?_
  · after_results_simp <;> rfl
  · after_results_simp
    refine congrArg (fun z => transpose S128x128 [1, 0] z transposes_S128x128_S128x128_1_0) ?_
    refine cat2_congr 0 _ ?_ ?_
    · after_results_simp <;> rfl
    · after_results_simp <;> rfl

/-- Window 8: the first head layer [ns_W1^T | rw_W1^T | dn_W1^T]. -/
theorem V_v43 (k' : Fin 128) (k : Fin 256) :
    (V m c main_v43 : S128x256.Idx → EReal) (ix2 k' k)
      = if hk : k.val < 128 then (argsK m c).nW1 (ix2 (⟨k.val, hk⟩ : Fin 128) k')
        else if hk2 : k.val < 192 then (argsK m c).rW1 (ix2 (⟨k.val - 128, by omega⟩ : Fin 64) k')
        else (argsK m c).dW1 (ix2 (⟨k.val - 192, by omega⟩ : Fin 64) k') := by
  refine (congrFun (e43 m c) (ix2 k' k)).trans ?_
  refine (truncf_apply (φ := .f32) (ψ := .bf16) _ bitsLt_bf16_f32 _).trans ?_
  by_cases hk : k.val < 128
  · rw [dif_pos hk]
    refine (cat2_cols_left _ _ _ k' k hk).trans ?_
    exact transpose_ix2_apply _ _ k' ⟨k.val, hk⟩
  · rw [dif_neg hk]
    have hk1 : k.val - 128 < 128 := by have := k.isLt; omega
    refine (cat2_cols_right _ _ _ k' k (⟨k.val - 128, hk1⟩ : Fin 128) (by show k.val - 128 + 128 = k.val; omega)).trans ?_
    refine (transpose_ix2_apply _ _ k' (⟨k.val - 128, hk1⟩ : Fin 128)).trans ?_
    by_cases hk2 : k.val < 192
    · rw [dif_pos hk2]
      exact cat2_rows_top _ _ _ (⟨k.val - 128, hk1⟩ : Fin 128) k' (by show k.val - 128 < 64; omega)
    · rw [dif_neg hk2]
      exact cat2_rows_bot _ _ _ (⟨k.val - 128, hk1⟩ : Fin 128) k' (⟨k.val - 192, by have := k.isLt; omega⟩ : Fin 64)
        (by show k.val - 192 + 64 = k.val - 128; omega)

/-! ## Window 10: the second head layer -/

/-- The second head layer as the host operations build it: [ns_W2^T | 0] over [0 | (rw_W2, 0 over 0, dn_W2)^T], rounded
    to bf16. -/
private abbrev T58 : S256x66.Idx → EReal :=
  truncf (F := Ideal) .bf16
    (concatenate S256x66 0
      [⟨S128x66, concatenate S128x66 1
          [⟨S128x64, transpose S128x64 [1, 0] (argsK m c).nW2 transposes_S64x128_S128x64_1_0⟩,
           ⟨S128x2, broadcastInDim S128x2 ![] bcast_S_S128x2 (constant (F := Ideal) S_ .f32 0x00000000#32)⟩]
          concatenates_S128x64_S128x2_S128x66_d1⟩,
       ⟨S128x66, concatenate S128x66 1
          [⟨S128x64, broadcastInDim S128x64 ![] bcast_S_S128x64 (constant (F := Ideal) S_ .f32 0x00000000#32)⟩,
           ⟨S128x2, transpose S128x2 [1, 0]
              (concatenate S2x128 0
                [⟨S1x128, concatenate S1x128 1
                    [⟨S1x64, (argsK m c).rW2⟩,
                     ⟨S1x64, broadcastInDim S1x64 ![] bcast_S_S1x64 (constant (F := Ideal) S_ .f32 0x00000000#32)⟩]
                    concatenates_S1x64_S1x64_S1x128_d1⟩,
                 ⟨S1x128, concatenate S1x128 1
                    [⟨S1x64, broadcastInDim S1x64 ![] bcast_S_S1x64 (constant (F := Ideal) S_ .f32 0x00000000#32)⟩,
                     ⟨S1x64, (argsK m c).dW2⟩]
                    concatenates_S1x64_S1x64_S1x128_d1⟩]
                concatenates_S1x128_S1x128_S2x128_d0)
              transposes_S2x128_S128x2_1_0⟩]
          concatenates_S128x64_S128x2_S128x66_d1⟩]
      concatenates_S128x66_S128x66_S256x66_d0)
    bitsLt_bf16_f32

set_option maxHeartbeats 1000000 in
/-- The array the host operations leave in window 10's buffer is that composed term. -/
private theorem e58 : (V m c main_v58 : S256x66.Idx → EReal) = T58 m c := by
  dsimp only [V, V0]
  simp only [hostOps0, hostOps0_1, hostOps0_2, List.flatten_cons, List.flatten_nil, List.append_nil, List.cons_append,
    List.nil_append]
  after_results_simp
  refine congrArg (fun z => truncf (F := Ideal) .bf16 z bitsLt_bf16_f32) ?_
  refine cat2_congr 0 _ ?_ ?_
  · after_results_simp
    refine cat2_congr 1 _ ?_ ?_
    · after_results_simp <;> rfl
    · after_results_simp <;> rfl
  · after_results_simp
    refine cat2_congr 1 _ ?_ ?_
    · after_results_simp <;> rfl
    · after_results_simp
      refine congrArg (fun z => transpose S128x2 [1, 0] z transposes_S2x128_S128x2_1_0) ?_
      refine cat2_congr 0 _ ?_ ?_
      · after_results_simp
        refine cat2_congr 1 _ ?_ ?_
        · after_results_simp <;> rfl
        · after_results_simp <;> rfl
      · after_results_simp
        refine cat2_congr 1 _ ?_ ?_
        · after_results_simp <;> rfl
        · after_results_simp <;> rfl

/-- Window 10: the second head layer, block structured. -/
theorem V_v58 (k : Fin 256) (i : Fin 66) :
    (V m c main_v58 : S256x66.Idx → EReal) (ix2 k i)
      = if hk : k.val < 128 then
          (if hi : i.val < 64 then (argsK m c).nW2 (ix2 (⟨i.val, hi⟩ : Fin 64) (⟨k.val, hk⟩ : Fin 128)) else 0)
        else if hi : i.val < 64 then 0
        else if i.val = 64 then
          (if hk2 : k.val < 192 then (argsK m c).rW2 (ix2 (0 : Fin 1) (⟨k.val - 128, by omega⟩ : Fin 64)) else 0)
        else (if hk2 : k.val < 192 then 0 else (argsK m c).dW2 (ix2 (0 : Fin 1) (⟨k.val - 192, by omega⟩ : Fin 64))) := by
  refine (congrFun (e58 m c) (ix2 k i)).trans ?_
  refine (truncf_apply (φ := .f32) (ψ := .bf16) _ bitsLt_bf16_f32 _).trans ?_
  have hkl := k.isLt
  have hil := i.isLt
  by_cases hk : k.val < 128
  · -- the upper half: [ns_W2^T | 0]
    rw [dif_pos hk]
    refine (cat2_rows_top _ _ _ k i hk).trans ?_
    by_cases hi : i.val < 64
    · rw [dif_pos hi]
      refine (cat2_cols_left _ _ _ (⟨k.val, hk⟩ : Fin 128) i hi).trans ?_
      exact transpose_ix2_apply _ _ (⟨k.val, hk⟩ : Fin 128) (⟨i.val, hi⟩ : Fin 64)
    · rw [dif_neg hi]
      refine (cat2_cols_right _ _ _ (⟨k.val, hk⟩ : Fin 128) i (⟨i.val - 64, by omega⟩ : Fin 2)
        (by show i.val - 64 + 64 = i.val; omega)).trans ?_
      exact bcast_zero_apply _ _
  · -- the lower half: [0 | the two one-row heads, each beside a zero row, transposed]
    rw [dif_neg hk]
    have hk1 : k.val - 128 < 128 := by omega
    refine (cat2_rows_bot _ _ _ k i (⟨k.val - 128, hk1⟩ : Fin 128) (by show k.val - 128 + 128 = k.val; omega)).trans ?_
    by_cases hi : i.val < 64
    · rw [dif_pos hi]
      refine (cat2_cols_left _ _ _ (⟨k.val - 128, hk1⟩ : Fin 128) i hi).trans ?_
      exact bcast_zero_apply _ _
    · rw [dif_neg hi]
      have hi1 : i.val - 64 < 2 := by omega
      refine (cat2_cols_right _ _ _ (⟨k.val - 128, hk1⟩ : Fin 128) i (⟨i.val - 64, hi1⟩ : Fin 2)
        (by show i.val - 64 + 64 = i.val; omega)).trans ?_
      refine (transpose_ix2_apply _ _ (⟨k.val - 128, hk1⟩ : Fin 128) (⟨i.val - 64, hi1⟩ : Fin 2)).trans ?_
      by_cases hi2 : i.val = 64
      · -- column 64: the reward head's row, then zeros
        rw [if_pos hi2]
        refine (cat2_rows_top _ _ _ (⟨i.val - 64, hi1⟩ : Fin 2) (⟨k.val - 128, hk1⟩ : Fin 128)
          (by show i.val - 64 < 1; omega)).trans ?_
        by_cases hk2 : k.val < 192
        · rw [dif_pos hk2]
          refine (cat2_cols_left _ _ _ _ (⟨k.val - 128, hk1⟩ : Fin 128) (by show k.val - 128 < 64; omega)).trans ?_
          exact congrArg (fun r : Fin 1 => (argsK m c).rW2 (ix2 r (⟨k.val - 128, by omega⟩ : Fin 64)))
            (Subsingleton.elim _ _)
        · rw [dif_neg hk2]
          refine (cat2_cols_right _ _ _ _ (⟨k.val - 128, hk1⟩ : Fin 128) (⟨k.val - 192, by omega⟩ : Fin 64)
            (by show k.val - 192 + 64 = k.val - 128; omega)).trans ?_
          exact bcast_zero_apply _ _
      · -- column 65: zeros, then the done head's row
        rw [if_neg hi2]
        refine (cat2_rows_bot _ _ _ (⟨i.val - 64, hi1⟩ : Fin 2) (⟨k.val - 128, hk1⟩ : Fin 128) (⟨0, by omega⟩ : Fin 1)
          (by show 0 + 1 = i.val - 64; omega)).trans ?_
        by_cases hk2 : k.val < 192
        · rw [dif_pos hk2]
          refine (cat2_cols_left _ _ _ _ (⟨k.val - 128, hk1⟩ : Fin 128) (by show k.val - 128 < 64; omega)).trans ?_
          exact bcast_zero_apply _ _
        · rw [dif_neg hk2]
          exact cat2_cols_right _ _ _ _ (⟨k.val - 128, hk1⟩ : Fin 128) (⟨k.val - 192, by omega⟩ : Fin 64)
            (by show k.val - 192 + 64 = k.val - 128; omega)

end Cert.KernelIdeal.Hand

end
-- ==== Proof.Algebra.lean ====
/-
  The kernel-shaped formulas equal the reference-shaped ones.

  The laws used are those every extended real obeys: addition and multiplication are commutative and associative,
  `x · 0 = 0`, `1 · x = x`, and a finite sum over `m + n` indices is the sum over the first `m` plus the sum over
  the last `n`. No finiteness of the inputs is needed: the fused weight arrays differ from the model's parameters only
  by blocks of exact zeros and by the grouping of sums.
-/
import proofs.«430544_j81647328297666_3_alg».proof.Proof.Spec
import Mathlib.Algebra.BigOperators.Fin

noncomputable section

open scoped BigOperators
open Idealize.ShloMosaic

namespace Cert.Spec

/-! ## The action word -/

/-- A row number below 9, written as a 32-bit word and read back signed, is itself. -/
private theorem toInt_row (n : ℕ) (hn : n < 9) : (BitVec.ofNat 32 n).toInt = (n : Int) := by
  rw [BitVec.toInt_ofNat']
  have : ((n : Int)).bmod (2 ^ 32) = (n : Int) := by
    apply Int.bmod_eq_of_le <;> omega
  exact this

/-- Read signed, the clamp of a non-negative word is the smaller of the word and 8: the lower clamp at 0 does
    nothing, the upper one replaces exactly the words above 8. -/
private theorem clampWord_toInt (a : BitVec 32) (ha : 0 ≤ a.toInt) :
    (clampWord a).toInt = min a.toInt 8 := by
  have h0 : (0#32 : BitVec 32).toInt = 0 := by decide
  have h8 : (8#32 : BitVec 32).toInt = 8 := by decide
  unfold clampWord IntOp.minsi IntOp.maxsi
  have hs : a.slt 0#32 = false := by
    rw [Bool.eq_false_iff]; intro h
    rw [BitVec.slt_iff_toInt_lt, h0] at h; omega
  rw [hs]
  simp only [Bool.false_eq_true, if_false]
  by_cases h : (8#32 : BitVec 32).slt a
  · rw [if_pos h]
    rw [BitVec.slt_iff_toInt_lt, h8] at h
    rw [h8]; omega
  · rw [if_neg h]
    rw [BitVec.slt_iff_toInt_lt, h8] at h
    omega

/-- For a non-negative action word the kernel's one-hot row (of the word clamped into [0, 8]) has its one at the
    row the reference's gather reads: no wrap happens, and both clamp to at most 8. -/
theorem oh_eq (a : BitVec 32) (ha : 0 ≤ a.toInt) (k : Fin 9) :
    ohWord (clampWord a) k = if k = refRow a then 1 else 0 := by
  have hc := clampWord_toInt a ha
  have hw : wrapWord a = a := by
    unfold wrapWord; rw [if_neg (by omega)]
  -- two words are equal when their signed readings are; both sides then say `k = min a 8`
  have hiff : (BitVec.ofNat 32 k.val = clampWord a) ↔ k = refRow a := by
    rw [← BitVec.toInt_inj, toInt_row k.val k.isLt, hc, Fin.ext_iff]
    unfold refRow
    show (k.val : Int) = min a.toInt 8 ↔ k.val = min (wrapWord a).toInt.toNat 8
    rw [hw]
    omega
  unfold ohWord
  by_cases h : k = refRow a
  · rw [if_pos h, if_pos (hiff.mpr h)]
  · rw [if_neg h, if_neg (fun h' => h (hiff.mp h'))]

/-! ## Splitting a sum at a block boundary -/

/-- A sum over `m + n` indices is the sum over the first `m` plus the sum over the last `n`. -/
private theorem sum_split (m n : ℕ) (f : Fin (m + n) → EReal) :
    ∑ l, f l = (∑ i : Fin m, f ⟨i.val, by omega⟩) + ∑ i : Fin n, f ⟨m + i.val, by omega⟩ :=
  Fin.sum_univ_add f

/-- 80 = 64 + 16: the latent entries, then the embedding entries. -/
private theorem sum_80 (f : Fin 80 → EReal) :
    ∑ l, f l = (∑ i : Fin 64, f ⟨i.val, by omega⟩) + ∑ i : Fin 16, f ⟨64 + i.val, by omega⟩ :=
  sum_split 64 16 f

/-- 256 = 128 + 128. -/
private theorem sum_256 (f : Fin 256 → EReal) :
    ∑ l, f l = (∑ i : Fin 128, f ⟨i.val, by omega⟩) + ∑ i : Fin 128, f ⟨128 + i.val, by omega⟩ :=
  sum_split 128 128 f

/-- 128 = 64 + 64. -/
private theorem sum_128 (f : Fin 128 → EReal) :
    ∑ l, f l = (∑ i : Fin 64, f ⟨i.val, by omega⟩) + ∑ i : Fin 64, f ⟨64 + i.val, by omega⟩ :=
  sum_split 64 64 f

/-- 256 = 128 + 64 + 64: the three heads' hidden units side by side. -/
private theorem sum_256_3 (f : Fin 256 → EReal) :
    ∑ l, f l = (∑ i : Fin 128, f ⟨i.val, by omega⟩)
      + ((∑ i : Fin 64, f ⟨128 + i.val, by omega⟩) + ∑ i : Fin 64, f ⟨192 + i.val, by omega⟩) := by
  rw [sum_256 f, sum_128 (fun i => f ⟨128 + i.val, by omega⟩)]
  refine congrArg₂ (· + ·) rfl (congrArg₂ (· + ·) rfl ?_)
  exact Finset.sum_congr rfl (fun i _ => congrArg f (Fin.ext (by show 128 + (64 + i.val) = 192 + i.val; omega)))

/-- A sum of products whose second factors are all zero is zero. -/
private theorem sum_mul_zero {n : ℕ} (f g : Fin n → EReal) (hg : ∀ k, g k = 0) : ∑ k, f k * g k = 0 :=
  Finset.sum_eq_zero (fun k _ => by rw [hg k, mul_zero])

/-- Moving an index up by a block's width and back down returns it. -/
private theorem fin_back (w n : ℕ) (k : Fin n) (h : w + k.val - w < n) : (⟨w + k.val - w, h⟩ : Fin n) = k :=
  Fin.ext (by show w + k.val - w = k.val; omega)

/-! ## The fused input -/

private theorem fusedRow_lo (z : Fin 64 → EReal) (e : Fin 16 → EReal) (l : Fin 64) :
    fusedRow z e ⟨l.val, by omega⟩ = z l := by
  unfold fusedRow
  rw [dif_pos l.isLt]

private theorem fusedRow_hi (z : Fin 64 → EReal) (e : Fin 16 → EReal) (l : Fin 16) :
    fusedRow z e ⟨64 + l.val, by omega⟩ = e l := by
  unfold fusedRow
  rw [dif_neg (Nat.not_lt.mpr (Nat.le_add_right 64 l.val))]
  exact congrArg e (fin_back 64 16 l _)

/-- The fused input: the latent product plus the one-hot times the action table is the product of the concatenated
    row [z | embed row] with the fuse weights. -/
theorem x_eq (z : Fin 64 → EReal) (E : Fin 9 → Fin 16 → EReal) (row : Fin 9) (oh : Fin 9 → EReal)
    (Wz : Fin 64 → Fin 128 → EReal) (T : Fin 9 → Fin 128 → EReal) (FW : Fin 128 → Fin 80 → EReal) (fb : Fin 128 → EReal)
    (hoh : ∀ k, oh k = if k = row then 1 else 0)
    (hWz : ∀ (l : Fin 64) (j : Fin 128), Wz l j = FW j ⟨l.val, by omega⟩)
    (hT : ∀ (k : Fin 9) (j : Fin 128), T k j = ∑ l : Fin 16, E k l * FW j ⟨64 + l.val, by omega⟩)
    (j : Fin 128) : xKer z oh Wz T fb j = xRef z (E row) FW fb j := by
  -- the one-hot row picks the selected row of the action table
  have hA : (∑ k : Fin 9, oh k * T k j) = T row j := by
    rw [Finset.sum_eq_single row]
    · rw [hoh row, if_pos rfl, one_mul]
    · intro b _ hb; rw [hoh b, if_neg hb, zero_mul]
    · intro hrow; exact absurd (Finset.mem_univ row) hrow
  -- the 80 products of the concatenated row are the 64 latent ones and the 16 of that table row
  have hB : (∑ l : Fin 80, fusedRow z (E row) l * FW j l)
      = (∑ l : Fin 64, z l * Wz l j) + T row j := by
    rw [sum_80, hT]
    refine congrArg₂ (· + ·) ?_ ?_
    · exact Finset.sum_congr rfl (fun l _ => by rw [fusedRow_lo, hWz])
    · exact Finset.sum_congr rfl (fun l _ => by rw [fusedRow_hi])
  unfold xKer xRef
  rw [hA, hB]

/-! ## The GRU cell -/

private theorem xhRow_lo (x h : Fin 128 → EReal) (k : Fin 128) : xhRow x h ⟨k.val, by omega⟩ = x k := by
  unfold xhRow
  rw [dif_pos k.isLt]

private theorem xhRow_hi (x h : Fin 128 → EReal) (k : Fin 128) : xhRow x h ⟨128 + k.val, by omega⟩ = h k := by
  unfold xhRow
  rw [dif_neg (Nat.not_lt.mpr (Nat.le_add_right 128 k.val))]
  exact congrArg h (fin_back 128 128 k _)

/-- The product of the row [x | h] with one column of the big matrix: the part that meets the upper 128 rows plus
    the part that meets the lower 128 rows. -/
private theorem gatesKer_split (x h : Fin 128 → EReal) (Wbig : Fin 256 → Fin 512 → EReal) (bbig : Fin 512 → EReal)
    (q : Fin 512) :
    gatesKer x h Wbig bbig q
      = ((∑ k : Fin 128, x k * Wbig ⟨k.val, by omega⟩ q) + ∑ k : Fin 128, h k * Wbig ⟨128 + k.val, by omega⟩ q)
        + bbig q := by
  unfold gatesKer
  rw [sum_256]
  refine congrArg₂ (· + ·) (congrArg₂ (· + ·) ?_ ?_) rfl
  · exact Finset.sum_congr rfl (fun k _ => by rw [xhRow_lo])
  · exact Finset.sum_congr rfl (fun k _ => by rw [xhRow_hi])

section Gates

variable (x h : Fin 128 → EReal) (Wih Whh : Fin 384 → Fin 128 → EReal) (bih bhh : Fin 384 → EReal)
    (Wbig : Fin 256 → Fin 512 → EReal) (bbig : Fin 512 → EReal)
    (hWtop : ∀ (k : Fin 256) (q : Fin 512) (hk : k.val < 128),
      Wbig k q = if hq : q.val < 384 then Wih ⟨q.val, hq⟩ ⟨k.val, hk⟩ else 0)
    (hWbot : ∀ (k : Fin 256) (q : Fin 512) (hk : 128 ≤ k.val),
      Wbig k q = if hq : q.val < 256 then Whh ⟨q.val, by omega⟩ ⟨k.val - 128, by omega⟩
        else if hq' : q.val < 384 then 0 else Whh ⟨q.val - 128, by omega⟩ ⟨k.val - 128, by omega⟩)
    (hb : ∀ q : Fin 512,
      bbig q = if hq : q.val < 256 then bih ⟨q.val, by omega⟩ + bhh ⟨q.val, by omega⟩
        else if hq' : q.val < 384 then bih ⟨q.val, hq'⟩ else bhh ⟨q.val - 128, by omega⟩)

include hWtop hWbot hb

/-- A column below 256 (the reset and update gates): both halves of the row meet weights, and the bias is the
    sum of the two biases, so the column is the input pre-activation plus the hidden one, regrouped. -/
private theorem gates_lo (q : Fin 512) (hq : q.val < 256) :
    gatesKer x h Wbig bbig q
      = gateRef x Wih bih ⟨q.val, by omega⟩ + gateRef h Whh bhh ⟨q.val, by omega⟩ := by
  rw [gatesKer_split, hb q, dif_pos hq]
  unfold gateRef
  rw [add_add_add_comm]
  refine congrArg₂ (· + ·) (congrArg₂ (· + ·) ?_ rfl) (congrArg₂ (· + ·) ?_ rfl)
  · exact Finset.sum_congr rfl (fun k _ => by
      rw [hWtop ⟨k.val, by omega⟩ q k.isLt, dif_pos (show q.val < 384 by omega)])
  · exact Finset.sum_congr rfl (fun k _ => by
      rw [hWbot ⟨128 + k.val, by omega⟩ q (Nat.le_add_right 128 k.val), dif_pos hq]
      exact congrArg (fun i => h k * Whh _ i) (fin_back 128 128 k _))

/-- A column in [256, 384) (the candidate's input part): the hidden half of the row meets zeros. -/
private theorem gates_mid (q : Fin 512) (h1 : 256 ≤ q.val) (h2 : q.val < 384) :
    gatesKer x h Wbig bbig q = gateRef x Wih bih ⟨q.val, h2⟩ := by
  rw [gatesKer_split, hb q, dif_neg (show ¬ q.val < 256 by omega), dif_pos h2]
  unfold gateRef
  have hz : (∑ k : Fin 128, h k * Wbig ⟨128 + k.val, by omega⟩ q) = 0 :=
    sum_mul_zero _ _ (fun k => by
      rw [hWbot ⟨128 + k.val, by omega⟩ q (Nat.le_add_right 128 k.val),
        dif_neg (show ¬ q.val < 256 by omega), dif_pos h2])
  rw [hz, add_zero]
  refine congrArg₂ (· + ·) ?_ rfl
  exact Finset.sum_congr rfl (fun k _ => by rw [hWtop ⟨k.val, by omega⟩ q k.isLt, dif_pos h2])

/-- A column from 384 on (the candidate's hidden part): the input half of the row meets zeros. -/
private theorem gates_hi (q : Fin 512) (h1 : 384 ≤ q.val) :
    gatesKer x h Wbig bbig q = gateRef h Whh bhh ⟨q.val - 128, by omega⟩ := by
  rw [gatesKer_split, hb q, dif_neg (show ¬ q.val < 256 by omega), dif_neg (show ¬ q.val < 384 by omega)]
  unfold gateRef
  have hz : (∑ k : Fin 128, x k * Wbig ⟨k.val, by omega⟩ q) = 0 :=
    sum_mul_zero _ _ (fun k => by
      rw [hWtop ⟨k.val, by omega⟩ q k.isLt, dif_neg (show ¬ q.val < 384 by omega)])
  rw [hz, zero_add]
  refine congrArg₂ (· + ·) ?_ rfl
  exact Finset.sum_congr rfl (fun k _ => by
    rw [hWbot ⟨128 + k.val, by omega⟩ q (Nat.le_add_right 128 k.val),
      dif_neg (show ¬ q.val < 256 by omega), dif_neg (show ¬ q.val < 384 by omega)]
    exact congrArg (fun i => h k * Whh _ i) (fin_back 128 128 k _))

/-- Column j: the reset gate's argument. -/
private theorem col_r (j : Fin 128) :
    gatesKer x h Wbig bbig ⟨j.val, by omega⟩
      = gateRef x Wih bih ⟨j.val, by omega⟩ + gateRef h Whh bhh ⟨j.val, by omega⟩ :=
  gates_lo x h Wih Whh bih bhh Wbig bbig hWtop hWbot hb ⟨j.val, by omega⟩ (show j.val < 256 by omega)

/-- Column 128 + j: the update gate's argument. -/
private theorem col_z (j : Fin 128) :
    gatesKer x h Wbig bbig ⟨128 + j.val, by omega⟩
      = gateRef x Wih bih ⟨128 + j.val, by omega⟩ + gateRef h Whh bhh ⟨128 + j.val, by omega⟩ :=
  gates_lo x h Wih Whh bih bhh Wbig bbig hWtop hWbot hb ⟨128 + j.val, by omega⟩ (show 128 + j.val < 256 by omega)

/-- Column 256 + j: the candidate's input pre-activation alone. -/
private theorem col_ni (j : Fin 128) :
    gatesKer x h Wbig bbig ⟨256 + j.val, by omega⟩ = gateRef x Wih bih ⟨256 + j.val, by omega⟩ :=
  gates_mid x h Wih Whh bih bhh Wbig bbig hWtop hWbot hb ⟨256 + j.val, by omega⟩
    (show 256 ≤ 256 + j.val by omega) (show 256 + j.val < 384 by omega)

/-- Column 384 + j: the candidate's hidden pre-activation alone, which is the reference's column 256 + j. -/
private theorem col_nh (j : Fin 128) :
    gatesKer x h Wbig bbig ⟨384 + j.val, by omega⟩ = gateRef h Whh bhh ⟨256 + j.val, by omega⟩ := by
  rw [gates_hi x h Wih Whh bih bhh Wbig bbig hWtop hWbot hb ⟨384 + j.val, by omega⟩
    (show 384 ≤ 384 + j.val by omega)]
  exact congrArg (gateRef h Whh bhh) (Fin.ext (by show 384 + j.val - 128 = 256 + j.val; omega))

end Gates

/-- The GRU cell: the one product [x | h] · W_big + b_big, W_big = [[W_ih_r^T, W_ih_z^T, W_ih_n^T, 0], [W_hh_r^T, W_hh_z^T, 0, W_hh_n^T]]
    and b_big = [b_ih_r + b_hh_r, b_ih_z + b_hh_z, b_ih_n, b_hh_n], carries the two separate products of the reference. -/
theorem hnew_eq (x h : Fin 128 → EReal) (Wih Whh : Fin 384 → Fin 128 → EReal) (bih bhh : Fin 384 → EReal)
    (Wbig : Fin 256 → Fin 512 → EReal) (bbig : Fin 512 → EReal)
    (hWtop : ∀ (k : Fin 256) (q : Fin 512) (hk : k.val < 128),
      Wbig k q = if hq : q.val < 384 then Wih ⟨q.val, hq⟩ ⟨k.val, hk⟩ else 0)
    (hWbot : ∀ (k : Fin 256) (q : Fin 512) (hk : 128 ≤ k.val),
      Wbig k q = if hq : q.val < 256 then Whh ⟨q.val, by omega⟩ ⟨k.val - 128, by omega⟩
        else if hq' : q.val < 384 then 0 else Whh ⟨q.val - 128, by omega⟩ ⟨k.val - 128, by omega⟩)
    (hb : ∀ q : Fin 512,
      bbig q = if hq : q.val < 256 then bih ⟨q.val, by omega⟩ + bhh ⟨q.val, by omega⟩
        else if hq' : q.val < 384 then bih ⟨q.val, hq'⟩ else bhh ⟨q.val - 128, by omega⟩)
    (j : Fin 128) : hnewKer (gatesKer x h Wbig bbig) h j = hnewRef x h Wih Whh bih bhh j := by
  have e1 := col_r x h Wih Whh bih bhh Wbig bbig hWtop hWbot hb j
  have e2 := col_z x h Wih Whh bih bhh Wbig bbig hWtop hWbot hb j
  have e3 := col_ni x h Wih Whh bih bhh Wbig bbig hWtop hWbot hb j
  have e4 := col_nh x h Wih Whh bih bhh Wbig bbig hWtop hWbot hb j
  unfold hnewKer hnewRef
  simp only [e1, e2, e3, e4]

/-! ## The three heads -/

/-- One hidden unit of the fused first layer. -/
private def hidK (v : Fin 128 → EReal) (W1f : Fin 128 → Fin 256 → EReal) (b1f : Fin 256 → EReal) (k : Fin 256) : EReal :=
  relu ((∑ k' : Fin 128, v k' * W1f k' k) + b1f k)

/-- The fused second layer, with its 256 hidden units split into the three heads' blocks. -/
private theorem headKer_split (v : Fin 128 → EReal) (W1f : Fin 128 → Fin 256 → EReal) (b1f : Fin 256 → EReal)
    (W2f : Fin 256 → Fin 66 → EReal) (b2f : Fin 66 → EReal) (i : Fin 66) :
    headKer v W1f b1f W2f b2f i
      = ((∑ k : Fin 128, hidK v W1f b1f ⟨k.val, by omega⟩ * W2f ⟨k.val, by omega⟩ i)
          + ((∑ k : Fin 64, hidK v W1f b1f ⟨128 + k.val, by omega⟩ * W2f ⟨128 + k.val, by omega⟩ i)
            + ∑ k : Fin 64, hidK v W1f b1f ⟨192 + k.val, by omega⟩ * W2f ⟨192 + k.val, by omega⟩ i))
        + b2f i := by
  unfold headKer
  rw [sum_256_3]
  rfl

section HeadsAux

variable (v : Fin 128 → EReal)
  (nW1 : Fin 128 → Fin 128 → EReal) (nb1 : Fin 128 → EReal) (nW2 : Fin 64 → Fin 128 → EReal) (nb2 : Fin 64 → EReal)
  (rW1 : Fin 64 → Fin 128 → EReal) (rb1 : Fin 64 → EReal) (rW2 : Fin 1 → Fin 64 → EReal) (rb2 : Fin 1 → EReal)
  (dW1 : Fin 64 → Fin 128 → EReal) (db1 : Fin 64 → EReal) (dW2 : Fin 1 → Fin 64 → EReal) (db2 : Fin 1 → EReal)
  (W1f : Fin 128 → Fin 256 → EReal) (b1f : Fin 256 → EReal) (W2f : Fin 256 → Fin 66 → EReal) (b2f : Fin 66 → EReal)
  (hW1 : ∀ (k' : Fin 128) (k : Fin 256),
    W1f k' k = if hk : k.val < 128 then nW1 ⟨k.val, hk⟩ k'
      else if hk2 : k.val < 192 then rW1 ⟨k.val - 128, by omega⟩ k' else dW1 ⟨k.val - 192, by omega⟩ k')
  (hb1 : ∀ k : Fin 256,
    b1f k = if hk : k.val < 128 then nb1 ⟨k.val, hk⟩
      else if hk2 : k.val < 192 then rb1 ⟨k.val - 128, by omega⟩ else db1 ⟨k.val - 192, by omega⟩)
  (hW2 : ∀ (k : Fin 256) (i : Fin 66),
    W2f k i = if hk : k.val < 128 then (if hi : i.val < 64 then nW2 ⟨i.val, hi⟩ ⟨k.val, hk⟩ else 0)
      else if hi : i.val < 64 then 0
      else if i.val = 64 then (if hk2 : k.val < 192 then rW2 0 ⟨k.val - 128, by omega⟩ else 0)
      else (if hk2 : k.val < 192 then 0 else dW2 0 ⟨k.val - 192, by omega⟩))

section First
include hW1 hb1

/-- Hidden units 0..127 are the next-latent head's. -/
private theorem hid_n (k : Fin 128) :
    hidK v W1f b1f ⟨k.val, by omega⟩ = relu ((∑ k' : Fin 128, v k' * nW1 k k') + nb1 k) := by
  unfold hidK
  rw [hb1, dif_pos k.isLt]
  refine congrArg (fun s => relu (s + nb1 k)) ?_
  exact Finset.sum_congr rfl (fun k' _ => by rw [hW1, dif_pos k.isLt])

/-- Hidden units 128..191 are the reward head's. -/
private theorem hid_r (k : Fin 64) :
    hidK v W1f b1f ⟨128 + k.val, by omega⟩ = relu ((∑ k' : Fin 128, v k' * rW1 k k') + rb1 k) := by
  have c1 : ¬ (128 + k.val < 128) := by omega
  have c2 : 128 + k.val < 192 := by omega
  unfold hidK
  rw [hb1, dif_neg c1, dif_pos c2, fin_back 128 64 k]
  refine congrArg (fun s => relu (s + rb1 k)) ?_
  exact Finset.sum_congr rfl (fun k' _ => by rw [hW1, dif_neg c1, dif_pos c2, fin_back 128 64 k])

/-- Hidden units 192..255 are the done-logit head's. -/
private theorem hid_d (k : Fin 64) :
    hidK v W1f b1f ⟨192 + k.val, by omega⟩ = relu ((∑ k' : Fin 128, v k' * dW1 k k') + db1 k) := by
  have c1 : ¬ (192 + k.val < 128) := by omega
  have c2 : ¬ (192 + k.val < 192) := by omega
  unfold hidK
  rw [hb1, dif_neg c1, dif_neg c2, fin_back 192 64 k]
  refine congrArg (fun s => relu (s + db1 k)) ?_
  exact Finset.sum_congr rfl (fun k' _ => by rw [hW1, dif_neg c1, dif_neg c2, fin_back 192 64 k])

end First

section Second
include hW2

/-- The next-latent block of the second layer, in a next-latent column. -/
private theorem W2f_nn (k : Fin 128) (i : Fin 64) : W2f ⟨k.val, by omega⟩ ⟨i.val, by omega⟩ = nW2 i k := by
  rw [hW2, dif_pos k.isLt, dif_pos i.isLt]

/-- The next-latent block meets zeros in the last two columns. -/
private theorem W2f_n_zero (k : Fin 128) (i : Fin 66) (hi : 64 ≤ i.val) : W2f ⟨k.val, by omega⟩ i = 0 := by
  rw [hW2, dif_pos k.isLt, dif_neg (show ¬ i.val < 64 by omega)]

/-- The reward and done blocks meet zeros in the first 64 columns. -/
private theorem W2f_rd_zero (k : Fin 256) (hk : 128 ≤ k.val) (i : Fin 66) (hi : i.val < 64) : W2f k i = 0 := by
  rw [hW2, dif_neg (show ¬ k.val < 128 by omega), dif_pos hi]

private theorem W2f_r_64 (k : Fin 64) : W2f ⟨128 + k.val, by omega⟩ ⟨64, by omega⟩ = rW2 0 k := by
  rw [hW2, dif_neg (show ¬ 128 + k.val < 128 by omega), dif_neg (show ¬ 64 < 64 by omega), if_pos rfl,
    dif_pos (show 128 + k.val < 192 by omega), fin_back 128 64 k]

private theorem W2f_d_64 (k : Fin 64) : W2f ⟨192 + k.val, by omega⟩ ⟨64, by omega⟩ = 0 := by
  rw [hW2, dif_neg (show ¬ 192 + k.val < 128 by omega), dif_neg (show ¬ 64 < 64 by omega), if_pos rfl,
    dif_neg (show ¬ 192 + k.val < 192 by omega)]

private theorem W2f_r_65 (k : Fin 64) : W2f ⟨128 + k.val, by omega⟩ ⟨65, by omega⟩ = 0 := by
  rw [hW2, dif_neg (show ¬ 128 + k.val < 128 by omega), dif_neg (show ¬ 65 < 64 by omega),
    if_neg (show ¬ 65 = 64 by omega), dif_pos (show 128 + k.val < 192 by omega)]

private theorem W2f_d_65 (k : Fin 64) : W2f ⟨192 + k.val, by omega⟩ ⟨65, by omega⟩ = dW2 0 k := by
  rw [hW2, dif_neg (show ¬ 192 + k.val < 128 by omega), dif_neg (show ¬ 65 < 64 by omega),
    if_neg (show ¬ 65 = 64 by omega), dif_neg (show ¬ 192 + k.val < 192 by omega), fin_back 192 64 k]

end Second

end HeadsAux

section Heads

variable (v : Fin 128 → EReal)
  (nW1 : Fin 128 → Fin 128 → EReal) (nb1 : Fin 128 → EReal) (nW2 : Fin 64 → Fin 128 → EReal) (nb2 : Fin 64 → EReal)
  (rW1 : Fin 64 → Fin 128 → EReal) (rb1 : Fin 64 → EReal) (rW2 : Fin 1 → Fin 64 → EReal) (rb2 : Fin 1 → EReal)
  (dW1 : Fin 64 → Fin 128 → EReal) (db1 : Fin 64 → EReal) (dW2 : Fin 1 → Fin 64 → EReal) (db2 : Fin 1 → EReal)
  (W1f : Fin 128 → Fin 256 → EReal) (b1f : Fin 256 → EReal) (W2f : Fin 256 → Fin 66 → EReal) (b2f : Fin 66 → EReal)
  (hW1 : ∀ (k' : Fin 128) (k : Fin 256),
    W1f k' k = if hk : k.val < 128 then nW1 ⟨k.val, hk⟩ k'
      else if hk2 : k.val < 192 then rW1 ⟨k.val - 128, by omega⟩ k' else dW1 ⟨k.val - 192, by omega⟩ k')
  (hb1 : ∀ k : Fin 256,
    b1f k = if hk : k.val < 128 then nb1 ⟨k.val, hk⟩
      else if hk2 : k.val < 192 then rb1 ⟨k.val - 128, by omega⟩ else db1 ⟨k.val - 192, by omega⟩)
  (hW2 : ∀ (k : Fin 256) (i : Fin 66),
    W2f k i = if hk : k.val < 128 then (if hi : i.val < 64 then nW2 ⟨i.val, hi⟩ ⟨k.val, hk⟩ else 0)
      else if hi : i.val < 64 then 0
      else if i.val = 64 then (if hk2 : k.val < 192 then rW2 0 ⟨k.val - 128, by omega⟩ else 0)
      else (if hk2 : k.val < 192 then 0 else dW2 0 ⟨k.val - 192, by omega⟩))
  (hb2 : ∀ i : Fin 66, b2f i = if hi : i.val < 64 then nb2 ⟨i.val, hi⟩ else if i.val = 64 then rb2 0 else db2 0)

include hW1 hb1 hW2 hb2

/-- The first 64 columns of the fused heads are the next-latent head. -/
theorem head_ns_eq (i : Fin 64) :
    headKer v W1f b1f W2f b2f ⟨i.val, by omega⟩ = mlpRef v nW1 nb1 nW2 nb2 i := by
  -- in these columns the reward and done blocks of the second layer are zero
  have hr : (∑ k : Fin 64, hidK v W1f b1f ⟨128 + k.val, by omega⟩
      * W2f ⟨128 + k.val, by omega⟩ ⟨i.val, by omega⟩) = 0 :=
    sum_mul_zero _ _ (fun k => W2f_rd_zero nW2 rW2 dW2 W2f hW2 ⟨128 + k.val, by omega⟩
      (show 128 ≤ 128 + k.val by omega) ⟨i.val, by omega⟩ i.isLt)
  have hd : (∑ k : Fin 64, hidK v W1f b1f ⟨192 + k.val, by omega⟩
      * W2f ⟨192 + k.val, by omega⟩ ⟨i.val, by omega⟩) = 0 :=
    sum_mul_zero _ _ (fun k => W2f_rd_zero nW2 rW2 dW2 W2f hW2 ⟨192 + k.val, by omega⟩
      (show 128 ≤ 192 + k.val by omega) ⟨i.val, by omega⟩ i.isLt)
  rw [headKer_split, hr, hd, add_zero, add_zero, hb2, dif_pos i.isLt]
  unfold mlpRef
  refine congrArg₂ (· + ·) ?_ rfl
  exact Finset.sum_congr rfl (fun k _ => by
    rw [hid_n v nW1 nb1 rW1 rb1 dW1 db1 W1f b1f hW1 hb1 k, W2f_nn nW2 rW2 dW2 W2f hW2 k i])

/-- Column 64 is the reward head. -/
theorem head_rw_eq : headKer v W1f b1f W2f b2f ⟨64, by omega⟩ = mlpRef v rW1 rb1 rW2 rb2 0 := by
  -- in this column only the reward block of the second layer is not zero
  have hn : (∑ k : Fin 128, hidK v W1f b1f ⟨k.val, by omega⟩ * W2f ⟨k.val, by omega⟩ ⟨64, by omega⟩) = 0 :=
    sum_mul_zero _ _ (fun k => W2f_n_zero nW2 rW2 dW2 W2f hW2 k ⟨64, by omega⟩ (Nat.le_refl 64))
  have hd : (∑ k : Fin 64, hidK v W1f b1f ⟨192 + k.val, by omega⟩
      * W2f ⟨192 + k.val, by omega⟩ ⟨64, by omega⟩) = 0 :=
    sum_mul_zero _ _ (fun k => W2f_d_64 nW2 rW2 dW2 W2f hW2 k)
  rw [headKer_split, hn, hd, zero_add, add_zero, hb2, dif_neg (show ¬ 64 < 64 by omega), if_pos rfl]
  unfold mlpRef
  refine congrArg₂ (· + ·) ?_ rfl
  exact Finset.sum_congr rfl (fun k _ => by
    rw [hid_r v nW1 nb1 rW1 rb1 dW1 db1 W1f b1f hW1 hb1 k, W2f_r_64 nW2 rW2 dW2 W2f hW2 k])

/-- Column 65 is the done-logit head. -/
theorem head_dn_eq : headKer v W1f b1f W2f b2f ⟨65, by omega⟩ = mlpRef v dW1 db1 dW2 db2 0 := by
  -- in this column only the done block of the second layer is not zero
  have hn : (∑ k : Fin 128, hidK v W1f b1f ⟨k.val, by omega⟩ * W2f ⟨k.val, by omega⟩ ⟨65, by omega⟩) = 0 :=
    sum_mul_zero _ _ (fun k => W2f_n_zero nW2 rW2 dW2 W2f hW2 k ⟨65, by omega⟩ (show 64 ≤ 65 by omega))
  have hr : (∑ k : Fin 64, hidK v W1f b1f ⟨128 + k.val, by omega⟩
      * W2f ⟨128 + k.val, by omega⟩ ⟨65, by omega⟩) = 0 :=
    sum_mul_zero _ _ (fun k => W2f_r_65 nW2 rW2 dW2 W2f hW2 k)
  rw [headKer_split, hn, hr, zero_add, zero_add, hb2, dif_neg (show ¬ 65 < 64 by omega),
    if_neg (show ¬ 65 = 64 by omega)]
  unfold mlpRef
  refine congrArg₂ (· + ·) ?_ rfl
  exact Finset.sum_congr rfl (fun k _ => by
    rw [hid_d v nW1 nb1 rW1 rb1 dW1 db1 W1f b1f hW1 hb1 k, W2f_d_65 nW2 rW2 dW2 W2f hW2 k])

end Heads

end Cert.Spec

end
-- ==== Proof.KI.Bridge.lean ====
/-
  The kernel-shaped row formulas over a point's blocks equal the model's rows.

  Given what each block's entries are — rows of the latent input, the clamped action word, rows of the hidden state, and
  the fused weight arrays entry by entry in terms of the model's parameters — the new hidden row and the 66 head
  outputs of block row r are the model's row R: the specification's kernel-shaped formulas meet the reference-shaped
  ones through the laws of the joining module. The action word is taken non-negative.
-/
import proofs.«430544_j81647328297666_3_alg».proof.Proof.KI.Payload
import proofs.«430544_j81647328297666_3_alg».proof.Proof.Algebra
import proofs.«430544_j81647328297666_3_alg».proof.Proof.Model

noncomputable section

open scoped BigOperators

namespace Cert.KernelIdeal.Pay

open Cert.KernelIdeal Cert.KernelIdeal.Gen
open Idealize.ShloMosaic Idealize.ShloMosaic.ValueIdx

variable (x0 : Vec Ideal S2048x64 .f32) (x1 : Vec Ideal S1x1x2048 .i32) (x2 : Vec Ideal S2048x128 .f32) (x3 : Vec Ideal S64x128 .bf16)
  (x4 : Vec Ideal S9x128 .bf16) (x5 : Vec Ideal S1x128 .f32) (x6 : Vec Ideal S256x512 .bf16) (x7 : Vec Ideal S1x512 .f32)
  (x8 : Vec Ideal S128x256 .bf16) (x9 : Vec Ideal S1x256 .f32) (x10 : Vec Ideal S256x66 .bf16) (x11 : Vec Ideal S1x66 .f32)
  (A : Cert.Model.Args) (R : Fin 131072) (r : Fin 2048)

/-- The new hidden row of block row `r` is the model's row `R`. -/
theorem hRow_bridge
    (h0 : ∀ l : Fin 64, x0 (ix2 r l) = A.z (ix2 R l))
    (h1 : x1 (ix3 (0 : Fin 1) (0 : Fin 1) r) = Spec.clampWord (A.act (ix1 R)))
    (h2 : ∀ k : Fin 128, x2 (ix2 r k) = A.hid (ix3 (0 : Fin 1) R k))
    (h3 : ∀ (l : Fin 64) (j : Fin 128), x3 (ix2 l j) = A.fW (ix2 j (⟨l.val, by omega⟩ : Fin 80)))
    (h4 : ∀ (k : Fin 9) (j : Fin 128), x4 (ix2 k j) = ∑ l : Fin 16, A.emb (ix2 k l) * A.fW (ix2 j (⟨64 + l.val, by omega⟩ : Fin 80)))
    (h5 : ∀ j : Fin 128, x5 (ix2 (0 : Fin 1) j) = A.fb (ix1 j))
    (h6t : ∀ (k : Fin 256) (q : Fin 512) (hk : k.val < 128),
      x6 (ix2 k q) = if hq : q.val < 384 then A.Wih (ix2 (⟨q.val, hq⟩ : Fin 384) (⟨k.val, hk⟩ : Fin 128)) else 0)
    (h6b : ∀ (k : Fin 256) (q : Fin 512) (hk : 128 ≤ k.val),
      x6 (ix2 k q) = if hq : q.val < 256 then A.Whh (ix2 (⟨q.val, by omega⟩ : Fin 384) (⟨k.val - 128, by omega⟩ : Fin 128))
        else if hq' : q.val < 384 then 0
        else A.Whh (ix2 (⟨q.val - 128, by omega⟩ : Fin 384) (⟨k.val - 128, by omega⟩ : Fin 128)))
    (h7 : ∀ q : Fin 512,
      x7 (ix2 (0 : Fin 1) q) = if hq : q.val < 256 then A.bih (ix1 (⟨q.val, by omega⟩ : Fin 384)) + A.bhh (ix1 (⟨q.val, by omega⟩ : Fin 384))
        else if hq' : q.val < 384 then A.bih (ix1 (⟨q.val, hq'⟩ : Fin 384))
        else A.bhh (ix1 (⟨q.val - 128, by omega⟩ : Fin 384)))
    (hpos : 0 ≤ (A.act (ix1 R)).toInt) :
    hRow x0 x1 x2 x3 x4 x5 x6 x7 r = A.hnRow R := by
  have e0 : (fun l : Fin 64 => x0 (ix2 r l)) = A.zRow R := funext h0
  have e2 : (fun k : Fin 128 => x2 (ix2 r k)) = A.hRow R := funext h2
  have hx : Spec.xKer (A.zRow R) (Spec.ohWord (x1 (ix3 (0 : Fin 1) (0 : Fin 1) r))) (fun l j => x3 (ix2 l j))
      (fun k j => x4 (ix2 k j)) (fun j => x5 (ix2 (0 : Fin 1) j)) = A.xRow R := by
    funext j
    have e5 : (fun j : Fin 128 => x5 (ix2 (0 : Fin 1) j)) = fun j => A.fb (ix1 j) := funext h5
    rw [e5]
    exact Spec.x_eq (A.zRow R) (fun k l => A.emb (ix2 k l)) (Spec.refRow (A.act (ix1 R)))
      (Spec.ohWord (x1 (ix3 (0 : Fin 1) (0 : Fin 1) r))) (fun l j => x3 (ix2 l j)) (fun k j => x4 (ix2 k j))
      (fun j l => A.fW (ix2 j l)) (fun j => A.fb (ix1 j))
      (fun k => by rw [h1]; exact Spec.oh_eq _ hpos k) (fun l j => h3 l j) (fun k j => h4 k j) j
  funext j
  unfold hRow gRow
  rw [e0, e2, hx]
  exact Spec.hnew_eq (A.xRow R) (A.hRow R) (fun q k => A.Wih (ix2 q k)) (fun q k => A.Whh (ix2 q k))
    (fun q => A.bih (ix1 q)) (fun q => A.bhh (ix1 q)) (fun k q => x6 (ix2 k q)) (fun q => x7 (ix2 (0 : Fin 1) q))
    (fun k q hk => h6t k q hk) (fun k q hk => h6b k q hk) (fun q => h7 q) j

/-- The 66 head outputs of block row `r`: the next latent row, then the reward, then the done logit of the model's
    row `R`. -/
theorem oRow_bridge
    (h0 : ∀ l : Fin 64, x0 (ix2 r l) = A.z (ix2 R l))
    (h1 : x1 (ix3 (0 : Fin 1) (0 : Fin 1) r) = Spec.clampWord (A.act (ix1 R)))
    (h2 : ∀ k : Fin 128, x2 (ix2 r k) = A.hid (ix3 (0 : Fin 1) R k))
    (h3 : ∀ (l : Fin 64) (j : Fin 128), x3 (ix2 l j) = A.fW (ix2 j (⟨l.val, by omega⟩ : Fin 80)))
    (h4 : ∀ (k : Fin 9) (j : Fin 128), x4 (ix2 k j) = ∑ l : Fin 16, A.emb (ix2 k l) * A.fW (ix2 j (⟨64 + l.val, by omega⟩ : Fin 80)))
    (h5 : ∀ j : Fin 128, x5 (ix2 (0 : Fin 1) j) = A.fb (ix1 j))
    (h6t : ∀ (k : Fin 256) (q : Fin 512) (hk : k.val < 128),
      x6 (ix2 k q) = if hq : q.val < 384 then A.Wih (ix2 (⟨q.val, hq⟩ : Fin 384) (⟨k.val, hk⟩ : Fin 128)) else 0)
    (h6b : ∀ (k : Fin 256) (q : Fin 512) (hk : 128 ≤ k.val),
      x6 (ix2 k q) = if hq : q.val < 256 then A.Whh (ix2 (⟨q.val, by omega⟩ : Fin 384) (⟨k.val - 128, by omega⟩ : Fin 128))
        else if hq' : q.val < 384 then 0
        else A.Whh (ix2 (⟨q.val - 128, by omega⟩ : Fin 384) (⟨k.val - 128, by omega⟩ : Fin 128)))
    (h7 : ∀ q : Fin 512,
      x7 (ix2 (0 : Fin 1) q) = if hq : q.val < 256 then A.bih (ix1 (⟨q.val, by omega⟩ : Fin 384)) + A.bhh (ix1 (⟨q.val, by omega⟩ : Fin 384))
        else if hq' : q.val < 384 then A.bih (ix1 (⟨q.val, hq'⟩ : Fin 384))
        else A.bhh (ix1 (⟨q.val - 128, by omega⟩ : Fin 384)))
    (hpos : 0 ≤ (A.act (ix1 R)).toInt)
    (h8 : ∀ (k' : Fin 128) (k : Fin 256),
      x8 (ix2 k' k) = if hk : k.val < 128 then A.nW1 (ix2 (⟨k.val, hk⟩ : Fin 128) k')
        else if hk2 : k.val < 192 then A.rW1 (ix2 (⟨k.val - 128, by omega⟩ : Fin 64) k')
        else A.dW1 (ix2 (⟨k.val - 192, by omega⟩ : Fin 64) k'))
    (h9 : ∀ k : Fin 256,
      x9 (ix2 (0 : Fin 1) k) = if hk : k.val < 128 then A.nb1 (ix1 (⟨k.val, hk⟩ : Fin 128))
        else if hk2 : k.val < 192 then A.rb1 (ix1 (⟨k.val - 128, by omega⟩ : Fin 64))
        else A.db1 (ix1 (⟨k.val - 192, by omega⟩ : Fin 64)))
    (h10 : ∀ (k : Fin 256) (i : Fin 66),
      x10 (ix2 k i) = if hk : k.val < 128 then
          (if hi : i.val < 64 then A.nW2 (ix2 (⟨i.val, hi⟩ : Fin 64) (⟨k.val, hk⟩ : Fin 128)) else 0)
        else if hi : i.val < 64 then 0
        else if i.val = 64 then
          (if hk2 : k.val < 192 then A.rW2 (ix2 (0 : Fin 1) (⟨k.val - 128, by omega⟩ : Fin 64)) else 0)
        else (if hk2 : k.val < 192 then 0 else A.dW2 (ix2 (0 : Fin 1) (⟨k.val - 192, by omega⟩ : Fin 64))))
    (h11 : ∀ i : Fin 66,
      x11 (ix2 (0 : Fin 1) i) = if hi : i.val < 64 then A.nb2 (ix1 (⟨i.val, hi⟩ : Fin 64))
        else if i.val = 64 then A.rb2 (ix1 (0 : Fin 1)) else A.db2 (ix1 (0 : Fin 1))) :
    (∀ i : Fin 64, oRow x0 x1 x2 x3 x4 x5 x6 x7 x8 x9 x10 x11 r ⟨i.val, by omega⟩ = A.znRow R i)
    ∧ oRow x0 x1 x2 x3 x4 x5 x6 x7 x8 x9 x10 x11 r ⟨64, by omega⟩ = A.rwRow R 0
    ∧ oRow x0 x1 x2 x3 x4 x5 x6 x7 x8 x9 x10 x11 r ⟨65, by omega⟩ = A.dnRow R 0 := by
  have hh := hRow_bridge x0 x1 x2 x3 x4 x5 x6 x7 A R r h0 h1 h2 h3 h4 h5 h6t h6b h7 hpos
  unfold oRow
  rw [hh]
  refine ⟨fun i => ?_, ?_, ?_⟩
  · exact Spec.head_ns_eq (v := A.hnRow R) (nW1 := fun k k' => A.nW1 (ix2 k k')) (nb1 := fun k => A.nb1 (ix1 k))
      (nW2 := fun i k => A.nW2 (ix2 i k)) (nb2 := fun i => A.nb2 (ix1 i))
      (rW1 := fun k k' => A.rW1 (ix2 k k')) (rb1 := fun k => A.rb1 (ix1 k))
      (rW2 := fun i k => A.rW2 (ix2 i k)) (rb2 := fun i => A.rb2 (ix1 i))
      (dW1 := fun k k' => A.dW1 (ix2 k k')) (db1 := fun k => A.db1 (ix1 k))
      (dW2 := fun i k => A.dW2 (ix2 i k)) (db2 := fun i => A.db2 (ix1 i))
      (W1f := fun k' k => x8 (ix2 k' k)) (b1f := fun k => x9 (ix2 (0 : Fin 1) k))
      (W2f := fun k i => x10 (ix2 k i)) (b2f := fun i => x11 (ix2 (0 : Fin 1) i))
      (hW1 := fun k' k => h8 k' k) (hb1 := fun k => h9 k) (hW2 := fun k i => h10 k i) (hb2 := fun i => h11 i) i
  · exact Spec.head_rw_eq (v := A.hnRow R) (nW1 := fun k k' => A.nW1 (ix2 k k')) (nb1 := fun k => A.nb1 (ix1 k))
      (nW2 := fun i k => A.nW2 (ix2 i k)) (nb2 := fun i => A.nb2 (ix1 i))
      (rW1 := fun k k' => A.rW1 (ix2 k k')) (rb1 := fun k => A.rb1 (ix1 k))
      (rW2 := fun i k => A.rW2 (ix2 i k)) (rb2 := fun i => A.rb2 (ix1 i))
      (dW1 := fun k k' => A.dW1 (ix2 k k')) (db1 := fun k => A.db1 (ix1 k))
      (dW2 := fun i k => A.dW2 (ix2 i k)) (db2 := fun i => A.db2 (ix1 i))
      (W1f := fun k' k => x8 (ix2 k' k)) (b1f := fun k => x9 (ix2 (0 : Fin 1) k))
      (W2f := fun k i => x10 (ix2 k i)) (b2f := fun i => x11 (ix2 (0 : Fin 1) i))
      (hW1 := fun k' k => h8 k' k) (hb1 := fun k => h9 k) (hW2 := fun k i => h10 k i) (hb2 := fun i => h11 i)
  · exact Spec.head_dn_eq (v := A.hnRow R) (nW1 := fun k k' => A.nW1 (ix2 k k')) (nb1 := fun k => A.nb1 (ix1 k))
      (nW2 := fun i k => A.nW2 (ix2 i k)) (nb2 := fun i => A.nb2 (ix1 i))
      (rW1 := fun k k' => A.rW1 (ix2 k k')) (rb1 := fun k => A.rb1 (ix1 k))
      (rW2 := fun i k => A.rW2 (ix2 i k)) (rb2 := fun i => A.rb2 (ix1 i))
      (dW1 := fun k k' => A.dW1 (ix2 k k')) (db1 := fun k => A.db1 (ix1 k))
      (dW2 := fun i k => A.dW2 (ix2 i k)) (db2 := fun i => A.db2 (ix1 i))
      (W1f := fun k' k => x8 (ix2 k' k)) (b1f := fun k => x9 (ix2 (0 : Fin 1) k))
      (W2f := fun k i => x10 (ix2 k i)) (b2f := fun i => x11 (ix2 (0 : Fin 1) i))
      (hW1 := fun k' k => h8 k' k) (hb1 := fun k => h9 k) (hW2 := fun k i => h10 k i) (hb2 := fun i => h11 i)

end Cert.KernelIdeal.Pay

end
-- ==== Proof.KI.Value.lean ====
/-
  The idealized kernel program's four results as the model's arrays.

  Grid point t works on rows 2048 t .. 2048 t + 2047. Its input blocks are those rows of the latent input, of the clamped
  action words and of the hidden state, and the whole of each fused weight array; what it stores, read at block row r,
  is the kernel-shaped row formula of the specification at global row R = 2048 t + r, which equals the model's row R.
  The 64 blocks tile each output array, so each array ends as the model's array; the three closing host operations then
  slice the reward / done pair into two columns and give the new hidden state its leading unit axis.
-/
import proofs.«430544_j81647328297666_3_alg».proof.Proof.KI.Frame
import proofs.«430544_j81647328297666_3_alg».proof.Proof.KI.Payload
import proofs.«430544_j81647328297666_3_alg».proof.Proof.KI.Prologue
import proofs.«430544_j81647328297666_3_alg».proof.Proof.KI.PrologueW
import proofs.«430544_j81647328297666_3_alg».proof.Proof.Algebra
import proofs.«430544_j81647328297666_3_alg».proof.Proof.KI.Bridge

noncomputable section
set_option maxRecDepth 16384

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The row windows (latent input, action words, hidden state, and the three outputs) move one block of rows per grid
    point; their other block coordinates stay at zero. -/
theorem idx_rows : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight windows stay at block (0, 0): each is its whole array. -/
theorem idx_const : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The global row of block row `r` at grid point `t`. -/
def gRowOf (t : Fin cfg0.N) (r : Fin 2048) : Fin 131072 :=
  ⟨t.val * 2048 + r.val, by have h := t.isLt; have hN : cfg0.N = 64 := N_0; have hr := r.isLt; omega⟩

/-! ## The input blocks' entries are the arrays' entries -/

/-- Latent input: block row r, column l is row R of the argument. -/
theorem blk0_apply (c : Dev nD) (t : Fin cfg0.N) (r : Fin 2048) (l : Fin 64) :
    (iblk m c 0 t : Vec Ideal S2048x64 .f32) (ix2 r l) = (argsK m c).z (ix2 (gRowOf t r) l) := by
  unfold iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t (0 : Fin 2) * 2048 + 1 * r.val = t.val * 2048 + r.val; rw [(idx_rows t).1]; omega
  | ⟨1, _⟩ => show win0_0.index t (1 : Fin 2) * 64 + 1 * l.val = l.val; rw [(idx_rows t).2.1]; omega

/-- Action words: the one word of block row r is the clamped action word of row R. -/
theorem blk1_apply (c : Dev nD) (t : Fin cfg0.N) (r : Fin 2048) :
    (iblk m c 1 t : Vec Ideal S1x1x2048 .i32) (ix3 (0 : Fin 1) (0 : Fin 1) r)
      = Spec.clampWord ((argsK m c).act (ix1 (gRowOf t r))) := by
  have hN : cfg0.N = 64 := N_0
  have ht := t.isLt
  have e := V_v1 m c (⟨t.val, by omega⟩ : Fin 64) r
  obtain ⟨-, -, e10, e11, e12, -⟩ := idx_rows t
  unfold iblk
  rw [View.read_apply]
  show V m c main_v1 _ = _
  refine Eq.trans ?_ e
  congr 1
  funext a
  apply Fin.ext
  match a with
  | ⟨0, _⟩ => show win0_1.index t (0 : Fin 3) * 1 + 1 * 0 = t.val; rw [e10]; omega
  | ⟨1, _⟩ => show win0_1.index t (1 : Fin 3) * 1 + 1 * 0 = 0; rw [e11]
  | ⟨2, _⟩ => show win0_1.index t (2 : Fin 3) * 2048 + 1 * r.val = r.val; rw [e12]; omega

/-- Hidden state: block row r, column k is row R of the argument (its leading unit axis dropped). -/
theorem blk2_apply (c : Dev nD) (t : Fin cfg0.N) (r : Fin 2048) (k : Fin 128) :
    (iblk m c 2 t : Vec Ideal S2048x128 .f32) (ix2 r k) = (argsK m c).hid (ix3 (0 : Fin 1) (gRowOf t r) k) := by
  obtain ⟨-, -, -, -, -, e20, e21, -⟩ := idx_rows t
  unfold iblk
  rw [View.read_apply]
  show V m c main_v2 _ = _
  refine Eq.trans ?_ (V_v2 m c (gRowOf t r) k)
  congr 1
  funext a
  apply Fin.ext
  match a with
  | ⟨0, _⟩ => show win0_2.index t (0 : Fin 2) * 2048 + 1 * r.val = t.val * 2048 + r.val; rw [e20]; omega
  | ⟨1, _⟩ => show win0_2.index t (1 : Fin 2) * 128 + 1 * k.val = k.val; rw [e21]; omega

/-- Window 3's block at any point is its whole array. -/
theorem blk3_eq (c : Dev nD) (t : Fin cfg0.N) :
    (iblk m c 3 t : Vec Ideal S64x128 .bf16) = (V m c main_v5 : S64x128.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v5 _ = V m c main_v5 x
  congr 1
  funext a
  apply Fin.ext
  match a with
  | ⟨0, _⟩ => show win0_3.index t (0 : Fin 2) * 64 + 1 * (x 0).val = (x 0).val; rw [e3a]; omega
  | ⟨1, _⟩ => show win0_3.index t (1 : Fin 2) * 128 + 1 * (x 1).val = (x 1).val; rw [e3b]; omega

/-- Window 4's block at any point is its whole array. -/
theorem blk4_eq (c : Dev nD) (t : Fin cfg0.N) :
    (iblk m c 4 t : Vec Ideal S9x128 .bf16) = (V m c main_v9 : S9x128.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v9 _ = V m c main_v9 x
  congr 1
  funext a
  apply Fin.ext
  match a with
  | ⟨0, _⟩ => show win0_4.index t (0 : Fin 2) * 9 + 1 * (x 0).val = (x 0).val; rw [e4a]; omega
  | ⟨1, _⟩ => show win0_4.index t (1 : Fin 2) * 128 + 1 * (x 1).val = (x 1).val; rw [e4b]; omega

/-- Window 5's block at any point is its whole array. -/
theorem blk5_eq (c : Dev nD) (t : Fin cfg0.N) :
    (iblk m c 5 t : Vec Ideal S1x128 .f32) = (V m c main_v10 : S1x128.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v10 _ = V m c main_v10 x
  congr 1
  funext a
  apply Fin.ext
  match a with
  | ⟨0, _⟩ => show win0_5.index t (0 : Fin 2) * 1 + 1 * (x 0).val = (x 0).val; rw [e5a]; omega
  | ⟨1, _⟩ => show win0_5.index t (1 : Fin 2) * 128 + 1 * (x 1).val = (x 1).val; rw [e5b]; omega

/-- Window 6's block at any point is its whole array. -/
theorem blk6_eq (c : Dev nD) (t : Fin cfg0.N) :
    (iblk m c 6 t : Vec Ideal S256x512 .bf16) = (V m c main_v33 : S256x512.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v33 _ = V m c main_v33 x
  congr 1
  funext a
  apply Fin.ext
  match a with
  | ⟨0, _⟩ => show win0_6.index t (0 : Fin 2) * 256 + 1 * (x 0).val = (x 0).val; rw [e6a]; omega
  | ⟨1, _⟩ => show win0_6.index t (1 : Fin 2) * 512 + 1 * (x 1).val = (x 1).val; rw [e6b]; omega

/-- Window 7's block at any point is its whole array. -/
theorem blk7_eq (c : Dev nD) (t : Fin cfg0.N) :
    (iblk m c 7 t : Vec Ideal S1x512 .f32) = (V m c main_v37 : S1x512.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v37 _ = V m c main_v37 x
  congr 1
  funext a
  apply Fin.ext
  match a with
  | ⟨0, _⟩ => show win0_7.index t (0 : Fin 2) * 1 + 1 * (x 0).val = (x 0).val; rw [e7a]; omega
  | ⟨1, _⟩ => show win0_7.index t (1 : Fin 2) * 512 + 1 * (x 1).val = (x 1).val; rw [e7b]; omega

/-- Window 8's block at any point is its whole array. -/
theorem blk8_eq (c : Dev nD) (t : Fin cfg0.N) :
    (iblk m c 8 t : Vec Ideal S128x256 .bf16) = (V m c main_v43 : S128x256.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v43 _ = V m c main_v43 x
  congr 1
  funext a
  apply Fin.ext
  match a with
  | ⟨0, _⟩ => show win0_8.index t (0 : Fin 2) * 128 + 1 * (x 0).val = (x 0).val; rw [e8a]; omega
  | ⟨1, _⟩ => show win0_8.index t (1 : Fin 2) * 256 + 1 * (x 1).val = (x 1).val; rw [e8b]; omega

/-- Window 9's block at any point is its whole array. -/
theorem blk9_eq (c : Dev nD) (t : Fin cfg0.N) :
    (iblk m c 9 t : Vec Ideal S1x256 .f32) = (V m c main_v45 : S1x256.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v45 _ = V m c main_v45 x
  congr 1
  funext a
  apply Fin.ext
  match a with
  | ⟨0, _⟩ => show win0_9.index t (0 : Fin 2) * 1 + 1 * (x 0).val = (x 0).val; rw [e9a]; omega
  | ⟨1, _⟩ => show win0_9.index t (1 : Fin 2) * 256 + 1 * (x 1).val = (x 1).val; rw [e9b]; omega

/-- Window 10's block at any point is its whole array. -/
theorem blk10_eq (c : Dev nD) (t : Fin cfg0.N) :
    (iblk m c 10 t : Vec Ideal S256x66 .bf16) = (V m c main_v58 : S256x66.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v58 _ = V m c main_v58 x
  congr 1
  funext a
  apply Fin.ext
  match a with
  | ⟨0, _⟩ => show win0_10.index t (0 : Fin 2) * 256 + 1 * (x 0).val = (x 0).val; rw [e10a]; omega
  | ⟨1, _⟩ => show win0_10.index t (1 : Fin 2) * 66 + 1 * (x 1).val = (x 1).val; rw [e10b]; omega

/-- Window 11's block at any point is its whole array. -/
theorem blk11_eq (c : Dev nD) (t : Fin cfg0.N) :
    (iblk m c 11 t : Vec Ideal S1x66 .f32) = (V m c main_v60 : S1x66.Idx → EReal) := by
  obtain ⟨e3a, e3b, e4a, e4b, e5a, e5b, e6a, e6b, e7a, e7b, e8a, e8b, e9a, e9b, e10a, e10b, e11a, e11b⟩ := idx_const t
  funext x
  unfold iblk
  rw [View.read_apply]
  show V m c main_v60 _ = V m c main_v60 x
  congr 1
  funext a
  apply Fin.ext
  match a with
  | ⟨0, _⟩ => show win0_11.index t (0 : Fin 2) * 1 + 1 * (x 0).val = (x 0).val; rw [e11a]; omega
  | ⟨1, _⟩ => show win0_11.index t (1 : Fin 2) * 66 + 1 * (x 1).val = (x 1).val; rw [e11b]; omega

/-! ## What a point stores, as the model's rows -/

theorem hz2 : (![0, 0] : Fin 2 → Nat) = fun _ => 0 := funext fun a => by fin_cases a <;> rfl
theorem hz3 : (![0, 0, 0] : Fin 3 → Nat) = fun _ => 0 := funext fun a => by fin_cases a <;> rfl

section Stored

variable (c : Dev nD) (hpos : ∀ R : Fin 131072, 0 ≤ ((argsK m c).act (ix1 R)).toInt) (t : Fin cfg0.N)

include hpos

/-- The stored new hidden state of point t: entry (r, j) is the model's new hidden row R at j. -/
theorem stored14 :
    k0_pay1 (F := Ideal) (k0_pay5 (iblk m c 2 t)) (k0_pay6 (iblk m c 1 t) (iblk m c 4 t) (iblk m c 0 t) (iblk m c 3 t) (iblk m c 5 t) (iblk m c 2 t) (iblk m c 6 t) (iblk m c 7 t))
      (k0_pay7 (iblk m c 1 t) (iblk m c 4 t) (iblk m c 0 t) (iblk m c 3 t) (iblk m c 5 t) (iblk m c 2 t) (iblk m c 6 t) (iblk m c 7 t))
      (k0_pay8 (iblk m c 1 t) (iblk m c 4 t) (iblk m c 0 t) (iblk m c 3 t) (iblk m c 5 t) (iblk m c 2 t) (iblk m c 6 t) (iblk m c 7 t))
      = fun y : S2048x128.Idx => (argsK m c).hnRow (gRowOf t ⟨(y 0).val, idx2_lt0 y⟩) ⟨(y 1).val, idx2_lt1 y⟩ := by
  funext y
  obtain ⟨r, j, rfl⟩ : ∃ (r : Fin 2048) (j : Fin 128), y = ix2 r j := ⟨y 0, y 1, eq_ix2 y⟩
  refine (Pay.pay1_apply (iblk m c 0 t) (iblk m c 1 t) (iblk m c 2 t) (iblk m c 3 t) (iblk m c 4 t) (iblk m c 5 t) (iblk m c 6 t) (iblk m c 7 t) r j).trans ?_
  exact congrFun (Pay.hRow_bridge (iblk m c 0 t) (iblk m c 1 t) (iblk m c 2 t) (iblk m c 3 t) (iblk m c 4 t) (iblk m c 5 t) (iblk m c 6 t) (iblk m c 7 t) (argsK m c) (gRowOf t r) r
      (fun l => blk0_apply m c t r l) (blk1_apply m c t r) (fun k => blk2_apply m c t r k)
      (fun l j => by rw [blk3_eq]; exact V_v5 m c l j) (fun k j => by rw [blk4_eq]; exact V_v9 m c k j)
      (fun j => by rw [blk5_eq]; exact V_v10 m c j)
      (fun k q hk => by rw [blk6_eq]; exact V_v33_top m c k q hk) (fun k q hk => by rw [blk6_eq]; exact V_v33_bot m c k q hk)
      (fun q => by rw [blk7_eq]; exact V_v37 m c q) (hpos (gRowOf t r))) j

/-- The stored next latent state of point t: entry (r, i) is the model's next-latent row R at i. -/
theorem stored12 :
    k0_pay3 (F := Ideal) (k0_pay5 (iblk m c 2 t)) (k0_pay6 (iblk m c 1 t) (iblk m c 4 t) (iblk m c 0 t) (iblk m c 3 t) (iblk m c 5 t) (iblk m c 2 t) (iblk m c 6 t) (iblk m c 7 t))
      (k0_pay7 (iblk m c 1 t) (iblk m c 4 t) (iblk m c 0 t) (iblk m c 3 t) (iblk m c 5 t) (iblk m c 2 t) (iblk m c 6 t) (iblk m c 7 t))
      (k0_pay8 (iblk m c 1 t) (iblk m c 4 t) (iblk m c 0 t) (iblk m c 3 t) (iblk m c 5 t) (iblk m c 2 t) (iblk m c 6 t) (iblk m c 7 t))
      (iblk m c 8 t) (iblk m c 9 t) (iblk m c 10 t) (iblk m c 11 t)
      = fun y : S2048x64.Idx => (argsK m c).znRow (gRowOf t ⟨(y 0).val, idx2_lt0 y⟩) ⟨(y 1).val, idx2_lt1 y⟩ := by
  funext y
  obtain ⟨r, i, rfl⟩ : ∃ (r : Fin 2048) (i : Fin 64), y = ix2 r i := ⟨y 0, y 1, eq_ix2 y⟩
  refine (Pay.pay3_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r i).trans ?_
  exact (Pay.oRow_bridge (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (argsK m c) (gRowOf t r) r
      (fun l => blk0_apply m c t r l) (blk1_apply m c t r) (fun k => blk2_apply m c t r k)
      (fun l j => by rw [blk3_eq]; exact V_v5 m c l j) (fun k j => by rw [blk4_eq]; exact V_v9 m c k j)
      (fun j => by rw [blk5_eq]; exact V_v10 m c j)
      (fun k q hk => by rw [blk6_eq]; exact V_v33_top m c k q hk) (fun k q hk => by rw [blk6_eq]; exact V_v33_bot m c k q hk)
      (fun q => by rw [blk7_eq]; exact V_v37 m c q) (hpos (gRowOf t r))
      (fun k' k => by rw [blk8_eq]; exact V_v43 m c k' k) (fun k => by rw [blk9_eq]; exact V_v45 m c k)
      (fun k i => by rw [blk10_eq]; exact V_v58 m c k i) (fun i => by rw [blk11_eq]; exact V_v60 m c i)).1 i

/-- The stored reward / done pair of point t: entry (r, 0) is the model's reward of row R, entry (r, 1) its done logit. -/
theorem stored13 :
    k0_pay4 (F := Ideal) (k0_pay5 (iblk m c 2 t)) (k0_pay6 (iblk m c 1 t) (iblk m c 4 t) (iblk m c 0 t) (iblk m c 3 t) (iblk m c 5 t) (iblk m c 2 t) (iblk m c 6 t) (iblk m c 7 t))
      (k0_pay7 (iblk m c 1 t) (iblk m c 4 t) (iblk m c 0 t) (iblk m c 3 t) (iblk m c 5 t) (iblk m c 2 t) (iblk m c 6 t) (iblk m c 7 t))
      (k0_pay8 (iblk m c 1 t) (iblk m c 4 t) (iblk m c 0 t) (iblk m c 3 t) (iblk m c 5 t) (iblk m c 2 t) (iblk m c 6 t) (iblk m c 7 t))
      (iblk m c 8 t) (iblk m c 9 t) (iblk m c 10 t) (iblk m c 11 t)
      = fun y : S2048x2.Idx => if (y 1).val = 0 then (argsK m c).rwRow (gRowOf t ⟨(y 0).val, idx2_lt0 y⟩) 0
          else (argsK m c).dnRow (gRowOf t ⟨(y 0).val, idx2_lt0 y⟩) 0 := by
  funext y
  obtain ⟨r, i, rfl⟩ : ∃ (r : Fin 2048) (i : Fin 2), y = ix2 r i := ⟨y 0, y 1, eq_ix2 y⟩
  refine (Pay.pay4_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r i).trans ?_
  have hb := Pay.oRow_bridge (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (argsK m c) (gRowOf t r) r
      (fun l => blk0_apply m c t r l) (blk1_apply m c t r) (fun k => blk2_apply m c t r k)
      (fun l j => by rw [blk3_eq]; exact V_v5 m c l j) (fun k j => by rw [blk4_eq]; exact V_v9 m c k j)
      (fun j => by rw [blk5_eq]; exact V_v10 m c j)
      (fun k q hk => by rw [blk6_eq]; exact V_v33_top m c k q hk) (fun k q hk => by rw [blk6_eq]; exact V_v33_bot m c k q hk)
      (fun q => by rw [blk7_eq]; exact V_v37 m c q) (hpos (gRowOf t r))
      (fun k' k => by rw [blk8_eq]; exact V_v43 m c k' k) (fun k => by rw [blk9_eq]; exact V_v45 m c k)
      (fun k i => by rw [blk10_eq]; exact V_v58 m c k i) (fun i => by rw [blk11_eq]; exact V_v60 m c i)
  match i with
  | ⟨0, _⟩ => exact hb.2.1
  | ⟨1, _⟩ => exact hb.2.2

end Stored

/-! ## The three output arrays after the run -/

theorem hnRow_congr (A : Cert.Model.Args) {R R' : Fin 131072} {j j' : Fin 128} (hR : R.val = R'.val) (hj : j.val = j'.val) :
    A.hnRow R j = A.hnRow R' j' := by
  obtain rfl := Fin.ext hR; obtain rfl := Fin.ext hj; rfl
theorem znRow_congr (A : Cert.Model.Args) {R R' : Fin 131072} {j j' : Fin 64} (hR : R.val = R'.val) (hj : j.val = j'.val) :
    A.znRow R j = A.znRow R' j' := by
  obtain rfl := Fin.ext hR; obtain rfl := Fin.ext hj; rfl
theorem rwRow_congr (A : Cert.Model.Args) {R R' : Fin 131072} (hR : R.val = R'.val) : A.rwRow R 0 = A.rwRow R' 0 := by
  obtain rfl := Fin.ext hR; rfl
theorem dnRow_congr (A : Cert.Model.Args) {R R' : Fin 131072} (hR : R.val = R'.val) : A.dnRow R 0 = A.dnRow R' 0 := by
  obtain rfl := Fin.ext hR; rfl

/-- What the reward / done window's array ends holding: column 0 the reward, column 1 the done logit. -/
def G13 (A : Cert.Model.Args) : S131072x2.Idx → EReal := fun i =>
  if (i 1).val = 0 then A.rwRow ⟨(i 0).val, (i 0).isLt⟩ 0 else A.dnRow ⟨(i 0).val, (i 0).isLt⟩ 0
/-- What the hidden-state window's array ends holding. -/
def G14 (A : Cert.Model.Args) : S131072x128.Idx → EReal := fun i => A.hnRow ⟨(i 0).val, (i 0).isLt⟩ ⟨(i 1).val, (i 1).isLt⟩

/-- An index of window 12's array is in point t's block iff each coordinate is in the block's range. -/
theorem mem_blk12 (t : Fin cfg0.N) (i : S131072x64.Idx) :
    i ∈ ((cfg0.win 12).blk t).view.set ↔ ∀ a : Fin 2, win0_12.index t a * S2048x64.size a ≤ (i a).val ∧ (i a).val < win0_12.index t a * S2048x64.size a + S2048x64.size a := by
  show i ∈ ((View.whole main_v61_0).slice (win0_12.rect t)).set ↔ _
  rw [View.set_slice_whole, Rect.mem_set_unit]
  exact Iff.rfl

/-- Row i₀ of window 12's array lies in the block of point i₀ / 2048: the 64 blocks tile the array. -/
theorem cover12 (i : S131072x64.Idx) :
    ∃ t : Fin cfg0.N, (cfg0.win 12).flush t = true ∧ i ∈ ((cfg0.win 12).blk t).view.set := by
  have hN : cfg0.N = 64 := N_0
  have hi0 : (i 0).val < 131072 := (i 0).isLt
  have hi1 : (i 1).val < 64 := (i 1).isLt
  obtain ⟨t, ht⟩ : ∃ t : Fin cfg0.N, t.val = (i 0).val / 2048 := ⟨⟨(i 0).val / 2048, by omega⟩, rfl⟩
  obtain ⟨e00, e01, e10, e11, e12, e20, e21, e120, e121, e130, e131, e140, e141⟩ := idx_rows t
  refine ⟨t, flush0_12 t, ?_⟩
  rw [mem_blk12]
  intro a
  match a with
  | ⟨0, _⟩ => show win0_12.index t (0 : Fin 2) * 2048 ≤ (i 0).val ∧ (i 0).val < win0_12.index t (0 : Fin 2) * 2048 + 2048; rw [e120, ht]; omega
  | ⟨1, _⟩ => show win0_12.index t (1 : Fin 2) * 64 ≤ (i 1).val ∧ (i 1).val < win0_12.index t (1 : Fin 2) * 64 + 64; rw [e121]; omega

/-- An index of window 13's array is in point t's block iff each coordinate is in the block's range. -/
theorem mem_blk13 (t : Fin cfg0.N) (i : S131072x2.Idx) :
    i ∈ ((cfg0.win 13).blk t).view.set ↔ ∀ a : Fin 2, win0_13.index t a * S2048x2.size a ≤ (i a).val ∧ (i a).val < win0_13.index t a * S2048x2.size a + S2048x2.size a := by
  show i ∈ ((View.whole main_v61_1).slice (win0_13.rect t)).set ↔ _
  rw [View.set_slice_whole, Rect.mem_set_unit]
  exact Iff.rfl

/-- Row i₀ of window 13's array lies in the block of point i₀ / 2048: the 64 blocks tile the array. -/
theorem cover13 (i : S131072x2.Idx) :
    ∃ t : Fin cfg0.N, (cfg0.win 13).flush t = true ∧ i ∈ ((cfg0.win 13).blk t).view.set := by
  have hN : cfg0.N = 64 := N_0
  have hi0 : (i 0).val < 131072 := (i 0).isLt
  have hi1 : (i 1).val < 2 := (i 1).isLt
  obtain ⟨t, ht⟩ : ∃ t : Fin cfg0.N, t.val = (i 0).val / 2048 := ⟨⟨(i 0).val / 2048, by omega⟩, rfl⟩
  obtain ⟨e00, e01, e10, e11, e12, e20, e21, e120, e121, e130, e131, e140, e141⟩ := idx_rows t
  refine ⟨t, flush0_13 t, ?_⟩
  rw [mem_blk13]
  intro a
  match a with
  | ⟨0, _⟩ => show win0_13.index t (0 : Fin 2) * 2048 ≤ (i 0).val ∧ (i 0).val < win0_13.index t (0 : Fin 2) * 2048 + 2048; rw [e130, ht]; omega
  | ⟨1, _⟩ => show win0_13.index t (1 : Fin 2) * 2 ≤ (i 1).val ∧ (i 1).val < win0_13.index t (1 : Fin 2) * 2 + 2; rw [e131]; omega

/-- An index of window 14's array is in point t's block iff each coordinate is in the block's range. -/
theorem mem_blk14 (t : Fin cfg0.N) (i : S131072x128.Idx) :
    i ∈ ((cfg0.win 14).blk t).view.set ↔ ∀ a : Fin 2, win0_14.index t a * S2048x128.size a ≤ (i a).val ∧ (i a).val < win0_14.index t a * S2048x128.size a + S2048x128.size a := by
  show i ∈ ((View.whole main_v61_2).slice (win0_14.rect t)).set ↔ _
  rw [View.set_slice_whole, Rect.mem_set_unit]
  exact Iff.rfl

/-- Row i₀ of window 14's array lies in the block of point i₀ / 2048: the 64 blocks tile the array. -/
theorem cover14 (i : S131072x128.Idx) :
    ∃ t : Fin cfg0.N, (cfg0.win 14).flush t = true ∧ i ∈ ((cfg0.win 14).blk t).view.set := by
  have hN : cfg0.N = 64 := N_0
  have hi0 : (i 0).val < 131072 := (i 0).isLt
  have hi1 : (i 1).val < 128 := (i 1).isLt
  obtain ⟨t, ht⟩ : ∃ t : Fin cfg0.N, t.val = (i 0).val / 2048 := ⟨⟨(i 0).val / 2048, by omega⟩, rfl⟩
  obtain ⟨e00, e01, e10, e11, e12, e20, e21, e120, e121, e130, e131, e140, e141⟩ := idx_rows t
  refine ⟨t, flush0_14 t, ?_⟩
  rw [mem_blk14]
  intro a
  match a with
  | ⟨0, _⟩ => show win0_14.index t (0 : Fin 2) * 2048 ≤ (i 0).val ∧ (i 0).val < win0_14.index t (0 : Fin 2) * 2048 + 2048; rw [e140, ht]; omega
  | ⟨1, _⟩ => show win0_14.index t (1 : Fin 2) * 128 ≤ (i 1).val ∧ (i 1).val < win0_14.index t (1 : Fin 2) * 128 + 128; rw [e141]; omega

section Finals

variable (c : Dev nD) (hpos : ∀ R : Fin 131072, 0 ≤ ((argsK m c).act (ix1 R)).toInt)

include hpos

/-- What point t writes back through window 14 is block t of the model's new hidden state. -/
theorem flushed14_eq (t : Fin cfg0.N) :
    (dats m 0 c).flushed 14 t = ((cfg0.win 14).blk t).view.read (Elt Ideal) (G14 (argsK m c)) := by
  obtain ⟨e00, e01, e10, e11, e12, e20, e21, e120, e121, e130, e131, e140, e141⟩ := idx_rows t
  show (cfg0.win 14).cut (grid0.coords t) ((dats m 0 c).after 14 t) = _
  rw [after0_14]
  unfold out0_14
  rw [View.canon_unit_zero hz2]
  simp only [p5, p6, p7, p8, View.ld_unit_zero (S := S2048x64) hz2, View.ld_unit_zero (S := S1x1x2048) hz3, View.ld_unit_zero (S := S2048x128) hz2,
    View.ld_unit_zero (S := S64x128) hz2, View.ld_unit_zero (S := S9x128) hz2, View.ld_unit_zero (S := S1x128) hz2,
    View.ld_unit_zero (S := S256x512) hz2, View.ld_unit_zero (S := S1x512) hz2, View.ld_unit_zero (S := S128x256) hz2,
    View.ld_unit_zero (S := S1x256) hz2, View.ld_unit_zero (S := S256x66) hz2, View.ld_unit_zero (S := S1x66) hz2]
  refine (stored14 m c hpos t).trans ?_
  funext y
  rw [View.read_apply]
  show (argsK m c).hnRow (gRowOf t ⟨(y 0).val, _⟩) ⟨(y 1).val, _⟩ = G14 (argsK m c) (((cfg0.win 14).blk t).view.emb y)
  unfold G14
  exact hnRow_congr _ (by show t.val * 2048 + (y 0).val = win0_14.index t (0 : Fin 2) * 2048 + 1 * (y 0).val; rw [e140]; omega)
    (by show (y 1).val = win0_14.index t (1 : Fin 2) * 128 + 1 * (y 1).val; rw [e141]; omega)

/-- What point t writes back through window 12 is block t of the model's next latent state. -/
theorem flushed12_eq (t : Fin cfg0.N) :
    (dats m 0 c).flushed 12 t = ((cfg0.win 12).blk t).view.read (Elt Ideal) ((argsK m c).out0) := by
  obtain ⟨e00, e01, e10, e11, e12, e20, e21, e120, e121, e130, e131, e140, e141⟩ := idx_rows t
  show (cfg0.win 12).cut (grid0.coords t) ((dats m 0 c).after 12 t) = _
  rw [after0_12]
  unfold out0_12
  rw [View.canon_unit_zero hz2]
  simp only [p5, p6, p7, p8, View.ld_unit_zero (S := S2048x64) hz2, View.ld_unit_zero (S := S1x1x2048) hz3, View.ld_unit_zero (S := S2048x128) hz2,
    View.ld_unit_zero (S := S64x128) hz2, View.ld_unit_zero (S := S9x128) hz2, View.ld_unit_zero (S := S1x128) hz2,
    View.ld_unit_zero (S := S256x512) hz2, View.ld_unit_zero (S := S1x512) hz2, View.ld_unit_zero (S := S128x256) hz2,
    View.ld_unit_zero (S := S1x256) hz2, View.ld_unit_zero (S := S256x66) hz2, View.ld_unit_zero (S := S1x66) hz2]
  refine (stored12 m c hpos t).trans ?_
  funext y
  rw [View.read_apply]
  show (argsK m c).znRow (gRowOf t ⟨(y 0).val, _⟩) ⟨(y 1).val, _⟩ = (argsK m c).out0 (((cfg0.win 12).blk t).view.emb y)
  unfold Cert.Model.Args.out0
  exact znRow_congr _ (by show t.val * 2048 + (y 0).val = win0_12.index t (0 : Fin 2) * 2048 + 1 * (y 0).val; rw [e120]; omega)
    (by show (y 1).val = win0_12.index t (1 : Fin 2) * 64 + 1 * (y 1).val; rw [e121]; omega)

/-- What point t writes back through window 13 is block t of the reward / done pair. -/
theorem flushed13_eq (t : Fin cfg0.N) :
    (dats m 0 c).flushed 13 t = ((cfg0.win 13).blk t).view.read (Elt Ideal) (G13 (argsK m c)) := by
  obtain ⟨e00, e01, e10, e11, e12, e20, e21, e120, e121, e130, e131, e140, e141⟩ := idx_rows t
  show (cfg0.win 13).cut (grid0.coords t) ((dats m 0 c).after 13 t) = _
  rw [after0_13]
  unfold out0_13
  rw [View.canon_unit_zero hz2]
  simp only [p5, p6, p7, p8, View.ld_unit_zero (S := S2048x64) hz2, View.ld_unit_zero (S := S1x1x2048) hz3, View.ld_unit_zero (S := S2048x128) hz2,
    View.ld_unit_zero (S := S64x128) hz2, View.ld_unit_zero (S := S9x128) hz2, View.ld_unit_zero (S := S1x128) hz2,
    View.ld_unit_zero (S := S256x512) hz2, View.ld_unit_zero (S := S1x512) hz2, View.ld_unit_zero (S := S128x256) hz2,
    View.ld_unit_zero (S := S1x256) hz2, View.ld_unit_zero (S := S256x66) hz2, View.ld_unit_zero (S := S1x66) hz2]
  refine (stored13 m c hpos t).trans ?_
  funext y
  rw [View.read_apply]
  have e1 : ((((cfg0.win 13).blk t).view.emb y) 1).val = (y 1).val := by
    show win0_13.index t (1 : Fin 2) * 2 + 1 * (y 1).val = (y 1).val; rw [e131]; omega
  have e0 : t.val * 2048 + (y 0).val = ((((cfg0.win 13).blk t).view.emb y) 0).val := by
    show t.val * 2048 + (y 0).val = win0_13.index t (0 : Fin 2) * 2048 + 1 * (y 0).val; rw [e130]; omega
  show (if (y 1).val = 0 then (argsK m c).rwRow (gRowOf t ⟨(y 0).val, _⟩) 0 else (argsK m c).dnRow (gRowOf t ⟨(y 0).val, _⟩) 0)
    = G13 (argsK m c) (((cfg0.win 13).blk t).view.emb y)
  unfold G13
  rw [e1]
  split_ifs
  · exact rwRow_congr _ e0
  · exact dnRow_congr _ e0

/-- The next-latent array after the run. -/
theorem final12 : (dats m 0 c).arrAt 12 cfg0.N = (argsK m c).out0 :=
  (dats m 0 c).arrAt_eq_of_cover 12 ((argsK m c).out0) (fun t _ => flushed12_eq m c hpos t) (cover12)
/-- The reward / done array after the run. -/
theorem final13 : (dats m 0 c).arrAt 13 cfg0.N = G13 (argsK m c) :=
  (dats m 0 c).arrAt_eq_of_cover 13 (G13 (argsK m c)) (fun t _ => flushed13_eq m c hpos t) (cover13)
/-- The new-hidden-state array after the run. -/
theorem final14 : (dats m 0 c).arrAt 14 cfg0.N = G14 (argsK m c) :=
  (dats m 0 c).arrAt_eq_of_cover 14 (G14 (argsK m c)) (fun t _ => flushed14_eq m c hpos t) (cover14)

end Finals

/-! ## The three closing host operations, and the run -/

/-- Column 0 of the pair array is the reward. -/
theorem G13_zero (A : Cert.Model.Args) (R : Fin 131072) : G13 A (ix2 R (0 : Fin 2)) = A.rwRow R 0 := by
  unfold G13
  rw [if_pos (show ((ix2 R (0 : Fin 2) : S131072x2.Idx) 1).val = 0 from rfl)]
/-- Column 1 is the done logit. -/
theorem G13_one (A : Cert.Model.Args) (R : Fin 131072) : G13 A (ix2 R (1 : Fin 2)) = A.dnRow R 0 := by
  unfold G13
  rw [if_neg (show ¬ ((ix2 R (1 : Fin 2) : S131072x2.Idx) 1).val = 0 from Nat.one_ne_zero)]

section Tail

variable (c : Dev nD) (hpos : ∀ R : Fin 131072, 0 ≤ ((argsK m c).act (ix1 R)).toInt)

include hpos

/-- The array the closing operations read the pair from is the reward / done array the run left. -/
theorem pairArr :
    Pipeline.withArrays (cfgs 0).spec c (V0 m c) (fun w => (dats m 0 c).arrAt w (cfgs 0).N) (Proc.tc.devRef main_v61_1)
      = G13 (argsK m c) :=
  (Pipeline.withArrays_arr spec0 launch0.win.arr_inj c _ _ 13).trans (final13 m c hpos)

/-- And the one they read the hidden state from is the new-hidden-state array the run left. -/
theorem hidArr :
    Pipeline.withArrays (cfgs 0).spec c (V0 m c) (fun w => (dats m 0 c).arrAt w (cfgs 0).N) (Proc.tc.devRef main_v61_2)
      = G14 (argsK m c) :=
  (Pipeline.withArrays_arr spec0 launch0.win.arr_inj c _ _ 14).trans (final14 m c hpos)

/-- The reward is column 0 of the pair. -/
theorem tail62 : Pipeline.afterTail₀ cfgs (dats m) 0 (V0 m) [hostOps1] c main_v62 = (argsK m c).out1 := by
  unfold Pipeline.afterTail₀
  show StableHlo.after hostOps1 _ (Proc.devRef .tc main_v62) = _
  after_results
  rw [pairArr m c hpos]
  funext i
  obtain ⟨R, u, rfl⟩ : ∃ (R : Fin 131072) (u : Fin 1), i = ix2 R u := ⟨i 0, i 1, eq_ix2 i⟩
  rw [Cert.Model.Args.out1_apply]
  refine (extractStridedSlice_apply _ _ _ (ix2 R u) (ix2 R (0 : Fin 2)) (fun a => ?_)).trans ?_
  · match a with
    | ⟨0, _⟩ => show R.val = 0 + R.val; omega
    | ⟨1, _⟩ => show (0 : Nat) = 0 + u.val; have := u.isLt; omega
  · exact G13_zero _ R

/-- The done logit is column 1 of the pair. -/
theorem tail63 : Pipeline.afterTail₀ cfgs (dats m) 0 (V0 m) [hostOps1] c main_v63 = (argsK m c).out2 := by
  unfold Pipeline.afterTail₀
  show StableHlo.after hostOps1 _ (Proc.devRef .tc main_v63) = _
  after_results
  rw [pairArr m c hpos]
  funext i
  obtain ⟨R, u, rfl⟩ : ∃ (R : Fin 131072) (u : Fin 1), i = ix2 R u := ⟨i 0, i 1, eq_ix2 i⟩
  rw [Cert.Model.Args.out2_apply]
  refine (extractStridedSlice_apply _ _ _ (ix2 R u) (ix2 R (1 : Fin 2)) (fun a => ?_)).trans ?_
  · match a with
    | ⟨0, _⟩ => show R.val = 0 + R.val; omega
    | ⟨1, _⟩ => show (1 : Nat) = 1 + u.val; have := u.isLt; omega
  · exact G13_one _ R

/-- The fourth result is the new hidden state under a leading unit axis. -/
theorem tail64 : Pipeline.afterTail₀ cfgs (dats m) 0 (V0 m) [hostOps1] c main_v64 = (argsK m c).out3 := by
  unfold Pipeline.afterTail₀
  show StableHlo.after hostOps1 _ (Proc.devRef .tc main_v64) = _
  after_results
  rw [hidArr m c hpos]
  funext i
  obtain ⟨u, R, j, rfl⟩ : ∃ (u : Fin 1) (R : Fin 131072) (j : Fin 128), i = ix3 u R j := ⟨i 0, i 1, i 2, eq_ix3 i⟩
  rw [Cert.Model.Args.out3_apply]
  refine (broadcastInDim_apply _ _ _ (ix3 u R j) (ix2 R j) (fun a => ?_)).trans ?_
  · match a with
    | ⟨0, _⟩ => show R.val = if (131072 : Nat) = 1 then 0 else R.val; rw [if_neg (by decide)]
    | ⟨1, _⟩ => show j.val = if (128 : Nat) = 1 then 0 else j.val; rw [if_neg (by decide)]
  · rfl

end Tail

/-- THE RUN, READ: from any memory whose action words are non-negative, every weakly fair execution of the idealized
    kernel program terminates with its four results at the model's arrays of the argument arrays, and the argument
    arrays unchanged. -/
theorem run (hpos : ∀ (c : Dev nD) (R : Fin 131072), 0 ≤ ((argsK m c).act (ix1 R)).toInt) :
    θ_run defs (onTc (τ := τ) (main (F := Ideal))) ⟨m, fun _ => 0, ρ⟩ fun r => ∀ c : Dev nD,
      r.2.mem ((c.tc : Thread nD τ).loc main_v61_0) = (argsK m c).out0
      ∧ r.2.mem ((c.tc : Thread nD τ).loc main_v62) = (argsK m c).out1
      ∧ r.2.mem ((c.tc : Thread nD τ).loc main_v63) = (argsK m c).out2
      ∧ r.2.mem ((c.tc : Thread nD τ).loc main_v64) = (argsK m c).out3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c =>
      ⟨((h c).1 12).trans (final12 m c (hpos c)),
       ((h c).2 main_v62 (Pipeline.mem_restRefs_of main_v62 rfl (by decide))).trans (tail62 m c (hpos c)),
       ((h c).2 main_v63 (Pipeline.mem_restRefs_of main_v63 rfl (by decide))).trans (tail63 m c (hpos c)),
       ((h c).2 main_v64 (Pipeline.mem_restRefs_of main_v64 rfl (by decide))).trans (tail64 m c (hpos c)),
       args_of_post m (dats m) (A_eq m) r h c⟩)
    (run_main (F := Ideal) m ρ)

end Cert.KernelIdeal.Hand

end
-- ==== Proof.Ref.Hidden.lean ====
/-
  The reference program up to the new hidden state, read at an entry.

  Row R: the action word is wrapped if negative and the gather clamps it, selecting an embedding row; the latent row and
  that embedding row, side by side, times the transposed fuse weights plus the bias, rectified, is x; x and the hidden
  row each go through their own product with the transposed GRU weights plus bias; the three gate blocks are sliced out
  of each; the sigmoid is spelt 1 / (1 + exp(−s)), which is the logistic function; then the cell's arithmetic.
-/
import proofs.«430544_j81647328297666_3_alg».proof.Proof.Gen.ReferenceIdeal.Run
import proofs.«430544_j81647328297666_3_alg».proof.Proof.Gen.ReferenceIdeal.Read
import proofs.«430544_j81647328297666_3_alg».proof.Proof.Model
import Idealize.ShloMosaic.Lib.ValueIdx
import Idealize.ShloMosaic.Lib.ValueLayout
import Idealize.ShloMosaic.Lib.Pipeline.Value
import Idealize.ShloMosaic.PureOps.Ideal.Laws

noncomputable section
set_option maxRecDepth 16384

open scoped BigOperators

namespace Cert.ReferenceIdeal.RefValue

open Cert.ReferenceIdeal Cert.ReferenceIdeal.Gen Cert.ReferenceIdeal.Read
open Idealize.ShloMosaic Idealize.ShloMosaic.ValueIdx

/-- The action word after the reference's wrap, at row R: a negative word has the table's nine rows added. -/
private theorem word_apply (a : (⟨1, ![131072]⟩ : Shape).Idx → BitVec 32) (R : Fin 131072) :
    val_main_v4 (F := Ideal) a (ix1 R) = Spec.wrapWord (a (ix1 R)) := by
  rw [val_main_v4_apply, val_main_v1_apply, val_main_v3_apply, val_main_v0_apply, val_main_v2_apply,
    val_main_c_apply, val_main_c_0_apply]
  unfold Spec.wrapWord
  have h0 : (0#32 : BitVec 32).toInt = 0 := by decide
  by_cases h : (a (ix1 R)).toInt < 0
  · rw [if_pos h, IntOp.cmpi_slt.mpr (by rw [h0]; exact h), select_one]; rfl
  · have hb : IntOp.cmpi .slt (a (ix1 R)) 0#32 = 0#1 :=
      eq_zero_of_ne_one fun hc => h (by have := IntOp.cmpi_slt.mp hc; rwa [h0] at this)
    rw [if_neg h, hb, select_zero]

/-- The gather at (R, l): the table's row is the start index of row R, read signed and clamped into the nine rows;
    its column is l, the coordinate on the one offset axis. -/
private theorem gather_apply (x3 : (⟨2, ![9, 16]⟩ : Shape).Idx → EReal)
    (idx : (⟨2, ![131072, 1]⟩ : Shape).Idx → BitVec 32) (R : Fin 131072) (l : Fin 16) :
    Host.gather gather_S9x16_S131072x1_S131072x16_1_0_n_n_0_1_116 x3 idx (ix2 R l)
      = x3 (ix2 (⟨min (idx (ix2 R (0 : Fin 1))).toInt.toNat 8, by omega⟩ : Fin 9) l) := by
  unfold Host.gather
  congr 1
  funext a
  refine Fin.ext ?_
  match a with
  | ⟨0, _⟩ =>
    -- the row axis is collapsed and start-indexed: only the clamped start index contributes
    show gather_S9x16_S131072x1_S131072x16_1_0_n_n_0_1_116.start (ix2 R l) idx 0
      + gather_S9x16_S131072x1_S131072x16_1_0_n_n_0_1_116.batchCoord (ix2 R l) 0
      + gather_S9x16_S131072x1_S131072x16_1_0_n_n_0_1_116.offCoord (ix2 R l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S9x16_S131072x1_S131072x16_1_0_n_n_0_1_116.startIndexMap from
      List.mem_singleton.mpr rfl)]
    have hsi : gather_S9x16_S131072x1_S131072x16_1_0_n_n_0_1_116.siIdx (ix2 R l)
        ⟨List.idxOf (0 : Fin 2) gather_S9x16_S131072x1_S131072x16_1_0_n_n_0_1_116.startIndexMap,
          List.idxOf_lt_length_iff.2 (List.mem_singleton.mpr rfl)⟩ = ix2 R (0 : Fin 1) := by
      funext b; refine Fin.ext ?_
      match b with
      | ⟨0, _⟩ => rfl
      | ⟨1, _⟩ => rfl
    rw [hsi]
    rfl
  | ⟨1, _⟩ =>
    -- the column axis is the offset axis: no start index, the result's own column
    show gather_S9x16_S131072x1_S131072x16_1_0_n_n_0_1_116.start (ix2 R l) idx 1
      + gather_S9x16_S131072x1_S131072x16_1_0_n_n_0_1_116.batchCoord (ix2 R l) 1
      + gather_S9x16_S131072x1_S131072x16_1_0_n_n_0_1_116.offCoord (ix2 R l) 1 = _
    rw [GatherDims.batchCoord_eq_zero _ _ _ List.not_mem_nil]
    unfold GatherDims.start GatherDims.offCoord
    rw [dif_neg (show ¬(1 : Fin 2) ∈ gather_S9x16_S131072x1_S131072x16_1_0_n_n_0_1_116.startIndexMap by decide),
      dif_pos (show (1 : Fin 2) ∈ gather_S9x16_S131072x1_S131072x16_1_0_n_n_0_1_116.sKept by decide)]
    have e : ∀ h, gather_S9x16_S131072x1_S131072x16_1_0_n_n_0_1_116.offsetDims[List.idxOf (1 : Fin 2)
        gather_S9x16_S131072x1_S131072x16_1_0_n_n_0_1_116.sKept]'h = (1 : Fin 2) := by decide
    rw [e]
    simp only [Nat.zero_add]

/-- The gathered stage at (R, l): the embedding row the action word of row R selects. -/
private theorem emb_apply (a : (⟨1, ![131072]⟩ : Shape).Idx → BitVec 32) (x3 : (⟨2, ![9, 16]⟩ : Shape).Idx → EReal)
    (R : Fin 131072) (l : Fin 16) :
    val_main_v6 (F := Ideal) a x3 (ix2 R l) = x3 (ix2 (Spec.refRow (a (ix1 R))) l) := by
  have e5 : idx_main_v5 (ix2 R (0 : Fin 1)) = ix1 R :=
    funext fun b => Fin.ext (by match b with | ⟨0, _⟩ => rfl)
  have hw : val_main_v5 (F := Ideal) a (ix2 R (0 : Fin 1)) = Spec.wrapWord (a (ix1 R)) := by
    rw [val_main_v5_apply, e5, word_apply]
  unfold val_main_v6
  rw [gather_apply]
  refine congrArg (fun r => x3 (ix2 r l)) (Fin.ext ?_)
  show min (val_main_v5 (F := Ideal) a (ix2 R (0 : Fin 1))).toInt.toNat 8 = min (Spec.wrapWord (a (ix1 R))).toInt.toNat 8
  rw [hw]

/-- The concatenated stage at (R, l): the latent row, then the selected embedding row. -/
private theorem fused_apply (x0 : (⟨2, ![131072, 64]⟩ : Shape).Idx → EReal)
    (a : (⟨1, ![131072]⟩ : Shape).Idx → BitVec 32) (x3 : (⟨2, ![9, 16]⟩ : Shape).Idx → EReal)
    (R : Fin 131072) (l : Fin 80) :
    val_main_v7 (F := Ideal) x0 a x3 (ix2 R l)
      = Spec.fusedRow (fun l => x0 (ix2 R l)) (fun l => x3 (ix2 (Spec.refRow (a (ix1 R))) l)) l := by
  unfold val_main_v7 Spec.fusedRow
  by_cases h : l.val < 64
  · rw [dif_pos h]
    exact concatenate_pair_apply_left 1 x0 _ concatenates_S131072x64_S131072x16_S131072x80_d1 (ix2 R l) rfl
      (ix2 R ⟨l.val, h⟩) (fun b => match b with | ⟨0, _⟩ => rfl | ⟨1, _⟩ => rfl)
  · rw [dif_neg h]
    rw [concatenate_pair_apply_right 1 x0 _ concatenates_S131072x64_S131072x16_S131072x80_d1 (ix2 R l) rfl rfl
      (ix2 R (⟨l.val - 64, by omega⟩ : Fin 16))
      (fun b => match b with | ⟨0, _⟩ => fun _ => rfl | ⟨1, _⟩ => fun hb => absurd rfl hb)
      (by show l.val - 64 + 64 = l.val; omega)]
    exact emb_apply a x3 R _

variable (A : Cert.Model.Args)

/-- The rectified fused input at (R, j). -/
theorem x_apply (R : Fin 131072) (j : Fin 128) :
    val_main_v13 (F := Ideal) A.z A.act A.emb A.fW A.fb (ix2 R j) = A.xRow R j := by
  have el : ∀ k : Fin 80, lidx_main_v9 (ix2 R j) k = ix2 R k := fun k =>
    funext fun a => Fin.ext (by match a with | ⟨0, _⟩ => rfl | ⟨1, _⟩ => rfl)
  have er : ∀ k : Fin 80, idx_main_v8 (ridx_main_v9 (ix2 R j) k) = ix2 j k := fun k =>
    funext fun a => Fin.ext (by match a with | ⟨0, _⟩ => rfl | ⟨1, _⟩ => rfl)
  have eb : idx_main_v10 (idx_main_v11 (ix2 R j)) = ix1 j :=
    funext fun a => Fin.ext (by match a with | ⟨0, _⟩ => rfl)
  rw [val_main_v13_apply, val_main_v12_apply, val_main_v9_apply, val_main_v11_apply, val_main_v10_apply,
    val_main_call0_v0_apply, val_main_call0_cst_apply]
  simp only [val_main_v8_apply, el, er, eb, fused_apply, Ideal.addf_def, Ideal.maximumf_def, Ideal.ofBits_def,
    Ideal.ofBits_zero_f32]
  rfl

/-- The reshaped hidden state at (R, k): the leading unit axis dropped. -/
private theorem hid_apply (R : Fin 131072) (k : Fin 128) :
    val_main_v14 (F := Ideal) A.hid (ix2 R k) = A.hRow R k := by
  have e : idx_main_v14 (ix2 R k) = ix3 (0 : Fin 1) R k := funext fun a => Fin.ext (by
    have hR := R.isLt
    have hk := k.isLt
    match a with
    | ⟨0, _⟩ => rfl
    | ⟨1, _⟩ => show (R.val * 128 + k.val) / 128 % 131072 = R.val; omega
    | ⟨2, _⟩ => show (R.val * 128 + k.val) % 128 = k.val; omega)
  rw [val_main_v14_apply, e]
  rfl

/-- The input-side pre-activation at (R, q): x · W_ih^T + b_ih over all 384 gate columns. -/
private theorem gi_apply (R : Fin 131072) (q : Fin 384) :
    val_main_v19 (F := Ideal) A.z A.act A.emb A.fW A.fb A.Wih A.bih (ix2 R q)
      = Spec.gateRef (A.xRow R) (fun q k => A.Wih (ix2 q k)) (fun q => A.bih (ix1 q)) q := by
  have el : ∀ k : Fin 128, lidx_main_v16 (ix2 R q) k = ix2 R k := fun k =>
    funext fun a => Fin.ext (by match a with | ⟨0, _⟩ => rfl | ⟨1, _⟩ => rfl)
  have er : ∀ k : Fin 128, idx_main_v15 (ridx_main_v16 (ix2 R q) k) = ix2 q k := fun k =>
    funext fun a => Fin.ext (by match a with | ⟨0, _⟩ => rfl | ⟨1, _⟩ => rfl)
  have eb : idx_main_v17 (idx_main_v18 (ix2 R q)) = ix1 q :=
    funext fun a => Fin.ext (by match a with | ⟨0, _⟩ => rfl)
  rw [val_main_v19_apply, val_main_v16_apply, val_main_v18_apply, val_main_v17_apply]
  simp only [val_main_v15_apply, el, er, eb, x_apply A, Ideal.addf_def]
  rfl

/-- The hidden-side pre-activation at (R, q): h · W_hh^T + b_hh over all 384 gate columns. -/
private theorem gh_apply (R : Fin 131072) (q : Fin 384) :
    val_main_v24 (F := Ideal) A.hid A.Whh A.bhh (ix2 R q)
      = Spec.gateRef (A.hRow R) (fun q k => A.Whh (ix2 q k)) (fun q => A.bhh (ix1 q)) q := by
  have el : ∀ k : Fin 128, lidx_main_v21 (ix2 R q) k = ix2 R k := fun k =>
    funext fun a => Fin.ext (by match a with | ⟨0, _⟩ => rfl | ⟨1, _⟩ => rfl)
  have er : ∀ k : Fin 128, idx_main_v20 (ridx_main_v21 (ix2 R q) k) = ix2 q k := fun k =>
    funext fun a => Fin.ext (by match a with | ⟨0, _⟩ => rfl | ⟨1, _⟩ => rfl)
  have eb : idx_main_v22 (idx_main_v23 (ix2 R q)) = ix1 q :=
    funext fun a => Fin.ext (by match a with | ⟨0, _⟩ => rfl)
  rw [val_main_v24_apply, val_main_v21_apply, val_main_v23_apply, val_main_v22_apply]
  simp only [val_main_v20_apply, el, er, eb, hid_apply A, Ideal.addf_def]
  rfl

/-- The reference's spelling of the sigmoid, 1 / (1 + exp(−s)) with the word of 1.0, is the logistic function. -/
private theorem sigmoid_eq (s : EReal) :
    Ideal.div (Ideal.ofBits .f32 0x3F800000#32) (Ideal.ofBits .f32 0x3F800000#32 + Ideal.exp (-s)) = Ideal.logistic s := by
  have h : Ideal.ofBits .f32 0x3F800000#32 = (1 : EReal) := Spec.one1_eq
  rw [h]
  rfl

/-- The new hidden state at (R, j). -/
theorem hn_apply (R : Fin 131072) (j : Fin 128) :
    val_main_v52 (F := Ideal) A.z A.act A.hid A.emb A.fW A.fb A.Wih A.Whh A.bih A.bhh (ix2 R j) = A.hnRow R j := by
  -- the three slices of each pre-activation read columns j, 128 + j and 256 + j
  have e25 : idx_main_v25 (ix2 R j) = ix2 R (⟨j.val, by omega⟩ : Fin 384) :=
    funext fun a => Fin.ext (by match a with | ⟨0, _⟩ => rfl | ⟨1, _⟩ => rfl)
  have e26 : idx_main_v26 (ix2 R j) = ix2 R (⟨j.val, by omega⟩ : Fin 384) :=
    funext fun a => Fin.ext (by match a with | ⟨0, _⟩ => rfl | ⟨1, _⟩ => rfl)
  have e34 : idx_main_v34 (ix2 R j) = ix2 R (⟨128 + j.val, by omega⟩ : Fin 384) :=
    funext fun a => Fin.ext (by match a with | ⟨0, _⟩ => rfl | ⟨1, _⟩ => rfl)
  have e35 : idx_main_v35 (ix2 R j) = ix2 R (⟨128 + j.val, by omega⟩ : Fin 384) :=
    funext fun a => Fin.ext (by match a with | ⟨0, _⟩ => rfl | ⟨1, _⟩ => rfl)
  have e43 : idx_main_v43 (ix2 R j) = ix2 R (⟨256 + j.val, by omega⟩ : Fin 384) :=
    funext fun a => Fin.ext (by match a with | ⟨0, _⟩ => rfl | ⟨1, _⟩ => rfl)
  have e44 : idx_main_v44 (ix2 R j) = ix2 R (⟨256 + j.val, by omega⟩ : Fin 384) :=
    funext fun a => Fin.ext (by match a with | ⟨0, _⟩ => rfl | ⟨1, _⟩ => rfl)
  simp only [val_main_v52_apply, val_main_v50_apply, val_main_v51_apply, val_main_v49_apply, val_main_v48_apply,
    val_main_cst_4_apply, val_main_v47_apply, val_main_v46_apply, val_main_v45_apply, val_main_v43_apply,
    val_main_v44_apply, val_main_v42_apply, val_main_v41_apply, val_main_cst_3_apply, val_main_v40_apply,
    val_main_v39_apply, val_main_cst_2_apply, val_main_v38_apply, val_main_v37_apply, val_main_v36_apply,
    val_main_v34_apply, val_main_v35_apply, val_main_v33_apply, val_main_v32_apply, val_main_cst_1_apply,
    val_main_v31_apply, val_main_v30_apply, val_main_cst_apply, val_main_v29_apply, val_main_v28_apply,
    val_main_v27_apply, val_main_v25_apply, val_main_v26_apply,
    e25, e26, e34, e35, e43, e44, gi_apply A, gh_apply A, hid_apply A,
    Ideal.addf_def, Ideal.subf_def, Ideal.mulf_def, Ideal.hostDivf_def, Ideal.hostNegf_def, Ideal.negf_def,
    Ideal.hostUnary_exp_def, Ideal.hostUnary_tanh_def, Ideal.ofBits_def, sigmoid_eq]
  rfl

end Cert.ReferenceIdeal.RefValue

end
-- ==== Proof.Ref.Heads.lean ====
/-
  The reference program's four results as the model's arrays.

  Each head is the new hidden row times a transposed first-layer weight plus bias, rectified, times a transposed
  second-layer weight plus bias; the fourth result is the new hidden state with a leading unit axis.
-/
import proofs.«430544_j81647328297666_3_alg».proof.Proof.Ref.Hidden

noncomputable section
set_option maxRecDepth 16384

open scoped BigOperators

namespace Cert.ReferenceIdeal.RefValue

open Cert.ReferenceIdeal Cert.ReferenceIdeal.Gen Cert.ReferenceIdeal.Read
open Idealize.ShloMosaic Idealize.ShloMosaic.ValueIdx

variable (A : Cert.Model.Args)

/-- The next-latent head's rectified hidden layer at row `R`, unit `k`: the new hidden row against row `k` of the first weight, plus bias, clipped below at zero. -/
private theorem nextHid (R : Fin 131072) (k : Fin 128) :
    val_main_v58 (F := Ideal) A.z A.act A.hid A.emb A.fW A.fb A.Wih A.Whh A.bih A.bhh A.nW1 A.nb1 (ix2 R k)
      = Spec.relu ((∑ k' : Fin 128, A.hnRow R k' * A.nW1 (ix2 k k')) + A.nb1 (ix1 k)) := by
  rw [val_main_v58_apply, val_main_v57_apply, val_main_v54_apply, val_main_v56_apply, val_main_v55_apply,
    val_main_call1_v0_apply, val_main_call1_cst_apply]
  -- the bias is broadcast along the rows: entry (R, k) reads b1 at k
  have eb : idx_main_v55 (idx_main_v56 (ix2 R k)) = ix1 k :=
    funext fun a => Fin.ext (by match a with | ⟨0, _⟩ => rfl)
  -- term k' of the contraction: the new hidden row at k' times the transposed weight, that is W1 at (k, k')
  have es : ∀ k' : Fin 128,
      val_main_v52 (F := Ideal) A.z A.act A.hid A.emb A.fW A.fb A.Wih A.Whh A.bih A.bhh (lidx_main_v54 (ix2 R k) k')
          * val_main_v53 (F := Ideal) A.nW1 (ridx_main_v54 (ix2 R k) k')
        = A.hnRow R k' * A.nW1 (ix2 k k') := by
    intro k'
    have el : lidx_main_v54 (ix2 R k) k' = ix2 R k' :=
      funext fun a => Fin.ext (by match a with | ⟨0, _⟩ => rfl | ⟨1, _⟩ => rfl)
    have er : idx_main_v53 (ridx_main_v54 (ix2 R k) k') = ix2 k k' :=
      funext fun a => Fin.ext (by match a with | ⟨0, _⟩ => rfl | ⟨1, _⟩ => rfl)
    rw [val_main_v53_apply, el, er, hn_apply]
  rw [eb, Finset.sum_congr rfl fun k' _ => es k']
  simp only [Ideal.addf_def, Ideal.maximumf_def, Ideal.ofBits_def, Ideal.ofBits_zero_f32]

/-- The next latent state. -/
theorem out0_eq : val_main_v63 (F := Ideal) A.z A.act A.hid A.emb A.fW A.fb A.Wih A.Whh A.bih A.bhh A.nW1 A.nb1 A.nW2 A.nb2 = A.out0 := by
  funext i
  obtain ⟨R, j, rfl⟩ : ∃ (R : Fin 131072) (j : Fin 64), i = ix2 R j := ⟨i 0, i 1, eq_ix2 i⟩
  rw [A.out0_apply, val_main_v63_apply, val_main_v60_apply, val_main_v62_apply, val_main_v61_apply]
  have eb : idx_main_v61 (idx_main_v62 (ix2 R j)) = ix1 j :=
    funext fun a => Fin.ext (by match a with | ⟨0, _⟩ => rfl)
  -- term k of the contraction: the rectified hidden unit k times the transposed weight, that is W2 at (j, k)
  have es : ∀ k : Fin 128,
      val_main_v58 (F := Ideal) A.z A.act A.hid A.emb A.fW A.fb A.Wih A.Whh A.bih A.bhh A.nW1 A.nb1 (lidx_main_v60 (ix2 R j) k)
          * val_main_v59 (F := Ideal) A.nW2 (ridx_main_v60 (ix2 R j) k)
        = Spec.relu ((∑ k' : Fin 128, A.hnRow R k' * A.nW1 (ix2 k k')) + A.nb1 (ix1 k)) * A.nW2 (ix2 j k) := by
    intro k
    have el : lidx_main_v60 (ix2 R j) k = ix2 R k :=
      funext fun a => Fin.ext (by match a with | ⟨0, _⟩ => rfl | ⟨1, _⟩ => rfl)
    have er : idx_main_v59 (ridx_main_v60 (ix2 R j) k) = ix2 j k :=
      funext fun a => Fin.ext (by match a with | ⟨0, _⟩ => rfl | ⟨1, _⟩ => rfl)
    rw [val_main_v59_apply, el, er, nextHid]
  rw [eb, Finset.sum_congr rfl fun k _ => es k]
  simp only [Ideal.addf_def]
  rfl

/-- The reward head's rectified hidden layer at row `R`, unit `k`. -/
private theorem rewardHid (R : Fin 131072) (k : Fin 64) :
    val_main_v69 (F := Ideal) A.z A.act A.hid A.emb A.fW A.fb A.Wih A.Whh A.bih A.bhh A.rW1 A.rb1 (ix2 R k)
      = Spec.relu ((∑ k' : Fin 128, A.hnRow R k' * A.rW1 (ix2 k k')) + A.rb1 (ix1 k)) := by
  rw [val_main_v69_apply, val_main_v68_apply, val_main_v65_apply, val_main_v67_apply, val_main_v66_apply,
    val_main_call2_v0_apply, val_main_call2_cst_apply]
  -- the bias is broadcast along the rows: entry (R, k) reads b1 at k
  have eb : idx_main_v66 (idx_main_v67 (ix2 R k)) = ix1 k :=
    funext fun a => Fin.ext (by match a with | ⟨0, _⟩ => rfl)
  -- term k' of the contraction: the new hidden row at k' times the transposed weight, that is W1 at (k, k')
  have es : ∀ k' : Fin 128,
      val_main_v52 (F := Ideal) A.z A.act A.hid A.emb A.fW A.fb A.Wih A.Whh A.bih A.bhh (lidx_main_v65 (ix2 R k) k')
          * val_main_v64 (F := Ideal) A.rW1 (ridx_main_v65 (ix2 R k) k')
        = A.hnRow R k' * A.rW1 (ix2 k k') := by
    intro k'
    have el : lidx_main_v65 (ix2 R k) k' = ix2 R k' :=
      funext fun a => Fin.ext (by match a with | ⟨0, _⟩ => rfl | ⟨1, _⟩ => rfl)
    have er : idx_main_v64 (ridx_main_v65 (ix2 R k) k') = ix2 k k' :=
      funext fun a => Fin.ext (by match a with | ⟨0, _⟩ => rfl | ⟨1, _⟩ => rfl)
    rw [val_main_v64_apply, el, er, hn_apply]
  rw [eb, Finset.sum_congr rfl fun k' _ => es k']
  simp only [Ideal.addf_def, Ideal.maximumf_def, Ideal.ofBits_def, Ideal.ofBits_zero_f32]

/-- The reward. -/
theorem out1_eq : val_main_v74 (F := Ideal) A.z A.act A.hid A.emb A.fW A.fb A.Wih A.Whh A.bih A.bhh A.rW1 A.rb1 A.rW2 A.rb2 = A.out1 := by
  funext i
  obtain ⟨R, j, rfl⟩ : ∃ (R : Fin 131072) (j : Fin 1), i = ix2 R j := ⟨i 0, i 1, eq_ix2 i⟩
  -- the second axis has one point
  obtain rfl : j = 0 := Subsingleton.elim _ _
  rw [A.out1_apply, val_main_v74_apply, val_main_v71_apply, val_main_v73_apply, val_main_v72_apply]
  have eb : idx_main_v72 (idx_main_v73 (ix2 R (0 : Fin 1))) = ix1 (0 : Fin 1) :=
    funext fun a => Fin.ext (by match a with | ⟨0, _⟩ => rfl)
  -- term k of the contraction: the rectified hidden unit k times the transposed weight, that is W2 at (j, k)
  have es : ∀ k : Fin 64,
      val_main_v69 (F := Ideal) A.z A.act A.hid A.emb A.fW A.fb A.Wih A.Whh A.bih A.bhh A.rW1 A.rb1 (lidx_main_v71 (ix2 R (0 : Fin 1)) k)
          * val_main_v70 (F := Ideal) A.rW2 (ridx_main_v71 (ix2 R (0 : Fin 1)) k)
        = Spec.relu ((∑ k' : Fin 128, A.hnRow R k' * A.rW1 (ix2 k k')) + A.rb1 (ix1 k)) * A.rW2 (ix2 (0 : Fin 1) k) := by
    intro k
    have el : lidx_main_v71 (ix2 R (0 : Fin 1)) k = ix2 R k :=
      funext fun a => Fin.ext (by match a with | ⟨0, _⟩ => rfl | ⟨1, _⟩ => rfl)
    have er : idx_main_v70 (ridx_main_v71 (ix2 R (0 : Fin 1)) k) = ix2 (0 : Fin 1) k :=
      funext fun a => Fin.ext (by match a with | ⟨0, _⟩ => rfl | ⟨1, _⟩ => rfl)
    rw [val_main_v70_apply, el, er, rewardHid]
  rw [eb, Finset.sum_congr rfl fun k _ => es k]
  simp only [Ideal.addf_def]
  rfl

/-- The done-logit head's rectified hidden layer at row `R`, unit `k`. -/
private theorem doneHid (R : Fin 131072) (k : Fin 64) :
    val_main_v80 (F := Ideal) A.z A.act A.hid A.emb A.fW A.fb A.Wih A.Whh A.bih A.bhh A.dW1 A.db1 (ix2 R k)
      = Spec.relu ((∑ k' : Fin 128, A.hnRow R k' * A.dW1 (ix2 k k')) + A.db1 (ix1 k)) := by
  rw [val_main_v80_apply, val_main_v79_apply, val_main_v76_apply, val_main_v78_apply, val_main_v77_apply,
    val_main_call3_v0_apply, val_main_call3_cst_apply]
  -- the bias is broadcast along the rows: entry (R, k) reads b1 at k
  have eb : idx_main_v77 (idx_main_v78 (ix2 R k)) = ix1 k :=
    funext fun a => Fin.ext (by match a with | ⟨0, _⟩ => rfl)
  -- term k' of the contraction: the new hidden row at k' times the transposed weight, that is W1 at (k, k')
  have es : ∀ k' : Fin 128,
      val_main_v52 (F := Ideal) A.z A.act A.hid A.emb A.fW A.fb A.Wih A.Whh A.bih A.bhh (lidx_main_v76 (ix2 R k) k')
          * val_main_v75 (F := Ideal) A.dW1 (ridx_main_v76 (ix2 R k) k')
        = A.hnRow R k' * A.dW1 (ix2 k k') := by
    intro k'
    have el : lidx_main_v76 (ix2 R k) k' = ix2 R k' :=
      funext fun a => Fin.ext (by match a with | ⟨0, _⟩ => rfl | ⟨1, _⟩ => rfl)
    have er : idx_main_v75 (ridx_main_v76 (ix2 R k) k') = ix2 k k' :=
      funext fun a => Fin.ext (by match a with | ⟨0, _⟩ => rfl | ⟨1, _⟩ => rfl)
    rw [val_main_v75_apply, el, er, hn_apply]
  rw [eb, Finset.sum_congr rfl fun k' _ => es k']
  simp only [Ideal.addf_def, Ideal.maximumf_def, Ideal.ofBits_def, Ideal.ofBits_zero_f32]

/-- The done logit. -/
theorem out2_eq : val_main_v85 (F := Ideal) A.z A.act A.hid A.emb A.fW A.fb A.Wih A.Whh A.bih A.bhh A.dW1 A.db1 A.dW2 A.db2 = A.out2 := by
  funext i
  obtain ⟨R, j, rfl⟩ : ∃ (R : Fin 131072) (j : Fin 1), i = ix2 R j := ⟨i 0, i 1, eq_ix2 i⟩
  -- the second axis has one point
  obtain rfl : j = 0 := Subsingleton.elim _ _
  rw [A.out2_apply, val_main_v85_apply, val_main_v82_apply, val_main_v84_apply, val_main_v83_apply]
  have eb : idx_main_v83 (idx_main_v84 (ix2 R (0 : Fin 1))) = ix1 (0 : Fin 1) :=
    funext fun a => Fin.ext (by match a with | ⟨0, _⟩ => rfl)
  -- term k of the contraction: the rectified hidden unit k times the transposed weight, that is W2 at (j, k)
  have es : ∀ k : Fin 64,
      val_main_v80 (F := Ideal) A.z A.act A.hid A.emb A.fW A.fb A.Wih A.Whh A.bih A.bhh A.dW1 A.db1 (lidx_main_v82 (ix2 R (0 : Fin 1)) k)
          * val_main_v81 (F := Ideal) A.dW2 (ridx_main_v82 (ix2 R (0 : Fin 1)) k)
        = Spec.relu ((∑ k' : Fin 128, A.hnRow R k' * A.dW1 (ix2 k k')) + A.db1 (ix1 k)) * A.dW2 (ix2 (0 : Fin 1) k) := by
    intro k
    have el : lidx_main_v82 (ix2 R (0 : Fin 1)) k = ix2 R k :=
      funext fun a => Fin.ext (by match a with | ⟨0, _⟩ => rfl | ⟨1, _⟩ => rfl)
    have er : idx_main_v81 (ridx_main_v82 (ix2 R (0 : Fin 1)) k) = ix2 (0 : Fin 1) k :=
      funext fun a => Fin.ext (by match a with | ⟨0, _⟩ => rfl | ⟨1, _⟩ => rfl)
    rw [val_main_v81_apply, el, er, doneHid]
  rw [eb, Finset.sum_congr rfl fun k _ => es k]
  simp only [Ideal.addf_def]
  rfl

/-- The new hidden state with its leading unit axis. -/
theorem out3_eq : val_main_v86 (F := Ideal) A.z A.act A.hid A.emb A.fW A.fb A.Wih A.Whh A.bih A.bhh = A.out3 := by
  funext i
  obtain ⟨u, R, j, rfl⟩ : ∃ (u : Fin 1) (R : Fin 131072) (j : Fin 128), i = ix3 u R j := ⟨i 0, i 1, i 2, eq_ix3 i⟩
  -- the leading axis is dropped: entry (u, R, j) reads the new hidden state at (R, j)
  have e : idx_main_v86 (ix3 u R j) = ix2 R j :=
    funext fun a => Fin.ext (by match a with | ⟨0, _⟩ => rfl | ⟨1, _⟩ => rfl)
  rw [A.out3_apply, val_main_v86_apply, e, hn_apply]

end Cert.ReferenceIdeal.RefValue

end
-- ==== Proof.Ref.Args.lean ====
/-
  The idealized reference program's twenty-two argument arrays on a core, gathered as the model's arguments.
-/
import proofs.«430544_j81647328297666_3_alg».proof.Proof.Gen.ReferenceIdeal
import proofs.«430544_j81647328297666_3_alg».proof.Proof.Model

noncomputable section

namespace Cert.ReferenceIdeal.RefValue

open Cert.ReferenceIdeal Cert.ReferenceIdeal.Gen
open Idealize.ShloMosaic Idealize.ShloMosaic.TcCoe Idealize.SL.Sem

/-- The argument arrays of core `c` in memory `m`. -/
def argsR (m : (ℓ : Loc nD τ sig) → Buf (Elt Ideal) ℓ) (c : Dev nD) : Cert.Model.Args where
  z := m ((c.tc : Thread nD τ).loc main_arg0)
  act := m ((c.tc : Thread nD τ).loc main_arg1)
  hid := m ((c.tc : Thread nD τ).loc main_arg2)
  emb := m ((c.tc : Thread nD τ).loc main_arg3)
  fW := m ((c.tc : Thread nD τ).loc main_arg4)
  fb := m ((c.tc : Thread nD τ).loc main_arg5)
  Wih := m ((c.tc : Thread nD τ).loc main_arg6)
  Whh := m ((c.tc : Thread nD τ).loc main_arg7)
  bih := m ((c.tc : Thread nD τ).loc main_arg8)
  bhh := m ((c.tc : Thread nD τ).loc main_arg9)
  nW1 := m ((c.tc : Thread nD τ).loc main_arg10)
  nb1 := m ((c.tc : Thread nD τ).loc main_arg11)
  nW2 := m ((c.tc : Thread nD τ).loc main_arg12)
  nb2 := m ((c.tc : Thread nD τ).loc main_arg13)
  rW1 := m ((c.tc : Thread nD τ).loc main_arg14)
  rb1 := m ((c.tc : Thread nD τ).loc main_arg15)
  rW2 := m ((c.tc : Thread nD τ).loc main_arg16)
  rb2 := m ((c.tc : Thread nD τ).loc main_arg17)
  dW1 := m ((c.tc : Thread nD τ).loc main_arg18)
  db1 := m ((c.tc : Thread nD τ).loc main_arg19)
  dW2 := m ((c.tc : Thread nD τ).loc main_arg20)
  db2 := m ((c.tc : Thread nD τ).loc main_arg21)

end Cert.ReferenceIdeal.RefValue

end
-- ==== Proof.Ref.Value.lean ====
/-
  The idealized reference program's run: every weakly fair execution terminates with the four results at the model's
  arrays of the argument arrays, and the arguments unchanged.
-/
import proofs.«430544_j81647328297666_3_alg».proof.Proof.Ref.Heads
import proofs.«430544_j81647328297666_3_alg».proof.Proof.Ref.Args

noncomputable section

namespace Cert.ReferenceIdeal.RefValue

open Cert.ReferenceIdeal Cert.ReferenceIdeal.Gen
open Idealize.ShloMosaic Idealize.ShloMosaic.TcCoe Idealize.SL.Sem

/-- The reference's run with each result named as the model's array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = (argsR m c).out0
      ∧ r.2.mem ((c.tc : Thread nD τ).loc main_v74) = (argsR m c).out1
      ∧ r.2.mem ((c.tc : Thread nD τ).loc main_v85) = (argsR m c).out2
      ∧ r.2.mem ((c.tc : Thread nD τ).loc main_v86) = (argsR m c).out3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
      ⟨(h c).1.trans ((Cert.ReferenceIdeal.Read.val_main_v63_eq m c).trans (out0_eq (argsR m c))),
       (h c).2.1.trans ((Cert.ReferenceIdeal.Read.val_main_v74_eq m c).trans (out1_eq (argsR m c))),
       (h c).2.2.1.trans ((Cert.ReferenceIdeal.Read.val_main_v85_eq m c).trans (out2_eq (argsR m c))),
       (h c).2.2.2.1.trans ((Cert.ReferenceIdeal.Read.val_main_v86_eq m c).trans (out3_eq (argsR m c))),
       (h c).2.2.2.2⟩)
    (Cert.ReferenceIdeal.Value.run (F := Ideal) m ρ)

end Cert.ReferenceIdeal.RefValue

end
-- ==== Proof.PreAct.lean ====
/-
  What the precondition says of the action words: its last conjunct is "every action word, read signed, is at least
  zero", the conjunction of `action[i] ≥ 0` over all rows.
-/
import proofs.«430544_j81647328297666_3_alg».proof.Pre_finite_inputs
import proofs.«430544_j81647328297666_3_alg».proof.Proof.Gen.Pre_finite_inputs
import Idealize.ShloMosaic.Lib.ReduceAll
import Idealize.ShloMosaic.Lib.StableHlo.Predicate

noncomputable section

namespace Cert.Pre_finite_inputs.Hand

open Cert.Pre_finite_inputs Idealize.ShloMosaic

/-- The shape of rank zero has exactly one index: there is no axis to give a coordinate on. -/
private instance subsingleton_scalar_idx : Subsingleton S_.Idx := ⟨fun a b => funext fun d => d.elim0⟩

/-- A scalar zero broadcast along the rows reads zero at every row. -/
private theorem zero_row (i : S131072.Idx) :
    broadcastInDim S131072 ![] Facts.bcast_S_S131072 (constantI S_ 32 0#32) i = 0#32 := rfl

/-- If the printed precondition holds of the argument arrays, every action word is non-negative as a signed integer. -/
theorem act_nonneg {F : FTy → Type} [FloatOps F] (a0 : FVec F S131072x64 .f32) (a1 : IVec S131072 32) (a2 : FVec F S1x131072x128 .f32) (a3 : FVec F S9x16 .f32)
    (a4 : FVec F S128x80 .f32) (a5 : FVec F S128 .f32) (a6 : FVec F S384x128 .f32) (a7 : FVec F S384x128 .f32) (a8 : FVec F S384 .f32)
    (a9 : FVec F S384 .f32) (a10 : FVec F S128x128 .f32) (a11 : FVec F S128 .f32) (a12 : FVec F S64x128 .f32) (a13 : FVec F S64 .f32)
    (a14 : FVec F S64x128 .f32) (a15 : FVec F S64 .f32) (a16 : FVec F S1x64 .f32) (a17 : FVec F S1 .f32) (a18 : FVec F S64x128 .f32)
    (a19 : FVec F S64 .f32) (a20 : FVec F S1x64 .f32) (a21 : FVec F S1 .f32)
    (h : Cert.Pre_finite_inputs.fn (F := F) a0 a1 a2 a3 a4 a5 a6 a7 a8 a9 a10 a11 a12 a13 a14 a15 a16 a17 a18 a19 a20 a21 = (fun _ => 1#1))
    (i : S131072.Idx) : 0 ≤ (a1 i).toInt := by
  -- the predicate has rank zero; read it at its one index
  have h0 := congrFun h (fun d => d.elim0)
  -- the printed chain, opened up: a nest of conjunctions whose outermost right operand is the test on the action words
  unfold fn fn_part1 fn_part2 fn_part3 fn_part4 fn_part5 fn_part6 at h0
  dsimp only at h0
  -- a conjunction of bits is 1 only if both are: keep the right one, "all rows have action ≥ 0"
  have h1 := (IntOp.andi_eq_one.1 h0).2
  -- an and-reduction over every row that came out 1 saw a 1 at each row, in particular at row i
  have h2 : IntOp.cmpi .sge (a1 i) (broadcastInDim S131072 ![] Facts.bcast_S_S131072 (constantI S_ 32 0#32) i) = 1#1 :=
    Host.reduce_andi_all _ _ _ _ _ h1 i
  -- the signed comparison read back as an inequality of integers, its right side being the word zero
  have h3 := IntOp.cmpi_sge.1 h2
  rw [zero_row, BitVec.toInt_zero] at h3
  exact h3

end Cert.Pre_finite_inputs.Hand

end
-- ==== Proof.lean ====
/-
  The certificate of the fused GRU world-model step: a Pallas kernel that folds the embedding lookup, the input fusion, the
  two GRU products and the three output heads into five matrix products over fused weight arrays, against the plain
  reference, over the extended reals.

  Frames. The two kernel programs run their one pallas_call between host operations: the body loads twelve input blocks,
  stores three covering values, and the launch theorem for a region between host lines gives termination with the
  argument arrays untouched. The reference is host operations only; its frame is its run with the results dropped.

  Values. Row R of every result depends on row R of the latent input, on the action word of row R and on row R of the
  hidden state. The kernel clamps the action word into [0, 8] and multiplies its one-hot row by the table
  embed · fuse_Wa^T; the reference wraps a negative word by 9 and gathers the embedding row, clamped. For a non-negative
  word both select the same row, which is why the precondition asks action ≥ 0. The fused weight arrays differ from the
  model's parameters only by blocks of exact zeros and by how sums are grouped, so with x · 0 = 0 and the commutativity
  and associativity of + the two programs compute one function: no finiteness of the inputs is used.
-/
import proofs.«430544_j81647328297666_3_alg».proof.Defs
import proofs.«430544_j81647328297666_3_alg».proof.Proof.Gen.Kernel
import proofs.«430544_j81647328297666_3_alg».proof.Proof.Gen.KernelIdeal
import proofs.«430544_j81647328297666_3_alg».proof.Proof.Gen.ReferenceIdeal
import proofs.«430544_j81647328297666_3_alg».proof.Proof.Gen.Pre_finite_inputs
import proofs.«430544_j81647328297666_3_alg».proof.Proof.K.Frame
import proofs.«430544_j81647328297666_3_alg».proof.Proof.KI.Value
import proofs.«430544_j81647328297666_3_alg».proof.Proof.Ref.Value
import proofs.«430544_j81647328297666_3_alg».proof.Proof.PreAct
import Idealize.ShloMosaic.Adequacy
import Idealize.ShloMosaic.Init

noncomputable section

namespace Cert.Proof

open Idealize.ShloMosaic Idealize.ShloMosaic.ValueIdx Idealize.SL.Sem

/-- The word-level kernel program terminates and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the results dropped. -/
theorem frame_ri : Cert.frame_ReferenceIdeal := fun m ρ _ =>
  (θ_run Cert.ReferenceIdeal.defs _ _).mono (fun _ h c => (h c).2.2.2.2) (Cert.ReferenceIdeal.RefValue.run m ρ)

/-- The ideal pass rewrote nothing: the idealization is the program's own text read over the extended reals. -/
theorem preserves : Cert.preserves_Kernel_KernelIdeal := trivial

/-- Both idealized programs end with the model's four arrays of the (agreeing) argument arrays. -/
theorem algebraic : Cert.algebraic_KernelIdeal_ReferenceIdeal := by
  intro m ρ m' ρ' hpre hagree
  have hpos : ∀ (c : Dev Cert.KernelIdeal.nD) (R : Fin 131072),
      0 ≤ ((Cert.KernelIdeal.Hand.argsK m c).act (ix1 R)).toInt := fun c R =>
    Cert.Pre_finite_inputs.Hand.act_nonneg (F := Ideal) _ _ _ _ _ _ _ _ _ _ _ _ _ _ _ _ _ _ _ _ _ _ (hpre c) (ix1 R)
  refine ⟨fun c => (Cert.KernelIdeal.Hand.argsK m c).out0, fun c => (Cert.KernelIdeal.Hand.argsK m c).out1,
    fun c => (Cert.KernelIdeal.Hand.argsK m c).out2, fun c => (Cert.KernelIdeal.Hand.argsK m c).out3,
    Cert.KernelIdeal.Hand.run m ρ hpos, ?_⟩
  refine (θ_run Cert.ReferenceIdeal.defs _ _).mono (fun _ h c => ?_) (Cert.ReferenceIdeal.RefValue.run m' ρ')
  have hA : Cert.ReferenceIdeal.RefValue.argsR m' c = Cert.KernelIdeal.Hand.argsK m c := by
    simp only [Cert.ReferenceIdeal.RefValue.argsR, Cert.KernelIdeal.Hand.argsK, Cert.Model.Args.mk.injEq]
    exact hagree c
  have h' := h c
  rw [hA] at h'
  exact h'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
